-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x768 : Shape := ⟨2, ![2048, 768]⟩
abbrev S2048x2048 : Shape := ⟨2, ![2048, 2048]⟩
abbrev S1x2048x4 : Shape := ⟨3, ![1, 2048, 4]⟩
abbrev S4x768x192 : Shape := ⟨3, ![4, 768, 192]⟩
abbrev S4x192 : Shape := ⟨2, ![4, 192]⟩
abbrev S768x768 : Shape := ⟨2, ![768, 768]⟩
abbrev S768 : Shape := ⟨1, ![768]⟩
abbrev S_ : Shape := ⟨0, ![]⟩

class Facts : Prop where
  bcast_S_S2048x768 : S_.BroadcastsInDim S2048x768 (![] : Fin 0 → Fin S2048x768.rank)
  reducesTo_S2048x768_S_d0_1 : S2048x768.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S1x2048x4 : S_.BroadcastsInDim S1x2048x4 (![] : Fin 0 → Fin S1x2048x4.rank)
  reducesTo_S1x2048x4_S_d0_1_2 : S1x2048x4.ReducesTo [0, 1, 2] S_
  bcast_S_S4x768x192 : S_.BroadcastsInDim S4x768x192 (![] : Fin 0 → Fin S4x768x192.rank)
  reducesTo_S4x768x192_S_d0_1_2 : S4x768x192.ReducesTo [0, 1, 2] S_
  bcast_S_S4x192 : S_.BroadcastsInDim S4x192 (![] : Fin 0 → Fin S4x192.rank)
  reducesTo_S4x192_S_d0_1 : S4x192.ReducesTo [0, 1] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S4x192 .f32) (main_arg5 : FVec F S768x768 .f32) (main_arg6 : FVec F S768 .f32) (main_v13 : IVec S_ 1) (main_v16 : IVec S4x768x192 1) : IVec S_ 1 :=
  let main_c_5 : IVec S_ 1 := constantI S_ 1 1#1
  let main_v17 : IVec S_ 1 := (fun x v => Host.reduce IntOp.andi x v reducesTo_S4x768x192_S_d0_1_2 h_S_) main_v16 main_c_5
  let main_v18 : IVec S_ 1 := andi main_v13 main_v17
  let main_v19 : FVec F S4x192 .f32 := Host.absf main_arg4
  let main_cst_6 : FVec F S_ .f32 := constant S_ .f32 0x7F800000#32
  let main_v20 : FVec F S4x192 .f32 := broadcastInDim S4x192 ![] bcast_S_S4x192 main_cst_6
  let main_v21 : IVec S4x192 1 := cmpf .olt main_v19 main_v20
  let main_c_7 : IVec S_ 1 := constantI S_ 1 1#1
  let main_v22 : IVec S_ 1 := (fun x v => Host.reduce IntOp.andi x v reducesTo_S4x192_S_d0_1 h_S_) main_v21 main_c_7
  let main_v23 : IVec S_ 1 := andi main_v18 main_v22
  let main_v24 : FVec F S768x768 .f32 := Host.absf main_arg5
  let main_cst_8 : FVec F S_ .f32 := constant S_ .f32 0x7F800000#32
  let main_v25 : FVec F S768x768 .f32 := broadcastInDim S768x768 ![] bcast_S_S768x768 main_cst_8
  let main_v26 : IVec S768x768 1 := cmpf .olt main_v24 main_v25
  let main_c_9 : IVec S_ 1 := constantI S_ 1 1#1
  let main_v27 : IVec S_ 1 := (fun x v => Host.reduce IntOp.andi x v reducesTo_S768x768_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  main_v33

def fn {F : FTy → Type} [FloatOps F] (main_arg0 : FVec F S2048x768 .f32) (main_arg1 : FVec F S2048x2048 .f32) (main_arg2 : FVec F S1x2048x4 .f32) (main_arg3 : FVec F S4x768x192 .f32) (main_arg4 : FVec F S4x192 .f32) (main_arg5 : FVec F S768x768 .f32) (main_arg6 : FVec F S768 .f32) : IVec S_ 1 :=
  let main_v0 : FVec F S2048x768 .f32 := Host.absf main_arg0
  let main_cst : FVec F S_ .f32 := constant S_ .f32 0x7F800000#32
  let main_v1 : FVec F S2048x768 .f32 := broadcastInDim S2048x768 ![] bcast_S_S2048x768 main_cst
  let main_v2 : IVec S2048x768 1 := cmpf .olt main_v0 main_v1
  let main_c : IVec S_ 1 := constantI S_ 1 1#1
  let main_v3 : IVec S_ 1 := (fun x v => Host.reduce IntOp.andi x v reducesTo_S2048x768_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S1x2048x4 .f32 := Host.absf main_arg2
  let main_cst_2 : FVec F S_ .f32 := constant S_ .f32 0x7F800000#32
  let main_v10 : FVec F S1x2048x4 .f32 := broadcastInDim S1x2048x4 ![] bcast_S_S1x2048x4 main_cst_2
  let main_v11 : IVec S1x2048x4 1 := cmpf .olt main_v9 main_v10
  let main_c_3 : IVec S_ 1 := constantI S_ 1 1#1
  let main_v12 : IVec S_ 1 := (fun x v => Host.reduce IntOp.andi x v reducesTo_S1x2048x4_S_d0_1_2 h_S_) main_v11 main_c_3
  let main_v13 : IVec S_ 1 := andi main_v8 main_v12
  let main_v14 : FVec F S4x768x192 .f32 := Host.absf main_arg3
  let main_cst_4 : FVec F S_ .f32 := constant S_ .f32 0x7F800000#32
  let main_v15 : FVec F S4x768x192 .f32 := broadcastInDim S4x768x192 ![] bcast_S_S4x768x192 main_cst_4
  let main_v16 : IVec S4x768x192 1 := cmpf .olt main_v14 main_v15
  fn_part1 (F := F) main_arg4 main_arg5 main_arg6 main_v13 main_v16
-- ==== Kernel.lean ====
abbrev S2048x768 : Shape := ⟨2, ![2048, 768]⟩
abbrev S2048x2048 : Shape := ⟨2, ![2048, 2048]⟩
abbrev S1x2048x4 : Shape := ⟨3, ![1, 2048, 4]⟩
abbrev S4x768x192 : Shape := ⟨3, ![4, 768, 192]⟩
abbrev S4x192 : Shape := ⟨2, ![4, 192]⟩
abbrev S768x768 : Shape := ⟨2, ![768, 768]⟩
abbrev S768 : Shape := ⟨1, ![768]⟩
abbrev S2048x4 : Shape := ⟨2, ![2048, 4]⟩
abbrev S4x2048 : Shape := ⟨2, ![4, 2048]⟩
abbrev S4x2048x1 : Shape := ⟨3, ![4, 2048, 1]⟩
abbrev S4x2048x2048 : Shape := ⟨3, ![4, 2048, 2048]⟩
abbrev S2048x512 : Shape := ⟨2, ![2048, 512]⟩
abbrev S512x1024 : Shape := ⟨2, ![512, 1024]⟩
abbrev S1x512x1 : Shape := ⟨3, ![1, 512, 1]⟩
abbrev S1x2048x1024 : Shape := ⟨3, ![1, 2048, 1024]⟩
abbrev S2048x1024 : Shape := ⟨2, ![2048, 1024]⟩
abbrev S512x1 : Shape := ⟨2, ![512, 1]⟩
abbrev S1024 : Shape := ⟨1, ![1024]⟩
abbrev S1x1024 : Shape := ⟨2, ![1, 1024]⟩
abbrev S4x2048x192 : Shape := ⟨3, ![4, 2048, 192]⟩
abbrev S512x768 : Shape := ⟨2, ![512, 768]⟩
abbrev S1x768x192 : Shape := ⟨3, ![1, 768, 192]⟩
abbrev S1x512x192 : Shape := ⟨3, ![1, 512, 192]⟩
abbrev S768x192 : Shape := ⟨2, ![768, 192]⟩
abbrev S512x192 : Shape := ⟨2, ![512, 192]⟩
abbrev S4x1x192 : Shape := ⟨3, ![4, 1, 192]⟩
abbrev S1x2048x2048 : Shape := ⟨3, ![1, 2048, 2048]⟩
abbrev S1x2048x192 : Shape := ⟨3, ![1, 2048, 192]⟩
abbrev S1x1x192 : Shape := ⟨3, ![1, 1, 192]⟩
abbrev S2048x192 : Shape := ⟨2, ![2048, 192]⟩
abbrev S1x192 : Shape := ⟨2, ![1, 192]⟩
abbrev S2048x4x192 : Shape := ⟨3, ![2048, 4, 192]⟩
abbrev S1x768 : Shape := ⟨2, ![1, 768]⟩
abbrev S1024x768 : Shape := ⟨2, ![1024, 768]⟩

abbrev nBuf : Space → Nat
  | .hbm => 23
  | .vmem => 35
  | .smem => 0
  | _ => 0

abbrev bufTy : (tb : Table) → Fin (tcTables nBuf tb) → BufTy
  | .hbm, ⟨0, _⟩ => ⟨S2048x768, .f32⟩
  | .hbm, ⟨1, _⟩ => ⟨S2048x2048, .f32⟩
  | .hbm, ⟨2, _⟩ => ⟨S1x2048x4, .f32⟩
  | .hbm, ⟨3, _⟩ => ⟨S4x768x192, .f32⟩
  | .hbm, ⟨4, _⟩ => ⟨S4x192, .f32⟩
  | .hbm, ⟨5, _⟩ => ⟨S768x768, .f32⟩
  | .hbm, ⟨6, _⟩ => ⟨S768, .f32⟩
  | .hbm, ⟨7, _⟩ => ⟨S2048x4, .f32⟩
  | .hbm, ⟨8, _⟩ => ⟨S4x2048, .f32⟩
  | .hbm, ⟨9, _⟩ => ⟨S4x2048x1, .f32⟩
  | .hbm, ⟨10, _⟩ => ⟨S2048x2048, .f32⟩
  | .hbm, ⟨11, _⟩ => ⟨S4x2048x2048, .bf16⟩
  | .hbm, ⟨12, _⟩ => ⟨S2048x768, .bf16⟩
  | .hbm, ⟨13, _⟩ => ⟨S4x768x192, .bf16⟩
  | .hbm, ⟨14, _⟩ => ⟨S4x2048x192, .bf16⟩
  | .hbm, ⟨15, _⟩ => ⟨S4x1x192, .f32⟩
  | .hbm, ⟨16, _⟩ => ⟨S4x2048x192, .bf16⟩
  | .hbm, ⟨17, _⟩ => ⟨S4x2048x192, .bf16⟩
  | .hbm, ⟨18, _⟩ => ⟨S2048x4x192, .bf16⟩
  | .hbm, ⟨19, _⟩ => ⟨S2048x768, .bf16⟩
  | .hbm, ⟨20, _⟩ => ⟨S768x768, .bf16⟩
  | .hbm, ⟨21, _⟩ => ⟨S1x768, .f32⟩
  | .hbm, ⟨22, _⟩ => ⟨S2048x768, .f32⟩
  | .local _ .vmem, ⟨0, _⟩ => ⟨S2048x512, .f32⟩
  | .local _ .vmem, ⟨1, _⟩ => ⟨S2048x512, .f32⟩
  | .local _ .vmem, ⟨2, _⟩ => ⟨S512x1024, .f32⟩
  | .local _ .vmem, ⟨3, _⟩ => ⟨S512x1024, .f32⟩
  | .local _ .vmem, ⟨4, _⟩ => ⟨S1x512x1, .f32⟩
  | .local _ .vmem, ⟨5, _⟩ => ⟨S1x512x1, .f32⟩
  | .local _ .vmem, ⟨6, _⟩ => ⟨S1x2048x1024, .bf16⟩
  | .local _ .vmem, ⟨7, _⟩ => ⟨S1x2048x1024, .bf16⟩
  | .local _ .vmem, ⟨8, _⟩ => ⟨S2048x1024, .f32⟩
  | .local _ .vmem, ⟨9, _⟩ => ⟨S512x768, .bf16⟩
  | .local _ .vmem, ⟨10, _⟩ => ⟨S512x768, .bf16⟩
  | .local _ .vmem, ⟨11, _⟩ => ⟨S1x768x192, .bf16⟩
  | .local _ .vmem, ⟨12, _⟩ => ⟨S1x768x192, .bf16⟩
  | .local _ .vmem, ⟨13, _⟩ => ⟨S1x512x192, .bf16⟩
  | .local _ .vmem, ⟨14, _⟩ => ⟨S1x512x192, .bf16⟩
  | .local _ .vmem, ⟨15, _⟩ => ⟨S1x2048x2048, .bf16⟩
  | .local _ .vmem, ⟨16, _⟩ => ⟨S1x2048x2048, .bf16⟩
  | .local _ .vmem, ⟨17, _⟩ => ⟨S1x2048x192, .bf16⟩
  | .local _ .vmem, ⟨18, _⟩ => ⟨S1x2048x192, .bf16⟩
  | .local _ .vmem, ⟨19, _⟩ => ⟨S1x1x192, .f32⟩
  | .local _ .vmem, ⟨20, _⟩ => ⟨S1x1x192, .f32⟩
  | .local _ .vmem, ⟨21, _⟩ => ⟨S1x2048x192, .bf16⟩
  | .local _ .vmem, ⟨22, _⟩ => ⟨S1x2048x192, .bf16⟩
  | .local _ .vmem, ⟨23, _⟩ => ⟨S1x2048x2048, .bf16⟩
  | .local _ .vmem, ⟨24, _⟩ => ⟨S1x2048x2048, .bf16⟩
  | .local _ .vmem, ⟨25, _⟩ => ⟨S1x2048x192, .bf16⟩
  | .local _ .vmem, ⟨26, _⟩ => ⟨S1x2048x192, .bf16⟩
  | .local _ .vmem, ⟨27, _⟩ => ⟨S1x2048x192, .bf16⟩
  | .local _ .vmem, ⟨28, _⟩ => ⟨S1x2048x192, .bf16⟩
  | .local _ .vmem, ⟨29, _⟩ => ⟨S1024x768, .bf16⟩
  | .local _ .vmem, ⟨30, _⟩ => ⟨S1024x768, .bf16⟩
  | .local _ .vmem, ⟨31, _⟩ => ⟨S768x768, .bf16⟩
  | .local _ .vmem, ⟨32, _⟩ => ⟨S1x768, .f32⟩
  | .local _ .vmem, ⟨33, _⟩ => ⟨S1024x768, .f32⟩
  | .local _ .vmem, ⟨34, _⟩ => ⟨S1024x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg3_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v16 : BitVec 1 := Scalar.cmpi .eq arg2 c3_i32
  let v17 : BitVec 32 := Scalar.extui v16
  let c0_i32_11 : BitVec 32 := 0#32
  let v18 : BitVec 1 := Scalar.cmpi .ne v17 c0_i32_11
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S512x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x768x192 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x192 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![4], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x2048x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x2048x192 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1x192 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x2048x192 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![4], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x2048x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x2048x192 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x2048x192 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![2], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x768 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S768x768 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x768 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1024x768 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  shapeCasts_S1x2048x4_S2048x4 : S1x2048x4.ShapeCasts S2048x4
  transposes_S2048x4_S4x2048_1_0 : S2048x4.Transposes [1, 0] S4x2048
  shapeCasts_S4x2048_S4x2048x1 : S4x2048.ShapeCasts S4x2048x1
  transposes_S2048x2048_S2048x2048_1_0 : S2048x2048.Transposes [1, 0] S2048x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  broadcasts_S512x1_S512x1024 : S512x1.Broadcasts S512x1024
  inb_S2048x512_S2048x512_0_0 : ∀ a, (![0, 0] : Fin 2 → Nat) a + S2048x512.size a ≤ S2048x512.size a
  h_S2048x512 : 0 < S2048x512.numel
  reduces_S2048x1024_S1024 : S2048x1024.Reduces [0] S1024
  shapeCasts_S1024_S1x1024 : S1024.ShapeCasts S1x1024
  broadcasts_S1x1024_S2048x1024 : S1x1024.Broadcasts S2048x1024
  bitsLt_bf16_f32 : FTy.bits .bf16 < FTy.bits .f32
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  shapeCasts_S2048x1024_S1x2048x1024 : S2048x1024.ShapeCasts S1x2048x1024
  packedbf16_S1x2048x1024_S1x2048x1024_0_0_0 : (Rect.unit (s := S1x2048x1024) ![0, 0, 0] S1x2048x1024.size inb_S1x2048x1024_S1x2048x1024_0_0_0).PackedRows (EltTy.packing .bf16)
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S1x768x192_S1x768x192_0_0_0 : ∀ a, (![0, 0, 0] : Fin 3 → Nat) a + S1x768x192.size a ≤ S1x768x192.size a
  h_S1x768x192 : 0 < S1x768x192.numel
  shapeCasts_S1x768x192_S768x192 : S1x768x192.ShapeCasts S768x192
  inb_S1x512x192_S1x512x192_0_0_0 : ∀ a, (![0, 0, 0] : Fin 3 → Nat) a + S1x512x192.size a ≤ S1x512x192.size a
  h_S1x512x192 : 0 < S1x512x192.numel
  shapeCasts_S1x512x192_S512x192 : S1x512x192.ShapeCasts S512x192
  shapeCasts_S512x192_S1x512x192 : S512x192.ShapeCasts S1x512x192
  packedbf16_S1x512x192_S1x512x192_0_0_0 : (Rect.unit (s := S1x512x192) ![0, 0, 0] S1x512x192.size inb_S1x512x192_S1x512x192_0_0_0).PackedRows (EltTy.packing .bf16)
  shapeCasts_S4x192_S4x1x192 : S4x192.ShapeCasts S4x1x192
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  inb_S1x2048x192_S1x2048x192_0_0_0 : ∀ a, (![0, 0, 0] : Fin 3 → Nat) a + S1x2048x192.size a ≤ S1x2048x192.size a
  h_S1x2048x192 : 0 < S1x2048x192.numel
  shapeCasts_S1x2048x192_S2048x192 : S1x2048x192.ShapeCasts S2048x192
  inb_S1x1x192_S1x1x192_0_0_0 : ∀ a, (![0, 0, 0] : Fin 3 → Nat) a + S1x1x192.size a ≤ S1x1x192.size a
  h_S1x1x192 : 0 < S1x1x192.numel
  shapeCasts_S1x1x192_S1x192 : S1x1x192.ShapeCasts S1x192
  broadcasts_S1x192_S2048x192 : S1x192.Broadcasts S2048x192
  shapeCasts_S2048x192_S1x2048x192 : S2048x192.ShapeCasts S1x2048x192
  packedbf16_S1x2048x192_S1x2048x192_0_0_0 : (Rect.unit (s := S1x2048x192) ![0, 0, 0] S1x2048x192.size inb_S1x2048x192_S1x2048x192_0_0_0).PackedRows (EltTy.packing .bf16)
  transposes_S4x2048x192_S2048x4x192_1_0_2 : S4x2048x192.Transposes [1, 0, 2] S2048x4x192
  shapeCasts_S2048x4x192_S2048x768 : S2048x4x192.ShapeCasts S2048x768
  shapeCasts_S768_S1x768 : S768.ShapeCasts S1x768
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  dot_S2048x512_S512x1024_S2048x1024_1_0_0_1_n_n_wf : DotDims.WF S2048x512 S512x1024 S2048x1024 [1] [0] [0] [1] [] []
  dot_S512x768_S768x192_S512x192_1_0_0_1_n_n_wf : DotDims.WF S512x768 S768x192 S512x192 [1] [0] [0] [1] [] []
  dot_S2048x2048_S2048x192_S2048x192_0_0_1_1_n_n_wf : DotDims.WF S2048x2048 S2048x192 S2048x192 [0] [0] [1] [1] [] []
  dot_S1024x768_S768x768_S1024x768_1_0_0_1_n_n_wf : DotDims.WF S1024x768 S768x768 S1024x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S2048x2048.size a
  hwx0_0 : ∀ i : grid0.Coords, EltTy.bits .f32 = 32 ∨ (Rect.block (s := S2048x2048) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S2048x2048.size a
  hwx0_1 : ∀ i : grid0.Coords, EltTy.bits .f32 = 32 ∨ (Rect.block (s := S2048x2048) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S4x2048x1.size a
  hwx0_2 : ∀ i : grid0.Coords, EltTy.bits .f32 = 32 ∨ (Rect.block (s := S4x2048x1) S1x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x1024.size a ≤ S4x2048x2048.size a
  hwx0_3 : ∀ i : grid0.Coords, EltTy.bits .bf16 = 32 ∨ (Rect.block (s := S4x2048x2048) S1x2048x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x768.size a ≤ S2048x768.size a
  hwx1_0 : ∀ i : grid1.Coords, EltTy.bits .bf16 = 32 ∨ (Rect.block (s := S2048x768) S512x768.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x768x192.size a ≤ S4x768x192.size a
  hwx1_1 : ∀ i : grid1.Coords, EltTy.bits .bf16 = 32 ∨ (Rect.block (s := S4x768x192) S1x768x192.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x192.size a ≤ S4x2048x192.size a
  hwx1_2 : ∀ i : grid1.Coords, EltTy.bits .bf16 = 32 ∨ (Rect.block (s := S4x2048x192) S1x512x192.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x2048x2048.size a ≤ S4x2048x2048.size a
  hwx2_0 : ∀ i : grid2.Coords, EltTy.bits .bf16 = 32 ∨ (Rect.block (s := S4x2048x2048) S1x2048x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x2048x192.size a ≤ S4x2048x192.size a
  hwx2_1 : ∀ i : grid2.Coords, EltTy.bits .bf16 = 32 ∨ (Rect.block (s := S4x2048x192) S1x2048x192.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x192.size a ≤ S4x1x192.size a
  hwx2_2 : ∀ i : grid2.Coords, EltTy.bits .f32 = 32 ∨ (Rect.block (s := S4x1x192) S1x1x192.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x2048x192.size a ≤ S4x2048x192.size a
  hwx2_3 : ∀ i : grid2.Coords, EltTy.bits .bf16 = 32 ∨ (Rect.block (s := S4x2048x192) S1x2048x192.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x2048x2048.size a ≤ S4x2048x2048.size a
  hwx3_0 : ∀ i : grid3.Coords, EltTy.bits .bf16 = 32 ∨ (Rect.block (s := S4x2048x2048) S1x2048x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x2048x192.size a ≤ S4x2048x192.size a
  hwx3_1 : ∀ i : grid3.Coords, EltTy.bits .bf16 = 32 ∨ (Rect.block (s := S4x2048x192) S1x2048x192.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x2048x192.size a ≤ S4x2048x192.size a
  hwx3_2 : ∀ i : grid3.Coords, EltTy.bits .bf16 = 32 ∨ (Rect.block (s := S4x2048x192) S1x2048x192.size (cc3_transform_2 i) (hinb3_2 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x768.size a ≤ S2048x768.size a
  hwx4_0 : ∀ i : grid4.Coords, EltTy.bits .bf16 = 32 ∨ (Rect.block (s := S2048x768) S1024x768.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S768x768.size a ≤ S768x768.size a
  hwx4_1 : ∀ i : grid4.Coords, EltTy.bits .bf16 = 32 ∨ (Rect.block (s := S768x768) S768x768.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x768.size a ≤ S1x768.size a
  hwx4_2 : ∀ i : grid4.Coords, EltTy.bits .f32 = 32 ∨ (Rect.block (s := S1x768) S1x768.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x768.size a ≤ S2048x768.size a
  hwx4_3 : ∀ i : grid4.Coords, EltTy.bits .f32 = 32 ∨ (Rect.block (s := S2048x768) S1024x768.size (cc4_transform_3 i) (hinb4_3 i)).WholeWords (EltTy.packing .f32)

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf
def dot_S512x768_S768x192_S512x192_1_0_0_1_n_n : DotDims S512x768 S768x192 S512x192 where
  lhsContracting := [1]
  rhsContracting := [0]
  lhsNonContracting := [0]
  rhsNonContracting := [1]
  lhsBatch := []
  rhsBatch := []
  wf := dot_S512x768_S768x192_S512x192_1_0_0_1_n_n_wf
def dot_S2048x2048_S2048x192_S2048x192_0_0_1_1_n_n : DotDims S2048x2048 S2048x192 S2048x192 where
  lhsContracting := [0]
  rhsContracting := [0]
  lhsNonContracting := [1]
  rhsNonContracting := [1]
  lhsBatch := []
  rhsBatch := []
  wf := dot_S2048x2048_S2048x192_S2048x192_0_0_1_1_n_n_wf
def dot_S1024x768_S768x768_S1024x768_1_0_0_1_n_n : DotDims S1024x768 S768x768 S1024x768 where
  lhsContracting := [1]
  rhsContracting := [0]
  lhsNonContracting := [0]
  rhsNonContracting := [1]
  lhsBatch := []
  rhsBatch := []
  wf := dot_S1024x768_S768x768_S1024x768_1_0_0_1_n_n_wf

abbrev win0_0 : Pipeline.Window sig grid0 :=
  Pipeline.Window.ofSpec (Memref.whole main_arg1) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v5) S512x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x768x192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x512x192.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v4) S1x2048x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S1x2048x192.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1x1x192.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v9) S1x2048x192.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v4) S1x2048x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v9) S1x2048x192.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v10) S1x2048x192.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v12) S1024x768.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v13) S768x768.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v14) S1x768.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v15) S1024x768.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S2048x768 : Shape := ⟨2, ![2048, 768]⟩
abbrev S2048x2048 : Shape := ⟨2, ![2048, 2048]⟩
abbrev S1x2048x4 : Shape := ⟨3, ![1, 2048, 4]⟩
abbrev S4x768x192 : Shape := ⟨3, ![4, 768, 192]⟩
abbrev S4x192 : Shape := ⟨2, ![4, 192]⟩
abbrev S768x768 : Shape := ⟨2, ![768, 768]⟩
abbrev S768 : Shape := ⟨1, ![768]⟩
abbrev S2048x4 : Shape := ⟨2, ![2048, 4]⟩
abbrev S4x2048 : Shape := ⟨2, ![4, 2048]⟩
abbrev S1x2048 : Shape := ⟨2, ![1, 2048]⟩
abbrev S2048 : Shape := ⟨1, ![2048]⟩
abbrev S2048x1 : Shape := ⟨2, ![2048, 1]⟩
abbrev S_ : Shape := ⟨0, ![]⟩
abbrev S1x768x192 : Shape := ⟨3, ![1, 768, 192]⟩
abbrev S768x192 : Shape := ⟨2, ![768, 192]⟩
abbrev S2048x192 : Shape := ⟨2, ![2048, 192]⟩
abbrev S1x192 : Shape := ⟨2, ![1, 192]⟩
abbrev S192 : Shape := ⟨1, ![192]⟩
abbrev S1x768 : Shape := ⟨2, ![1, 768]⟩

abbrev nBuf : Space → Nat
  | .hbm => 177
  | .vmem => 0
  | .smem => 0
  | _ => 0

abbrev hbmTy0_0 (i : Nat) : BufTy := match i % 128 with
  | 0 => ⟨S2048x768, .f32⟩
  | 1 => ⟨S2048x2048, .f32⟩
  | 2 => ⟨S1x2048x4, .f32⟩
  | 3 => ⟨S4x768x192, .f32⟩
  | 4 => ⟨S4x192, .f32⟩
  | 5 => ⟨S768x768, .f32⟩
  | 6 => ⟨S768, .f32⟩
  | 7 => ⟨S2048x4, .f32⟩
  | 8 => ⟨S4x2048, .f32⟩
  | 9 => ⟨S1x2048, .f32⟩
  | 10 => ⟨S2048, .f32⟩
  | 11 => ⟨S2048x1, .f32⟩
  | 12 => ⟨S2048x2048, .f32⟩
  | 13 => ⟨S2048x2048, .f32⟩
  | 14 => ⟨S2048x2048, .f32⟩
  | 15 => ⟨S2048x2048, .f32⟩
  | 16 => ⟨S2048x2048, .f32⟩
  | 17 => ⟨S_, .f32⟩
  | 18 => ⟨S2048, .f32⟩
  | 19 => ⟨S1x2048, .f32⟩
  | 20 => ⟨S1x2048, .f32⟩
  | 21 => ⟨S_, .f32⟩
  | 22 => ⟨S1x2048, .f32⟩
  | 23 => ⟨S1x2048, .f32⟩
  | 24 => ⟨S2048x2048, .f32⟩
  | 25 => ⟨S2048x2048, .f32⟩
  | 26 => ⟨S2048x2048, .f32⟩
  | 27 => ⟨S_, .f32⟩
  | 28 => ⟨S2048x2048, .f32⟩
  | 29 => ⟨S2048x2048, .i1⟩
  | 30 => ⟨S_, .f32⟩
  | 31 => ⟨S_, .f32⟩
  | 32 => ⟨S2048x2048, .f32⟩
  | 33 => ⟨S2048x2048, .f32⟩
  | 34 => ⟨S2048x2048, .f32⟩
  | 35 => ⟨S1x768x192, .f32⟩
  | 36 => ⟨S768x192, .f32⟩
  | 37 => ⟨S2048x192, .f32⟩
  | 38 => ⟨S2048x192, .f32⟩
  | 39 => ⟨S1x192, .f32⟩
  | 40 => ⟨S192, .f32⟩
  | 41 => ⟨S1x192, .f32⟩
  | 42 => ⟨S2048x192, .f32⟩
  | 43 => ⟨S2048x192, .f32⟩
  | 44 => ⟨S_, .f32⟩
  | 45 => ⟨S2048x192, .f32⟩
  | 46 => ⟨S2048x192, .f32⟩
  | 47 => ⟨S2048x2048, .f32⟩
  | 48 => ⟨S2048x192, .f32⟩
  | 49 => ⟨S1x2048, .f32⟩
  | 50 => ⟨S2048, .f32⟩
  | 51 => ⟨S2048x1, .f32⟩
  | 52 => ⟨S2048x2048, .f32⟩
  | 53 => ⟨S2048x2048, .f32⟩
  | 54 => ⟨S2048x2048, .f32⟩
  | 55 => ⟨S2048x2048, .f32⟩
  | 56 => ⟨S2048x2048, .f32⟩
  | 57 => ⟨S_, .f32⟩
  | 58 => ⟨S2048, .f32⟩
  | 59 => ⟨S1x2048, .f32⟩
  | 60 => ⟨S1x2048, .f32⟩
  | 61 => ⟨S_, .f32⟩
  | 62 => ⟨S1x2048, .f32⟩
  | 63 => ⟨S1x2048, .f32⟩
  | 64 => ⟨S2048x2048, .f32⟩
  | 65 => ⟨S2048x2048, .f32⟩
  | 66 => ⟨S2048x2048, .f32⟩
  | 67 => ⟨S_, .f32⟩
  | 68 => ⟨S2048x2048, .f32⟩
  | 69 => ⟨S2048x2048, .i1⟩
  | 70 => ⟨S_, .f32⟩
  | 71 => ⟨S_, .f32⟩
  | 72 => ⟨S2048x2048, .f32⟩
  | 73 => ⟨S2048x2048, .f32⟩
  | 74 => ⟨S2048x2048, .f32⟩
  | 75 => ⟨S1x768x192, .f32⟩
  | 76 => ⟨S768x192, .f32⟩
  | 77 => ⟨S2048x192, .f32⟩
  | 78 => ⟨S2048x192, .f32⟩
  | 79 => ⟨S1x192, .f32⟩
  | 80 => ⟨S192, .f32⟩
  | 81 => ⟨S1x192, .f32⟩
  | 82 => ⟨S2048x192, .f32⟩
  | 83 => ⟨S2048x192, .f32⟩
  | 84 => ⟨S_, .f32⟩
  | 85 => ⟨S2048x192, .f32⟩
  | 86 => ⟨S2048x192, .f32⟩
  | 87 => ⟨S2048x2048, .f32⟩
  | 88 => ⟨S2048x192, .f32⟩
  | 89 => ⟨S1x2048, .f32⟩
  | 90 => ⟨S2048, .f32⟩
  | 91 => ⟨S2048x1, .f32⟩
  | 92 => ⟨S2048x2048, .f32⟩
  | 93 => ⟨S2048x2048, .f32⟩
  | 94 => ⟨S2048x2048, .f32⟩
  | 95 => ⟨S2048x2048, .f32⟩
  | 96 => ⟨S2048x2048, .f32⟩
  | 97 => ⟨S_, .f32⟩
  | 98 => ⟨S2048, .f32⟩
  | 99 => ⟨S1x2048, .f32⟩
  | 100 => ⟨S1x2048, .f32⟩
  | 101 => ⟨S_, .f32⟩
  | 102 => ⟨S1x2048, .f32⟩
  | 103 => ⟨S1x2048, .f32⟩
  | 104 => ⟨S2048x2048, .f32⟩
  | 105 => ⟨S2048x2048, .f32⟩
  | 106 => ⟨S2048x2048, .f32⟩
  | 107 => ⟨S_, .f32⟩
  | 108 => ⟨S2048x2048, .f32⟩
  | 109 => ⟨S2048x2048, .i1⟩
  | 110 => ⟨S_, .f32⟩
  | 111 => ⟨S_, .f32⟩
  | 112 => ⟨S2048x2048, .f32⟩
  | 113 => ⟨S2048x2048, .f32⟩
  | 114 => ⟨S2048x2048, .f32⟩
  | 115 => ⟨S1x768x192, .f32⟩
  | 116 => ⟨S768x192, .f32⟩
  | 117 => ⟨S2048x192, .f32⟩
  | 118 => ⟨S2048x192, .f32⟩
  | 119 => ⟨S1x192, .f32⟩
  | 120 => ⟨S192, .f32⟩
  | 121 => ⟨S1x192, .f32⟩
  | 122 => ⟨S2048x192, .f32⟩
  | 123 => ⟨S2048x192, .f32⟩
  | 124 => ⟨S_, .f32⟩
  | 125 => ⟨S2048x192, .f32⟩
  | 126 => ⟨S2048x192, .f32⟩
  | 127 => ⟨S2048x2048, .f32⟩
  | _ => ⟨S2048x768, .f32⟩

abbrev hbmTy0_1 (i : Nat) : BufTy := match i % 128 with
  | 0 => ⟨S2048x192, .f32⟩
  | 1 => ⟨S1x2048, .f32⟩
  | 2 => ⟨S2048, .f32⟩
  | 3 => ⟨S2048x1, .f32⟩
  | 4 => ⟨S2048x2048, .f32⟩
  | 5 => ⟨S2048x2048, .f32⟩
  | 6 => ⟨S2048x2048, .f32⟩
  | 7 => ⟨S2048x2048, .f32⟩
  | 8 => ⟨S2048x2048, .f32⟩
  | 9 => ⟨S_, .f32⟩
  | 10 => ⟨S2048, .f32⟩
  | 11 => ⟨S1x2048, .f32⟩
  | 12 => ⟨S1x2048, .f32⟩
  | 13 => ⟨S_, .f32⟩
  | 14 => ⟨S1x2048, .f32⟩
  | 15 => ⟨S1x2048, .f32⟩
  | 16 => ⟨S2048x2048, .f32⟩
  | 17 => ⟨S2048x2048, .f32⟩
  | 18 => ⟨S2048x2048, .f32⟩
  | 19 => ⟨S_, .f32⟩
  | 20 => ⟨S2048x2048, .f32⟩
  | 21 => ⟨S2048x2048, .i1⟩
  | 22 => ⟨S_, .f32⟩
  | 23 => ⟨S_, .f32⟩
  | 24 => ⟨S2048x2048, .f32⟩
  | 25 => ⟨S2048x2048, .f32⟩
  | 26 => ⟨S2048x2048, .f32⟩
  | 27 => ⟨S1x768x192, .f32⟩
  | 28 => ⟨S768x192, .f32⟩
  | 29 => ⟨S2048x192, .f32⟩
  | 30 => ⟨S2048x192, .f32⟩
  | 31 => ⟨S1x192, .f32⟩
  | 32 => ⟨S192, .f32⟩
  | 33 => ⟨S1x192, .f32⟩
  | 34 => ⟨S2048x192, .f32⟩
  | 35 => ⟨S2048x192, .f32⟩
  | 36 => ⟨S_, .f32⟩
  | 37 => ⟨S2048x192, .f32⟩
  | 38 => ⟨S2048x192, .f32⟩
  | 39 => ⟨S2048x2048, .f32⟩
  | 40 => ⟨S2048x192, .f32⟩
  | 41 => ⟨S2048x768, .f32⟩
  | 42 => ⟨S2048x768, .f32⟩
  | 43 => ⟨S1x768, .f32⟩
  | 44 => ⟨S2048x768, .f32⟩
  | 45 => ⟨S2048x768, .f32⟩
  | 46 => ⟨S_, .f32⟩
  | 47 => ⟨S2048x768, .f32⟩
  | 48 => ⟨S2048x768, .f32⟩
  | _ => ⟨S2048x768, .f32⟩

abbrev hbmTy (i : Nat) : BufTy := match i / 128 with
  | 0 => hbmTy0_0 i
  | 1 => hbmTy0_1 i
  | _ => ⟨S2048x768, .f32⟩

abbrev bufTy : (tb : Table) → Fin (tcTables nBuf tb) → BufTy
  | .hbm, ⟨i, _⟩ => hbmTy i
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_call1_cst : Ref sig .tc := ⟨.hbm, 44, rfl⟩
abbrev main_call1_v0 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_3 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_4 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_5 : Ref sig .tc := ⟨.hbm, 67, rfl⟩
abbrev main_v50 : Ref sig .tc := ⟨.hbm, 68, rfl⟩
abbrev main_v51 : Ref sig .tc := ⟨.hbm, 69, rfl⟩
abbrev main_cst_6 : Ref sig .tc := ⟨.hbm, 70, rfl⟩
abbrev main_call2_v0 : Ref sig .tc := ⟨.hbm, 71, rfl⟩
abbrev main_call2_v1 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_call3_cst : Ref sig .tc := ⟨.hbm, 84, rfl⟩
abbrev main_call3_v0 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_7 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_8 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_9 : Ref sig .tc := ⟨.hbm, 107, rfl⟩
abbrev main_v82 : Ref sig .tc := ⟨.hbm, 108, rfl⟩
abbrev main_v83 : Ref sig .tc := ⟨.hbm, 109, rfl⟩
abbrev main_cst_10 : Ref sig .tc := ⟨.hbm, 110, rfl⟩
abbrev main_call4_v0 : Ref sig .tc := ⟨.hbm, 111, rfl⟩
abbrev main_call4_v1 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_call5_cst : Ref sig .tc := ⟨.hbm, 124, rfl⟩
abbrev main_call5_v0 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_cst_11 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_cst_12 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_cst_13 : Ref sig .tc := ⟨.hbm, 147, rfl⟩
abbrev main_v114 : Ref sig .tc := ⟨.hbm, 148, rfl⟩
abbrev main_v115 : Ref sig .tc := ⟨.hbm, 149, rfl⟩
abbrev main_cst_14 : Ref sig .tc := ⟨.hbm, 150, rfl⟩
abbrev main_call6_v0 : Ref sig .tc := ⟨.hbm, 151, rfl⟩
abbrev main_call6_v1 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_call7_cst : Ref sig .tc := ⟨.hbm, 164, rfl⟩
abbrev main_call7_v0 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_call8_cst : Ref sig .tc := ⟨.hbm, 174, rfl⟩
abbrev main_call8_v0 : Ref sig .tc := ⟨.hbm, 175, rfl⟩
abbrev main_v135 : Ref sig .tc := ⟨.hbm, 176, rfl⟩

abbrev nD : Nat := 1
abbrev τ : Topo := Topo.v7x

variable {F : FTy → Type} [FloatOps F]

class Facts₀ : Prop where
  shapeCasts_S1x2048x4_S2048x4 : S1x2048x4.ShapeCasts S2048x4
  transposes_S2048x4_S4x2048_1_0 : S2048x4.Transposes [1, 0] S4x2048
  slices_S4x2048_S1x2048_0_0 : S4x2048.Slices ![0, 0] S1x2048
  shapeCasts_S1x2048_S2048 : S1x2048.ShapeCasts S2048
  bcast_S2048_S2048x1_0 : S2048.BroadcastsInDim S2048x1 (![0] : Fin 1 → Fin S2048x1.rank)
  transposes_S2048x2048_S2048x2048_1_0 : S2048x2048.Transposes [1, 0] S2048x2048
  bcast_S2048x1_S2048x2048_0_1 : S2048x1.BroadcastsInDim S2048x2048 (![0, 1] : Fin 2 → Fin S2048x2048.rank)
  reducesTo_S2048x2048_S2048_d0 : S2048x2048.ReducesTo [0] S2048
  h_S_ : 0 < S_.numel
  bcast_S2048_S1x2048_1 : S2048.BroadcastsInDim S1x2048 (![1] : Fin 1 → Fin S1x2048.rank)
  bcast_S_S1x2048 : S_.BroadcastsInDim S1x2048 (![] : Fin 0 → Fin S1x2048.rank)
  bcast_S1x2048_S2048x2048_0_1 : S1x2048.BroadcastsInDim S2048x2048 (![0, 1] : Fin 2 → Fin S2048x2048.rank)
  bcast_S_S2048x2048 : S_.BroadcastsInDim S2048x2048 (![] : Fin 0 → Fin S2048x2048.rank)
  slices_S4x768x192_S1x768x192_0_0_0 : S4x768x192.Slices ![0, 0, 0] S1x768x192
  shapeCasts_S1x768x192_S768x192 : S1x768x192.ShapeCasts S768x192
  slices_S4x192_S1x192_0_0 : S4x192.Slices ![0, 0] S1x192
  shapeCasts_S1x192_S192 : S1x192.ShapeCasts S192
  bcast_S192_S1x192_1 : S192.BroadcastsInDim S1x192 (![1] : Fin 1 → Fin S1x192.rank)
  bcast_S1x192_S2048x192_0_1 : S1x192.BroadcastsInDim S2048x192 (![0, 1] : Fin 2 → Fin S2048x192.rank)
  bcast_S_S2048x192 : S_.BroadcastsInDim S2048x192 (![] : Fin 0 → Fin S2048x192.rank)
  slices_S4x2048_S1x2048_1_0 : S4x2048.Slices ![1, 0] S1x2048
  slices_S4x768x192_S1x768x192_1_0_0 : S4x768x192.Slices ![1, 0, 0] S1x768x192
  slices_S4x192_S1x192_1_0 : S4x192.Slices ![1, 0] S1x192
  slices_S4x2048_S1x2048_2_0 : S4x2048.Slices ![2, 0] S1x2048
  slices_S4x768x192_S1x768x192_2_0_0 : S4x768x192.Slices ![2, 0, 0] S1x768x192
  slices_S4x192_S1x192_2_0 : S4x192.Slices ![2, 0] S1x192
  slices_S4x2048_S1x2048_3_0 : S4x2048.Slices ![3, 0] S1x2048
  slices_S4x768x192_S1x768x192_3_0_0 : S4x768x192.Slices ![3, 0, 0] S1x768x192
  slices_S4x192_S1x192_3_0 : S4x192.Slices ![3, 0] S1x192
  concatenates_S2048x192_S2048x192_S2048x192_S2048x192_S2048x768_d1 : Shape.Concatenates [S2048x192, S2048x192, S2048x192, S2048x192] S2048x768 1
  bcast_S768_S1x768_1 : S768.BroadcastsInDim S1x768 (![1] : Fin 1 → Fin S1x768.rank)
  bcast_S1x768_S2048x768_0_1 : S1x768.BroadcastsInDim S2048x768 (![0, 1] : Fin 2 → Fin S2048x768.rank)
  bcast_S_S2048x768 : S_.BroadcastsInDim S2048x768 (![] : Fin 0 → Fin S2048x768.rank)
  dot_S2048x2048_S2048x2048_S2048x2048_1_0_0_1_n_n_wf : DotDims.WF S2048x2048 S2048x2048 S2048x2048 [1] [0] [0] [1] [] []
  dot_S2048x768_S768x192_S2048x192_1_0_0_1_n_n_wf : DotDims.WF S2048x768 S768x192 S2048x192 [1] [0] [0] [1] [] []
  dot_S2048x2048_S2048x192_S2048x192_1_0_0_1_n_n_wf : DotDims.WF S2048x2048 S2048x192 S2048x192 [1] [0] [0] [1] [] []
  dot_S2048x768_S768x768_S2048x768_1_0_0_1_n_n_wf : DotDims.WF S2048x768 S768x768 S2048x768 [1] [0] [0] [1] [] []

variable [Facts₀]

def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf
def dot_S2048x768_S768x192_S2048x192_1_0_0_1_n_n : DotDims S2048x768 S768x192 S2048x192 where
  lhsContracting := [1]
  rhsContracting := [0]
  lhsNonContracting := [0]
  rhsNonContracting := [1]
  lhsBatch := []
  rhsBatch := []
  wf := dot_S2048x768_S768x192_S2048x192_1_0_0_1_n_n_wf
def dot_S2048x2048_S2048x192_S2048x192_1_0_0_1_n_n : DotDims S2048x2048 S2048x192 S2048x192 where
  lhsContracting := [1]
  rhsContracting := [0]
  lhsNonContracting := [0]
  rhsNonContracting := [1]
  lhsBatch := []
  rhsBatch := []
  wf := dot_S2048x2048_S2048x192_S2048x192_1_0_0_1_n_n_wf
def dot_S2048x768_S768x768_S2048x768_1_0_0_1_n_n : DotDims S2048x768 S768x768 S2048x768 where
  lhsContracting := [1]
  rhsContracting := [0]
  lhsNonContracting := [0]
  rhsNonContracting := [1]
  lhsBatch := []
  rhsBatch := []
  wf := dot_S2048x768_S768x768_S2048x768_1_0_0_1_n_n_wf

class Facts : Prop extends Facts₀ where

variable [Facts]
-- ==== Proof.K.Reg0Defs.lean ====
import proofs.«159438_j36850819399877_1_alg».proof.Proof.Gen.Kernel.Launch
import proofs.«159438_j36850819399877_1_alg».proof.Proof.Gen.Kernel.Skeleton
import proofs.«159438_j36850819399877_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Region 0 (`cc0__spectral_kernel`): blocks, the carried accumulator, and the proof data

The region runs a grid of 4 × 2 × 4 points; the last coordinate `k` of point `t` is `t mod 4`. The body keeps a
2048 × 1024 accumulator in a scratch buffer of its own: at `k = 0` it first clears it; at every point it adds the
product of the point's blocks to it; at `k = 3` it normalises the accumulator into the output block. This file
names, at arbitrary entry contents `V`, each window's block at a point, the accumulator after each point (a
recursion along the grid that restarts at every `k = 0`), the output block, the region invariant that carries the
accumulator from one point to the next, and the proof data built from them. -/

-- membership of an index in a whole-buffer rectangle is decided structurally, one step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`: the part of its array (at the entry contents) that the window's index map
    selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is the
    entry contents and whose body leaves the block in place: the window is uncut, never idle, and an unfetched
    point has the block index of the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, in closed form over the grid -/

/-- The first conditional's test (the last grid coordinate is 0), as the body computes it. -/
abbrev cond0_0 (i : grid0.Coords) : Prop := (Scalar.cmpi .ne (Scalar.extui (Scalar.cmpi .eq (BitVec.ofNat 32 (i 2).val) 0#32)) 0#32) = 1#1
/-- It holds exactly at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional's test (the last grid coordinate is 3). -/
abbrev cond0_1 (i : grid0.Coords) : Prop := k0_cond2 i = 1#1
/-- It holds exactly at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- The three inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the second test fails the output window is idle and its block is not written back; -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- where it holds the output window is live. -/
theorem liveAt0_3 : ∀ t : Fin cfg0.N, cond0_1 (grid0.coords t) → cfg0.idle 3 (grid0.coords t) = false := by decide +kernel

/-! ## The memrefs the body is called with -/

/-- Each window's current staging memref at point `t`, and its wholeness. -/
abbrev ms0_0 (t : Fin cfg0.N) : Memref sig .tc .vmem S2048x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x1024 .bf16 := win0_3.stage (cfg0.slots t 3)
abbrev hs0_3 (t : Fin cfg0.N) : (ms0_3 t).IsWhole := hstage0_3 ((cfg0.slots t 3).cast nbuf0_3)
/-- The accumulator: a whole scoped buffer of the kernel's own, passed beside the windows. -/
abbrev scM0_0 : Memref sig .tc .vmem S2048x1024 .f32 := Memref.whole cc0_scratch0

/-! ## The accumulator and the output block, point by point -/

/-- What the accumulator holds after the body at position `n`: at a point ≡ 0 (mod 4) the update of the cleared
    accumulator by the point's three blocks, elsewhere the update of what the point before left. -/
def accAt0 (c : Dev nD) : (n : ℕ) → n < cfg0.N → Vec F S2048x1024 .f32
  | 0, hn => k0_pay2 (iblk0 V c 1 ⟨0, hn⟩) (iblk0 V c 2 ⟨0, hn⟩) (k0_pay1 (F := F)) (iblk0 V c 0 ⟨0, hn⟩)
  | n + 1, hn =>
    if (n + 1) % 4 = 0 then
      k0_pay2 (iblk0 V c 1 ⟨n + 1, hn⟩) (iblk0 V c 2 ⟨n + 1, hn⟩) (k0_pay1 (F := F)) (iblk0 V c 0 ⟨n + 1, hn⟩)
    else
      k0_pay2 (iblk0 V c 1 ⟨n + 1, hn⟩) (iblk0 V c 2 ⟨n + 1, hn⟩) (accAt0 c n (Nat.lt_of_succ_lt hn)) (iblk0 V c 0 ⟨n + 1, hn⟩)

/-- What the output window's staging buffer holds after the body at position `n` where the body stores into it
    (the points ≡ 3 mod 4; elsewhere nothing consults it): the normalised accumulator. -/
def outAt0 (c : Dev nD) (n : ℕ) (hn : n < cfg0.N) : Vec F S1x2048x1024 .bf16 :=
  k0_pay3 (accAt0 V c n hn)

/-- At a point ≡ 0 (mod 4) the accumulation restarts from the cleared accumulator. -/
theorem accAt0_reset (c : Dev nD) (t : Fin cfg0.N) (h : t.val % 4 = 0) :
    accAt0 V c t.val t.isLt = k0_pay2 (iblk0 V c 1 t) (iblk0 V c 2 t) (k0_pay1 (F := F)) (iblk0 V c 0 t) := by
  obtain ⟨n, hn⟩ := t
  cases n with
  | zero => rfl
  | succ n => exact if_pos h

/-- Elsewhere it continues from what the point before left. -/
theorem accAt0_step (c : Dev nD) (t : Fin cfg0.N) (h : t.val % 4 ≠ 0) :
    accAt0 V c t.val t.isLt = k0_pay2 (iblk0 V c 1 t) (iblk0 V c 2 t) (accAt0 V c (t.val - 1) (Nat.lt_of_le_of_lt (Nat.sub_le _ _) t.isLt)) (iblk0 V c 0 t) := by
  obtain ⟨n, hn⟩ := t
  cases n with
  | zero => exact absurd (Nat.zero_mod _) h
  | succ n => exact if_neg h

/-- The output block is the normalised accumulator. -/
theorem outAt0_last (c : Dev nD) (t : Fin cfg0.N) (h : t.val % 4 = 3) :
    outAt0 V c t.val t.isLt = k0_pay3 (accAt0 V c t.val t.isLt) := rfl

/-! ## The region invariant -/

/-- What the launch hands the region, with the accumulator's buffer split off the other scoped buffers and read as a
    memref owned at some contents. -/
theorem PhiA0_eq (c : Dev nD) :
    (Pipeline.ΦA spec0 c : sProp 𝕄)
      = iprop(iprop((∃ d, owns (c : Thread nD τ) scM0_0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

/-- The invariant before position `n`: before the first point what the launch hands over (the accumulator at
    anything); afterwards the accumulator at what the point before left, the other scoped buffers untouched, the
    generator register at some state. -/
def PhiS0 (c : Dev nD) : (n : ℕ) → n ≤ cfg0.N → sProp 𝕄
  | 0, _ => Pipeline.ΦA spec0 c
  | n + 1, hn => iprop(iprop(owns (c : Thread nD τ) scM0_0 fullShare (accAt0 V c n hn)
      ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare (accAt0 V c n hn)
      ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (accAt0 V c (n - 1) (by omega))
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The pipeline's proof data -/

/-- The proof data of pipeline 0 on core `c`: the arrays as the region finds them; after the body at point `t`
    each input's buffer at its block and the output's at the normalised accumulator; the invariant carrying the
    accumulator; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t.val t.isLt
  Φ t := PhiS0 V c t.val (Nat.le_of_lt_succ t.isLt)
  q _ := fullShare
  owed _ := 0

/-- The proof data's arrays are the entry contents. -/
theorem A_eq0 (c : Dev nD) (w : Fin cfg0.W) : (dat0 V c).A w = V c (Pipeline.arrRef spec0 w) := by
  dsimp only [dat0]

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t.val t.isLt := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Cert.Kernel.Hand

end
-- ==== Proof.K.Reg0RunA.lean ====
import proofs.«159438_j36850819399877_1_alg».proof.Proof.K.Reg0Defs

/-! # Region 0: the body where the accumulation restarts

The symbolic run of `cc0__spectral_kernel` at a point whose last grid coordinate is 0 (the accumulator is cleared,
then updated; the output is not stored), the cover of the accumulator by the writes made, and what they leave in
it in closed form over the body's payloads. -/

-- membership of an index in a whole-buffer rectangle is decided structurally, one step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer rectangle, as a constant function. -/
theorem hz0_2 : (![0, 0] : Fin 2 → ℕ) = fun _ => 0 := by funext a; fin_cases a <;> rfl
theorem hz0_3 : (![0, 0, 0] : Fin 3 → ℕ) = fun _ => 0 := by funext a; fin_cases a <;> rfl

-- the run's proof term is large
set_option maxHeartbeats 1000000 in
/-- The body at a point where the first test holds and the second fails (the last coordinate is 0): on whole
    memrefs, the three inputs at their contents, the output at contents it hands back untouched, the accumulator at
    anything, it runs to the continuation holding the inputs and the output as they were and the accumulator with two
    covering writes made — the cleared value, then the update. The list of writes is the witness the symbolic run
    of the body's memory operations produces. -/
noncomputable def kernelRun0_A (c : Dev nD) (i : grid0.Coords) (arg3 : Memref sig .tc .vmem S2048x512 .f32) (harg3 : arg3.IsWhole) (arg4 : Memref sig .tc .vmem S512x1024 .f32) (harg4 : arg4.IsWhole) (arg5 : Memref sig .tc .vmem S1x512x1 .f32) (harg5 : arg5.IsWhole) (arg6 : Memref sig .tc .vmem S1x2048x1024 .bf16) (harg6 : arg6.IsWhole) (arg7 : Memref sig .tc .vmem S2048x1024 .f32) (harg7 : arg7.IsWhole) (hc0 : cond0_0 i) (hc1 : ¬cond0_1 i)
    (x0 : Vec F S2048x512 .f32) (x1 : Vec F S512x1024 .f32) (x2 : Vec F S1x512x1 .f32) :
    Σ' (L3 : List (View.Piece (Elt F) S1x2048x1024 .bf16)), { LS0 : List (View.Piece (Elt F) S2048x1024 .f32) //
      ∀ (xi3 : Vec F S1x2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__spectral_kernel i arg3 harg3 arg4 harg4 arg5 harg5 arg6 harg6 arg7 harg7) K } := by
  refine ⟨[], ?_, fun xi3 E K => ?run⟩
  case run =>
    simp only [cc0__spectral_kernel_eq_skeleton]; unfold cc0__spectral_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

/-- The two writes tile the accumulator, so they cover it. -/
theorem scover0_A_0 (c : Dev nD) (i : grid0.Coords) (arg3 : Memref sig .tc .vmem S2048x512 .f32) (harg3 : arg3.IsWhole) (arg4 : Memref sig .tc .vmem S512x1024 .f32) (harg4 : arg4.IsWhole) (arg5 : Memref sig .tc .vmem S1x512x1 .f32) (harg5 : arg5.IsWhole) (arg6 : Memref sig .tc .vmem S1x2048x1024 .bf16) (harg6 : arg6.IsWhole) (arg7 : Memref sig .tc .vmem S2048x1024 .f32) (harg7 : arg7.IsWhole) (hc0 : cond0_0 i) (hc1 : ¬cond0_1 i)
    (x0 : Vec F S2048x512 .f32) (x1 : Vec F S512x1024 .f32) (x2 : Vec F S1x512x1 .f32) (y : S2048x1024.Idx) :
    ∃ pc ∈ (kernelRun0_A c i arg3 harg3 arg4 harg4 arg5 harg5 arg6 harg6 arg7 harg7 hc0 hc1 x0 x1 x2).2.1, y ∈ pc.1.set :=
  View.cover_of_tiledL (kernelRun0_A c i arg3 harg3 arg4 harg4 arg5 harg5 arg6 harg6 arg7 harg7 hc0 hc1 x0 x1 x2).2.1 S2048x1024.size (by sl_kernel_rfl) y

/-- What they leave: the last write covers the whole buffer, so it is its payload; each load of an input through the
    whole-buffer rectangle reads the input, and the load of the accumulator after the clearing write reads the
    cleared value. Hence the update of the cleared accumulator by the three blocks. -/
theorem canon0_A (c : Dev nD) (i : grid0.Coords) (arg3 : Memref sig .tc .vmem S2048x512 .f32) (harg3 : arg3.IsWhole) (arg4 : Memref sig .tc .vmem S512x1024 .f32) (harg4 : arg4.IsWhole) (arg5 : Memref sig .tc .vmem S1x512x1 .f32) (harg5 : arg5.IsWhole) (arg6 : Memref sig .tc .vmem S1x2048x1024 .bf16) (harg6 : arg6.IsWhole) (arg7 : Memref sig .tc .vmem S2048x1024 .f32) (harg7 : arg7.IsWhole) (hc0 : cond0_0 i) (hc1 : ¬cond0_1 i)
    (x0 : Vec F S2048x512 .f32) (x1 : Vec F S512x1024 .f32) (x2 : Vec F S1x512x1 .f32) :
    View.canon (kernelRun0_A c i arg3 harg3 arg4 harg4 arg5 harg5 arg6 harg6 arg7 harg7 hc0 hc1 x0 x1 x2).2.1 = k0_pay2 x1 x2 (k0_pay1 (F := F)) x0 := by
  unfold kernelRun0_A; dsimp only
  sl_unfold_words
  rw [View.canon_cons_unit_zero (S := S2048x1024) hz0_2]
  simp only [View.readAt_eq_ld, harg3.read_unread, harg4.read_unread, harg5.read_unread,
    View.ld_unit_zero (S := S2048x512) hz0_2, View.ld_unit_zero (S := S512x1024) hz0_2, View.ld_unit_zero (S := S1x512x1) hz0_3,
    View.readCov_unit_zero (S := S2048x1024) _ hz0_2]

end Cert.Kernel.Hand

end
-- ==== Proof.K.Reg0RunB.lean ====
import proofs.«159438_j36850819399877_1_alg».proof.Proof.K.Reg0RunA

/-! # Region 0: the body in the middle of an accumulation

The symbolic run of `cc0__spectral_kernel` at a point whose last grid coordinate is 1 or 2 (the accumulator is
updated; the output is not stored), the cover of the accumulator by the write made, and what it leaves in closed
form over the body's payloads. -/

-- membership of an index in a whole-buffer rectangle is decided structurally, one step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 1000000 in
/-- The body at a point where both tests fail (the last coordinate is 1 or 2): the accumulator comes in at the
    contents `xs0` the point before left; the body runs to the continuation holding the inputs and the output as
    they were and the accumulator with one covering write made, the update. -/
noncomputable def kernelRun0_B (c : Dev nD) (i : grid0.Coords) (arg3 : Memref sig .tc .vmem S2048x512 .f32) (harg3 : arg3.IsWhole) (arg4 : Memref sig .tc .vmem S512x1024 .f32) (harg4 : arg4.IsWhole) (arg5 : Memref sig .tc .vmem S1x512x1 .f32) (harg5 : arg5.IsWhole) (arg6 : Memref sig .tc .vmem S1x2048x1024 .bf16) (harg6 : arg6.IsWhole) (arg7 : Memref sig .tc .vmem S2048x1024 .f32) (harg7 : arg7.IsWhole) (hc0 : ¬cond0_0 i) (hc1 : ¬cond0_1 i)
    (x0 : Vec F S2048x512 .f32) (x1 : Vec F S512x1024 .f32) (x2 : Vec F S1x512x1 .f32) (xs0 : Vec F S2048x1024 .f32) :
    Σ' (L3 : List (View.Piece (Elt F) S1x2048x1024 .bf16)), { LS0 : List (View.Piece (Elt F) S2048x1024 .f32) //
      ∀ (xi3 : Vec F S1x2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__spectral_kernel i arg3 harg3 arg4 harg4 arg5 harg5 arg6 harg6 arg7 harg7) K } := by
  refine ⟨[], ?_, fun xi3 E K => ?run⟩
  case run =>
    simp only [cc0__spectral_kernel_eq_skeleton]; unfold cc0__spectral_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

/-- The one write tiles the accumulator, so it covers it. -/
theorem scover0_B_0 (c : Dev nD) (i : grid0.Coords) (arg3 : Memref sig .tc .vmem S2048x512 .f32) (harg3 : arg3.IsWhole) (arg4 : Memref sig .tc .vmem S512x1024 .f32) (harg4 : arg4.IsWhole) (arg5 : Memref sig .tc .vmem S1x512x1 .f32) (harg5 : arg5.IsWhole) (arg6 : Memref sig .tc .vmem S1x2048x1024 .bf16) (harg6 : arg6.IsWhole) (arg7 : Memref sig .tc .vmem S2048x1024 .f32) (harg7 : arg7.IsWhole) (hc0 : ¬cond0_0 i) (hc1 : ¬cond0_1 i)
    (x0 : Vec F S2048x512 .f32) (x1 : Vec F S512x1024 .f32) (x2 : Vec F S1x512x1 .f32) (xs0 : Vec F S2048x1024 .f32) (y : S2048x1024.Idx) :
    ∃ pc ∈ (kernelRun0_B c i arg3 harg3 arg4 harg4 arg5 harg5 arg6 harg6 arg7 harg7 hc0 hc1 x0 x1 x2 xs0).2.1, y ∈ pc.1.set :=
  View.cover_of_tiledL (kernelRun0_B c i arg3 harg3 arg4 harg4 arg5 harg5 arg6 harg6 arg7 harg7 hc0 hc1 x0 x1 x2 xs0).2.1 S2048x1024.size (by sl_kernel_rfl) y

/-- What it leaves: its payload, in which each load through the whole-buffer rectangle reads the buffer's contents.
    Hence the update of the incoming accumulator by the three blocks. -/
theorem canon0_B (c : Dev nD) (i : grid0.Coords) (arg3 : Memref sig .tc .vmem S2048x512 .f32) (harg3 : arg3.IsWhole) (arg4 : Memref sig .tc .vmem S512x1024 .f32) (harg4 : arg4.IsWhole) (arg5 : Memref sig .tc .vmem S1x512x1 .f32) (harg5 : arg5.IsWhole) (arg6 : Memref sig .tc .vmem S1x2048x1024 .bf16) (harg6 : arg6.IsWhole) (arg7 : Memref sig .tc .vmem S2048x1024 .f32) (harg7 : arg7.IsWhole) (hc0 : ¬cond0_0 i) (hc1 : ¬cond0_1 i)
    (x0 : Vec F S2048x512 .f32) (x1 : Vec F S512x1024 .f32) (x2 : Vec F S1x512x1 .f32) (xs0 : Vec F S2048x1024 .f32) :
    View.canon (kernelRun0_B c i arg3 harg3 arg4 harg4 arg5 harg5 arg6 harg6 arg7 harg7 hc0 hc1 x0 x1 x2 xs0).2.1 = k0_pay2 x1 x2 xs0 x0 := by
  unfold kernelRun0_B; dsimp only
  try sl_unfold_words
  rw [View.canon_unit_zero (S := S2048x1024) hz0_2]
  simp only [View.readAt_eq_ld, harg3.read_unread, harg4.read_unread, harg5.read_unread, harg7.read_unread,
    View.ld_unit_zero (S := S2048x512) hz0_2, View.ld_unit_zero (S := S512x1024) hz0_2, View.ld_unit_zero (S := S1x512x1) hz0_3,
    View.ld_unit_zero (S := S2048x1024) hz0_2]

end Cert.Kernel.Hand

end
-- ==== Proof.K.Reg0RunC.lean ====
import proofs.«159438_j36850819399877_1_alg».proof.Proof.K.Reg0RunB

/-! # Region 0: the body where an accumulation ends

The symbolic run of `cc0__spectral_kernel` at a point whose last grid coordinate is 3 (the accumulator is updated,
then normalised into the output's buffer), the covers of both buffers by the writes made, and what they leave in
closed form over the body's payloads. -/

-- membership of an index in a whole-buffer rectangle is decided structurally, one step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 1000000 in
/-- The body at a point where the first test fails and the second holds (the last coordinate is 3): the accumulator
    comes in at the contents `xs0` the point before left, the output's buffer at anything; the body runs to the
    continuation holding the inputs as they were, the accumulator with one covering write made (the update) and the
    output's buffer with one covering write made (the updated accumulator, normalised). -/
noncomputable def kernelRun0_C (c : Dev nD) (i : grid0.Coords) (arg3 : Memref sig .tc .vmem S2048x512 .f32) (harg3 : arg3.IsWhole) (arg4 : Memref sig .tc .vmem S512x1024 .f32) (harg4 : arg4.IsWhole) (arg5 : Memref sig .tc .vmem S1x512x1 .f32) (harg5 : arg5.IsWhole) (arg6 : Memref sig .tc .vmem S1x2048x1024 .bf16) (harg6 : arg6.IsWhole) (arg7 : Memref sig .tc .vmem S2048x1024 .f32) (harg7 : arg7.IsWhole) (hc0 : ¬cond0_0 i) (hc1 : cond0_1 i)
    (x0 : Vec F S2048x512 .f32) (x1 : Vec F S512x1024 .f32) (x2 : Vec F S1x512x1 .f32) (xs0 : Vec F S2048x1024 .f32) :
    Σ' (L3 : List (View.Piece (Elt F) S1x2048x1024 .bf16)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0__spectral_kernel i arg3 harg3 arg4 harg4 arg5 harg5 arg6 harg6 arg7 harg7) K } := by
  refine ⟨?_, ?_, fun E K => ?run⟩
  case run =>
    simp only [cc0__spectral_kernel_eq_skeleton]; unfold cc0__spectral_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

/-- The one write into the accumulator tiles it, so it covers it; -/
theorem scover0_C_0 (c : Dev nD) (i : grid0.Coords) (arg3 : Memref sig .tc .vmem S2048x512 .f32) (harg3 : arg3.IsWhole) (arg4 : Memref sig .tc .vmem S512x1024 .f32) (harg4 : arg4.IsWhole) (arg5 : Memref sig .tc .vmem S1x512x1 .f32) (harg5 : arg5.IsWhole) (arg6 : Memref sig .tc .vmem S1x2048x1024 .bf16) (harg6 : arg6.IsWhole) (arg7 : Memref sig .tc .vmem S2048x1024 .f32) (harg7 : arg7.IsWhole) (hc0 : ¬cond0_0 i) (hc1 : cond0_1 i)
    (x0 : Vec F S2048x512 .f32) (x1 : Vec F S512x1024 .f32) (x2 : Vec F S1x512x1 .f32) (xs0 : Vec F S2048x1024 .f32) (y : S2048x1024.Idx) :
    ∃ pc ∈ (kernelRun0_C c i arg3 harg3 arg4 harg4 arg5 harg5 arg6 harg6 arg7 harg7 hc0 hc1 x0 x1 x2 xs0).2.1, y ∈ pc.1.set :=
  View.cover_of_tiledL (kernelRun0_C c i arg3 harg3 arg4 harg4 arg5 harg5 arg6 harg6 arg7 harg7 hc0 hc1 x0 x1 x2 xs0).2.1 S2048x1024.size (by sl_kernel_rfl) y

/-- likewise the one write into the output's buffer. -/
theorem cover0_C_3 (c : Dev nD) (i : grid0.Coords) (arg3 : Memref sig .tc .vmem S2048x512 .f32) (harg3 : arg3.IsWhole) (arg4 : Memref sig .tc .vmem S512x1024 .f32) (harg4 : arg4.IsWhole) (arg5 : Memref sig .tc .vmem S1x512x1 .f32) (harg5 : arg5.IsWhole) (arg6 : Memref sig .tc .vmem S1x2048x1024 .bf16) (harg6 : arg6.IsWhole) (arg7 : Memref sig .tc .vmem S2048x1024 .f32) (harg7 : arg7.IsWhole) (hc0 : ¬cond0_0 i) (hc1 : cond0_1 i)
    (x0 : Vec F S2048x512 .f32) (x1 : Vec F S512x1024 .f32) (x2 : Vec F S1x512x1 .f32) (xs0 : Vec F S2048x1024 .f32) (y : S1x2048x1024.Idx) :
    ∃ pc ∈ (kernelRun0_C c i arg3 harg3 arg4 harg4 arg5 harg5 arg6 harg6 arg7 harg7 hc0 hc1 x0 x1 x2 xs0).1, y ∈ pc.1.set :=
  View.cover_of_tiledL (kernelRun0_C c i arg3 harg3 arg4 harg4 arg5 harg5 arg6 harg6 arg7 harg7 hc0 hc1 x0 x1 x2 xs0).1 S1x2048x1024.size (by sl_kernel_rfl) y

/-- The accumulator is left at the update of the incoming one by the three blocks; -/
theorem canon0_C (c : Dev nD) (i : grid0.Coords) (arg3 : Memref sig .tc .vmem S2048x512 .f32) (harg3 : arg3.IsWhole) (arg4 : Memref sig .tc .vmem S512x1024 .f32) (harg4 : arg4.IsWhole) (arg5 : Memref sig .tc .vmem S1x512x1 .f32) (harg5 : arg5.IsWhole) (arg6 : Memref sig .tc .vmem S1x2048x1024 .bf16) (harg6 : arg6.IsWhole) (arg7 : Memref sig .tc .vmem S2048x1024 .f32) (harg7 : arg7.IsWhole) (hc0 : ¬cond0_0 i) (hc1 : cond0_1 i)
    (x0 : Vec F S2048x512 .f32) (x1 : Vec F S512x1024 .f32) (x2 : Vec F S1x512x1 .f32) (xs0 : Vec F S2048x1024 .f32) :
    View.canon (kernelRun0_C c i arg3 harg3 arg4 harg4 arg5 harg5 arg6 harg6 arg7 harg7 hc0 hc1 x0 x1 x2 xs0).2.1 = k0_pay2 x1 x2 xs0 x0 := by
  unfold kernelRun0_C; dsimp only
  sl_unfold_words
  rw [View.canon_unit_zero (S := S2048x1024) hz0_2]
  simp only [View.readAt_eq_ld, harg3.read_unread, harg4.read_unread, harg5.read_unread, harg7.read_unread,
    View.ld_unit_zero (S := S2048x512) hz0_2, View.ld_unit_zero (S := S512x1024) hz0_2, View.ld_unit_zero (S := S1x512x1) hz0_3,
    View.ld_unit_zero (S := S2048x1024) hz0_2]

/-- and the output's buffer at that update normalised: the load of the accumulator after its covering write reads
    the written payload. -/
theorem canonO_C (c : Dev nD) (i : grid0.Coords) (arg3 : Memref sig .tc .vmem S2048x512 .f32) (harg3 : arg3.IsWhole) (arg4 : Memref sig .tc .vmem S512x1024 .f32) (harg4 : arg4.IsWhole) (arg5 : Memref sig .tc .vmem S1x512x1 .f32) (harg5 : arg5.IsWhole) (arg6 : Memref sig .tc .vmem S1x2048x1024 .bf16) (harg6 : arg6.IsWhole) (arg7 : Memref sig .tc .vmem S2048x1024 .f32) (harg7 : arg7.IsWhole) (hc0 : ¬cond0_0 i) (hc1 : cond0_1 i)
    (x0 : Vec F S2048x512 .f32) (x1 : Vec F S512x1024 .f32) (x2 : Vec F S1x512x1 .f32) (xs0 : Vec F S2048x1024 .f32) :
    View.canon (kernelRun0_C c i arg3 harg3 arg4 harg4 arg5 harg5 arg6 harg6 arg7 harg7 hc0 hc1 x0 x1 x2 xs0).1 = k0_pay3 (k0_pay2 x1 x2 xs0 x0) := by
  unfold kernelRun0_C; dsimp only
  sl_unfold_words
  rw [View.canon_unit_zero (S := S1x2048x1024) hz0_3]
  simp only [View.readAt_eq_ld, harg3.read_unread, harg4.read_unread, harg5.read_unread, harg7.read_unread,
    View.ld_unit_zero (S := S2048x512) hz0_2, View.ld_unit_zero (S := S512x1024) hz0_2, View.ld_unit_zero (S := S1x512x1) hz0_3,
    View.ld_unit_zero (S := S2048x1024) hz0_2, View.readCov_unit_zero (S := S2048x1024) _ hz0_2]

end Cert.Kernel.Hand

end
-- ==== Proof.K.Reg0.lean ====
import proofs.«159438_j36850819399877_1_alg».proof.Proof.K.Reg0RunC

/-! # Region 0 (`cc0__spectral_kernel`): the body obligation and the invariant's two ends

At every grid point the body, called on the windows' current staging buffers and the accumulator, re-establishes
the region invariant one position further. Which of the body's three behaviours applies is decided by the point's
position mod 4: at 0 the accumulator is cleared and then updated; at 1 and 2 it is updated; at 3 it is updated and
then normalised into the output's buffer. Where the output is not stored its window is idle and its buffer is
handed back as found. -/

-- membership of an index in a whole-buffer rectangle is decided structurally, one step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The body obligation, at a generic point -/

/-- What the body is called with at point `t`: the invariant, what the core owes, and each window's current staging
    buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- What it returns: the invariant one position further, the same debt, and each buffer at what the body leaves
    (for the output window where it is idle and not written back: as found). -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; the position mod 4 selects the behaviour, whose
    symbolic run then applies: the invariant hands it the accumulator (at anything before the first point, else at
    what the point before left) and takes it back at this point's value, identified through the cover of the buffer
    by the writes made and their closed form; the other scoped buffers, the generator register and the core's debt
    pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 4 = 0
  · -- the accumulation restarts
    have hc0 : cond0_0 (grid0.coords t) := (hcond0_0 t).mpr h0
    have hc1 : ¬cond0_1 (grid0.coords t) := fun h => by have := (hcond0_1 t).mp h; omega
    rw [Dat.leavesExact_idle (dat0 V c) 3 t (idleAt0_3 t hc1) (noFlush0_3 t hc1)]
    rw [accAt0_reset V c t h0]
    by_cases hz : t.val = 0
    · rw [PhiS0_castSucc V c t, PhiS0_zero V c _ _ hz, PhiA0_eq]
      iintro ⟨⟨⟨HS0, Hr⟩, Hg⟩, Ho, ⟨%d0, H0⟩, ⟨%d1, H1⟩, ⟨%d2, H2⟩, ⟨%d3, H3⟩⟩
      iapply ((kernelRun0_A c (grid0.coords t) _ _ _ _ _ _ _ _ _ _ hc0 hc1 (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro
            exact (View.read_writes_eq_canon _ _ _ (scover0_A_0 c _ _ _ _ _ _ _ _ _ _ _ _ _ _ _ _)).trans (canon0_A c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩⟩
      iapply ((kernelRun0_A c (grid0.coords t) _ _ _ _ _ _ _ _ _ _ hc0 hc1 (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro
            exact (View.read_writes_eq_canon _ _ _ (scover0_A_0 c _ _ _ _ _ _ _ _ _ _ _ _ _ _ _ _)).trans (canon0_A c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have hc0 : ¬cond0_0 (grid0.coords t) := fun h => h0 ((hcond0_0 t).mp h)
    have hz : t.val ≠ 0 := fun e => h0 (by rw [e])
    rw [accAt0_step V c t h0]
    by_cases h1 : t.val % 4 = 3
    · -- the accumulation ends: the output is stored
      have hc1 : cond0_1 (grid0.coords t) := (hcond0_1 t).mpr h1
      rw [show (dat0 V c).leavesExact 3 t = owns (c : Thread nD τ) (ms0_3 t) fullShare ((dat0 V c).after 3 t) from by
        unfold Dat.leavesExact; rw [liveAt0_3 t hc1], after0_3]
      unfold outAt0
      rw [accAt0_step V c t h0]
      rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩⟩
      iapply ((kernelRun0_C c (grid0.coords t) _ _ _ _ _ _ _ _ _ _ hc0 hc1 (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr Hg]
      · isplitl [HS0 Hr]
        · isplitl [HS0]
          · unfold owns; iexists _; isplitr
            swap; · iexact HS0
            ipureintro
            exact (View.read_writes_eq_canon _ _ _ (scover0_C_0 c _ _ _ _ _ _ _ _ _ _ _ _ _ _ _ _ _)).trans (canon0_C c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro
      exact (View.read_writes_eq_canon _ _ _ (cover0_C_3 c _ _ _ _ _ _ _ _ _ _ _ _ _ _ _ _ _)).trans (canonO_C c _ _ _ _ _ _ _ _ _ _ _ _ _ _ _ _ _)
    · -- the middle of an accumulation
      have hc1 : ¬cond0_1 (grid0.coords t) := fun h => h1 ((hcond0_1 t).mp h)
      rw [Dat.leavesExact_idle (dat0 V c) 3 t (idleAt0_3 t hc1) (noFlush0_3 t hc1)]
      rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩⟩
      iapply ((kernelRun0_B c (grid0.coords t) _ _ _ _ _ _ _ _ _ _ hc0 hc1 (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro
            exact (View.read_writes_eq_canon _ _ _ (scover0_B_0 c _ _ _ _ _ _ _ _ _ _ _ _ _ _ _ _ _)).trans (canon0_B c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The body obligation of the pipeline's proof data, at every point. -/
theorem body_obligation0 (c : Dev nD) : BodyObligation (dat0 (F := F) V c) (defs₀ (F := F)) Variants.none () Set.univ := fun t => by
  rw [bigSep_W0, bigSep_W0]
  exact sound_body0 V c t

/-! ## The invariant's two ends -/

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives it back: the accumulator's value is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

/-- In particular after the last point. -/
theorem hout0 (c : Dev nD) : (dat0 V c).Φ (Fin.last cfg0.N) ⊢ Pipeline.ΦA spec0 c :=
  Phi_out0 V c _ (by rw [Fin.val_last]; have : cfg0.N = 32 := N_0; omega)

end Cert.Kernel.Hand

end
-- ==== Proof.K.Reg1.lean ====
import proofs.«159438_j36850819399877_1_alg».proof.Proof.Gen.Kernel.Launch
import proofs.«159438_j36850819399877_1_alg».proof.Proof.Gen.Kernel.Skeleton
import proofs.«159438_j36850819399877_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1 (`cc1__xw_kernel`): the body's half of the pipeline argument

The pipeline of this region moves blocks of two input arrays and one output array through staging buffers and
calls the body once per grid point. This file gives, at arbitrary entry contents `V` of the core's buffers:
what each window's block is at a point, what the body leaves in the output's staging buffer as a function of
the two input blocks, the separation-logic triple of the body, and the proof data whose body obligation that
triple discharges. -/

-- membership of an index in a whole-buffer rectangle is decided structurally, one step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`: the part of its array (at the entry contents) that the window's index map
    selects there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether or not the pipeline fetched
    it there (where it did not, the block index has not moved since the last fetch), for any proof data whose
    array is the entry contents and whose body leaves the block in place. Window 0: -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- and window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each staging buffer whole -/

abbrev r1_0 : Rect S512x768 := Rect.unit (s := S512x768) ![0, 0] S512x768.size inb_S512x768_S512x768_0_0
abbrev r1_1 : Rect S1x768x192 := Rect.unit (s := S1x768x192) ![0, 0, 0] S1x768x192.size inb_S1x768x192_S1x768x192_0_0_0
abbrev r1_2 : Rect S1x512x192 := Rect.unit (s := S1x512x192) ![0, 0, 0] S1x512x192.size inb_S1x512x192_S1x512x192_0_0_0

/-! ## What the body leaves in the output window's buffer -/

/-- The output's staging buffer after the body, as a function of the two input blocks: one store of the whole
    buffer, whose payload is computed from the two inputs read whole. -/
def out1_2 (x0 : Vec F S512x768 .bf16) (x1 : Vec F S1x768x192 .bf16) : Vec F S1x512x192 .bf16 :=
  View.canon [⟨r1_2, k1_pay1 (View.ld x0 r1_0) (View.ld x1 r1_1)⟩]

/-- The one store's rectangle is the whole buffer, so every index lies in it. -/
theorem cover1_2 (p0 : Vec F S1x512x192 .bf16) (y : S1x512x192.Idx) :
    ∃ pc ∈ ([⟨r1_2, p0⟩] : List (View.Piece (Elt F) S1x512x192 .bf16)), y ∈ pc.1.set :=
  View.cover_of_tiled [⟨r1_2, p0⟩] S1x512x192.size (by rfl) y

/-! ## The body's triple -/

set_option maxHeartbeats 1000000 in
/-- The body, called on three whole staging buffers — the inputs' at read contents `x0`, `x1`, the output's at
    anything —, runs to a continuation that holds the inputs' as they were and the output's at `out1_2 x0 x1`.
    The body's two input loads read `x0` and `x1` whole; its load of the output buffer reads whatever is there and
    the value is not used; its store overwrites the whole output buffer. -/
theorem sound_kernel1 (c : Dev nD) (E : Set ℕ) (i : grid1.Coords) (arg0 : Memref sig .tc .vmem S512x768 .bf16) (harg0 : arg0.IsWhole) (arg1 : Memref sig .tc .vmem S1x768x192 .bf16) (harg1 : arg1.IsWhole) (arg2 : Memref sig .tc .vmem S1x512x192 .bf16) (harg2 : arg2.IsWhole)
    (x0 : Vec F S512x768 .bf16) (x1 : Vec F S1x768x192 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__xw_kernel i arg0 harg0 arg1 harg1 arg2 harg2) K := by
  simp only [cc1__xw_kernel_eq_skeleton]; unfold cc1__xw_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of this pipeline on core `c`: the arrays at the entry contents; after the body at point `t`
    each input's buffer still at its block and the output's at `out1_2` of the two input blocks; the invariant is
    the rest of the core's state, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`: the invariant, the core's debts, and each window's current staging
    buffer at what the pipeline left there, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline rule, at every point. -/
theorem body_obligation1 (c : Dev nD) : BodyObligation (dat1 (F := F) V c) (defs₀ (F := F)) Variants.none () Set.univ := fun t => by
  rw [bigSep_W1, bigSep_W1]
  exact sound_body1 V c t

end Cert.Kernel.Hand
-- ==== Proof.K.Reg2.lean ====
import proofs.«159438_j36850819399877_1_alg».proof.Proof.Gen.Kernel.Launch
import proofs.«159438_j36850819399877_1_alg».proof.Proof.Gen.Kernel.Skeleton
import proofs.«159438_j36850819399877_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a whole-buffer rectangle is decided structurally, one step per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every buffer of the core when the region is entered: all of the region's data is a function of it
variable (V : (c : Dev nD) → (b : Ref sig .tc) → Buf (Elt F) ((c : Thread nD τ).loc b))

/-! # Region 2: the transposed product with bias and rectifier (pipeline 2), at the entry contents `V` -/

/-! ## The windows' blocks -/

/-- The block of window `w` at grid point `t`: the part of the window's array, as the region finds it, that the
    window's index map selects there. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: every load and the store is of a whole staging buffer -/

abbrev r2_0 : Rect S1x2048x2048 := Rect.unit (s := S1x2048x2048) ![0, 0, 0] S1x2048x2048.size inb_S1x2048x2048_S1x2048x2048_0_0_0
abbrev r2_1 : Rect S1x2048x192 := Rect.unit (s := S1x2048x192) ![0, 0, 0] S1x2048x192.size inb_S1x2048x192_S1x2048x192_0_0_0
abbrev r2_2 : Rect S1x1x192 := Rect.unit (s := S1x1x192) ![0, 0, 0] S1x1x192.size inb_S1x1x192_S1x1x192_0_0_0
abbrev r2_3 : Rect S1x2048x192 := Rect.unit (s := S1x2048x192) ![0, 0, 0] S1x2048x192.size inb_S1x2048x192_S1x2048x192_0_0_0

/-! ## What the body leaves in the output window's buffer -/

/-- The output buffer after the body, as a function of the three input blocks: the body's single store, of the
    payload computed from the three whole-buffer loads, laid over the buffer. The buffer's earlier contents do not
    enter: the store covers it (`cover2_3`). -/
def out2_3 (x0 : Vec F S1x2048x2048 .bf16) (x1 : Vec F S1x2048x192 .bf16) (x2 : Vec F S1x1x192 .f32) : Vec F S1x2048x192 .bf16 :=
  View.canon [⟨r2_3, k2_pay1 (View.ld x0 r2_0) (View.ld x1 r2_1) (View.ld x2 r2_2)⟩]

/-! ## What the body finds in each input window's buffer -/

/-- Input window 0's current staging buffer holds its block at every point, whether or not the window was fetched
    there: where it was not, its block index has not moved since the point before and the body left the block in
    place. Stated for any proof data with the entry arrays (`hA`) whose body leaves the block (`hafter`); the window
    is an input, is never idle and is uncut. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether or not the window was fetched
    there: where it was not, its block index has not moved since the point before and the body left the block in
    place. Stated for any proof data with the entry arrays (`hA`) whose body leaves the block (`hafter`); the window
    is an input, is never idle and is uncut. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether or not the window was fetched
    there: where it was not, its block index has not moved since the point before and the body left the block in
    place. Stated for any proof data with the entry arrays (`hA`) whose body leaves the block (`hafter`); the window
    is an input, is never idle and is uncut. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The single store is of the whole output buffer, so it covers it. -/
theorem cover2_3 (p0 : Vec F S1x2048x192 .bf16) (y : S1x2048x192.Idx) :
    ∃ pc ∈ ([⟨r2_3, p0⟩] : List (View.Piece (Elt F) S1x2048x192 .bf16)), y ∈ pc.1.set :=
  View.cover_of_tiled [⟨r2_3, p0⟩] S1x2048x192.size (by rfl) y

/-! ## The body's triple -/

set_option maxHeartbeats 1000000 in
/-- The body on whole staging buffers, the three inputs' at contents `x0 x1 x2` and the output's at any contents,
    runs to a state where the inputs' are unchanged and the output's holds `out2_3 x0 x1 x2`. The body's three
    input loads read `x0 x1 x2` through the whole-buffer rectangles; its load of the output buffer reads whatever
    is there and the value is not used; its store overwrites the whole output buffer with the payload. -/
theorem sound_kernel2 (c : Dev nD) (E : Set ℕ) (i : grid2.Coords)
    (arg0 : Memref sig .tc .vmem S1x2048x2048 .bf16) (harg0 : arg0.IsWhole) (arg1 : Memref sig .tc .vmem S1x2048x192 .bf16) (harg1 : arg1.IsWhole)
    (arg2 : Memref sig .tc .vmem S1x1x192 .f32) (harg2 : arg2.IsWhole) (arg3 : Memref sig .tc .vmem S1x2048x192 .bf16) (harg3 : arg3.IsWhole)
    (x0 : Vec F S1x2048x2048 .bf16) (x1 : Vec F S1x2048x192 .bf16) (x2 : Vec F S1x1x192 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out2_3 x0 x1 x2)) -∗ K ⟨⟩))
      ⊢ wp frame (wpE (defs₀ (F := F)) Variants.none c none) E (cc2__transA_bias_relu_kernel i arg0 harg0 arg1 harg1 arg2 harg2 arg3 harg3) K := by
  simp only [cc2__transA_bias_relu_kernel_eq_skeleton]; unfold cc2__transA_bias_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`. The arrays are as the region finds them. After the body at point
    `t` each input buffer still holds its block and the output buffer holds `out2_3` of the three input blocks.
    The invariant is the one of a region that touches nothing outside its windows; nothing is owed; every share is
    full. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window: the case split of `dat2` on the window, reduced. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`: the invariant, what is owed, and each window's current staging
    buffer at what the pipeline has put in it, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns: the same with each buffer at what the proof data says the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point. The inputs' buffers hold their blocks (`before2_0..2`), so the body's triple applies
    with those blocks; the invariant and what is owed are not read and pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline's rule, at every point: the rule's separating product over the four
    windows written out is `bodyPre2` before and `bodyPost2` after. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3.lean ====
import proofs.«159438_j36850819399877_1_alg».proof.Proof.Gen.Kernel.Launch
import proofs.«159438_j36850819399877_1_alg».proof.Proof.Gen.Kernel.Skeleton
import proofs.«159438_j36850819399877_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3 (`cc3__transA_kernel`): the body's half of the pipeline argument

The pipeline of this region moves blocks of two input arrays and one output array through staging buffers and
calls the body once per grid point. This file gives, at arbitrary entry contents `V` of the core's buffers:
what each window's block is at a point, what the body leaves in the output's staging buffer as a function of
the two input blocks, the separation-logic triple of the body, and the proof data whose body obligation that
triple discharges. -/

-- membership of an index in a whole-buffer rectangle is decided structurally, one step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`: the part of its array (at the entry contents) that the window's index map
    selects there. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, whether or not the pipeline fetched
    it there (where it did not, the block index has not moved since the last fetch), for any proof data whose
    array is the entry contents and whose body leaves the block in place. Window 0: -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- and window 1. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each staging buffer whole -/

abbrev r3_0 : Rect S1x2048x2048 := Rect.unit (s := S1x2048x2048) ![0, 0, 0] S1x2048x2048.size inb_S1x2048x2048_S1x2048x2048_0_0_0
abbrev r3_1 : Rect S1x2048x192 := Rect.unit (s := S1x2048x192) ![0, 0, 0] S1x2048x192.size inb_S1x2048x192_S1x2048x192_0_0_0
abbrev r3_2 : Rect S1x2048x192 := Rect.unit (s := S1x2048x192) ![0, 0, 0] S1x2048x192.size inb_S1x2048x192_S1x2048x192_0_0_0

/-! ## What the body leaves in the output window's buffer -/

/-- The output's staging buffer after the body, as a function of the two input blocks: one store of the whole
    buffer, whose payload is computed from the two inputs read whole. -/
def out3_2 (x0 : Vec F S1x2048x2048 .bf16) (x1 : Vec F S1x2048x192 .bf16) : Vec F S1x2048x192 .bf16 :=
  View.canon [⟨r3_2, k3_pay1 (View.ld x0 r3_0) (View.ld x1 r3_1)⟩]

/-- The one store's rectangle is the whole buffer, so every index lies in it. -/
theorem cover3_2 (p0 : Vec F S1x2048x192 .bf16) (y : S1x2048x192.Idx) :
    ∃ pc ∈ ([⟨r3_2, p0⟩] : List (View.Piece (Elt F) S1x2048x192 .bf16)), y ∈ pc.1.set :=
  View.cover_of_tiled [⟨r3_2, p0⟩] S1x2048x192.size (by rfl) y

/-! ## The body's triple -/

set_option maxHeartbeats 1000000 in
/-- The body, called on three whole staging buffers — the inputs' at read contents `x0`, `x1`, the output's at
    anything —, runs to a continuation that holds the inputs' as they were and the output's at `out3_2 x0 x1`.
    The body's two input loads read `x0` and `x1` whole; its load of the output buffer reads whatever is there and
    the value is not used; its store overwrites the whole output buffer. -/
theorem sound_kernel3 (c : Dev nD) (E : Set ℕ) (i : grid3.Coords) (arg0 : Memref sig .tc .vmem S1x2048x2048 .bf16) (harg0 : arg0.IsWhole) (arg1 : Memref sig .tc .vmem S1x2048x192 .bf16) (harg1 : arg1.IsWhole) (arg2 : Memref sig .tc .vmem S1x2048x192 .bf16) (harg2 : arg2.IsWhole)
    (x0 : Vec F S1x2048x2048 .bf16) (x1 : Vec F S1x2048x192 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out3_2 x0 x1)) -∗ K ⟨⟩))
      ⊢ wp frame (wpE (defs₀ (F := F)) Variants.none c none) E (cc3__transA_kernel i arg0 harg0 arg1 harg1 arg2 harg2) K := by
  simp only [cc3__transA_kernel_eq_skeleton]; unfold cc3__transA_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of this pipeline on core `c`: the arrays at the entry contents; after the body at point `t`
    each input's buffer still at its block and the output's at `out3_2` of the two input blocks; the invariant is
    the rest of the core's state, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`: the invariant, the core's debts, and each window's current staging
    buffer at what the pipeline left there, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the body's triple applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline rule, at every point. -/
theorem body_obligation3 (c : Dev nD) : BodyObligation (dat3 (F := F) V c) (defs₀ (F := F)) Variants.none () Set.univ := fun t => by
  rw [bigSep_W3, bigSep_W3]
  exact sound_body3 V c t

end Cert.Kernel.Hand
-- ==== Proof.K.Reg4.lean ====
import proofs.«159438_j36850819399877_1_alg».proof.Proof.Gen.Kernel.Launch
import proofs.«159438_j36850819399877_1_alg».proof.Proof.Gen.Kernel.Skeleton
import proofs.«159438_j36850819399877_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a whole-buffer rectangle is decided structurally, one step per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every buffer of the core when the region is entered: all of the region's data is a function of it
variable (V : (c : Dev nD) → (b : Ref sig .tc) → Buf (Elt F) ((c : Thread nD τ).loc b))

/-! # Region 4: the final product with bias and rectifier (pipeline 4), at the entry contents `V` -/

/-! ## The windows' blocks -/

/-- The block of window `w` at grid point `t`: the part of the window's array, as the region finds it, that the
    window's index map selects there. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## The body's accesses: every load and the store is of a whole staging buffer -/

abbrev r4_0 : Rect S1024x768 := Rect.unit (s := S1024x768) ![0, 0] S1024x768.size inb_S1024x768_S1024x768_0_0
abbrev r4_1 : Rect S768x768 := Rect.unit (s := S768x768) ![0, 0] S768x768.size inb_S768x768_S768x768_0_0
abbrev r4_2 : Rect S1x768 := Rect.unit (s := S1x768) ![0, 0] S1x768.size inb_S1x768_S1x768_0_0
abbrev r4_3 : Rect S1024x768 := Rect.unit (s := S1024x768) ![0, 0] S1024x768.size inb_S1024x768_S1024x768_0_0

/-! ## What the body leaves in the output window's buffer -/

/-- The output buffer after the body, as a function of the three input blocks: the body's single store, of the
    payload computed from the three whole-buffer loads, laid over the buffer. The buffer's earlier contents do not
    enter: the store covers it (`cover4_3`). -/
def out4_3 (x0 : Vec F S1024x768 .bf16) (x1 : Vec F S768x768 .bf16) (x2 : Vec F S1x768 .f32) : Vec F S1024x768 .f32 :=
  View.canon [⟨r4_3, k4_pay1 (View.ld x0 r4_0) (View.ld x1 r4_1) (View.ld x2 r4_2)⟩]

/-! ## What the body finds in each input window's buffer -/

/-- Input window 0's current staging buffer holds its block at every point, whether or not the window was fetched
    there: where it was not, its block index has not moved since the point before and the body left the block in
    place. Stated for any proof data with the entry arrays (`hA`) whose body leaves the block (`hafter`); the window
    is an input, is never idle and is uncut. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, whether or not the window was fetched
    there: where it was not, its block index has not moved since the point before and the body left the block in
    place. Stated for any proof data with the entry arrays (`hA`) whose body leaves the block (`hafter`); the window
    is an input, is never idle and is uncut. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, whether or not the window was fetched
    there: where it was not, its block index has not moved since the point before and the body left the block in
    place. Stated for any proof data with the entry arrays (`hA`) whose body leaves the block (`hafter`); the window
    is an input, is never idle and is uncut. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The single store is of the whole output buffer, so it covers it. -/
theorem cover4_3 (p0 : Vec F S1024x768 .f32) (y : S1024x768.Idx) :
    ∃ pc ∈ ([⟨r4_3, p0⟩] : List (View.Piece (Elt F) S1024x768 .f32)), y ∈ pc.1.set :=
  View.cover_of_tiled [⟨r4_3, p0⟩] S1024x768.size (by rfl) y

/-! ## The body's triple -/

set_option maxHeartbeats 1000000 in
/-- The body on whole staging buffers, the three inputs' at contents `x0 x1 x2` and the output's at any contents,
    runs to a state where the inputs' are unchanged and the output's holds `out4_3 x0 x1 x2`. The body's three
    input loads read `x0 x1 x2` through the whole-buffer rectangles; its load of the output buffer reads whatever
    is there and the value is not used; its store overwrites the whole output buffer with the payload. -/
theorem sound_kernel4 (c : Dev nD) (E : Set ℕ) (i : grid4.Coords)
    (arg0 : Memref sig .tc .vmem S1024x768 .bf16) (harg0 : arg0.IsWhole) (arg1 : Memref sig .tc .vmem S768x768 .bf16) (harg1 : arg1.IsWhole)
    (arg2 : Memref sig .tc .vmem S1x768 .f32) (harg2 : arg2.IsWhole) (arg3 : Memref sig .tc .vmem S1024x768 .f32) (harg3 : arg3.IsWhole)
    (x0 : Vec F S1024x768 .bf16) (x1 : Vec F S768x768 .bf16) (x2 : Vec F S1x768 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out4_3 x0 x1 x2)) -∗ K ⟨⟩))
      ⊢ wp frame (wpE (defs₀ (F := F)) Variants.none c none) E (cc4__final_kernel i arg0 harg0 arg1 harg1 arg2 harg2 arg3 harg3) K := by
  simp only [cc4__final_kernel_eq_skeleton]; unfold cc4__final_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of pipeline 4 on core `c`. The arrays are as the region finds them. After the body at point
    `t` each input buffer still holds its block and the output buffer holds `out4_3` of the three input blocks.
    The invariant is the one of a region that touches nothing outside its windows; nothing is owed; every share is
    full. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the entry contents. -/
theorem A_eq4 (c : Dev nD) (w : Fin cfg4.W) : (dat4 V c).A w = V c (Pipeline.arrRef spec4 w) := by
  dsimp only [dat4]

/-- What the body leaves, window by window: the case split of `dat4` on the window, reduced. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`: the invariant, what is owed, and each window's current staging
    buffer at what the pipeline has put in it, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns: the same with each buffer at what the proof data says the body leaves. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point. The inputs' buffers hold their blocks (`before4_0..2`), so the body's triple applies
    with those blocks; the invariant and what is owed are not read and pass through. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline's rule, at every point: the rule's separating product over the four
    windows written out is `bodyPre4` before and `bodyPost4` after. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Run.lean ====
import proofs.«159438_j36850819399877_1_alg».proof.Proof.K.Reg0
import proofs.«159438_j36850819399877_1_alg».proof.Proof.K.Reg1
import proofs.«159438_j36850819399877_1_alg».proof.Proof.K.Reg2
import proofs.«159438_j36850819399877_1_alg».proof.Proof.K.Reg3
import proofs.«159438_j36850819399877_1_alg».proof.Proof.K.Reg4
import proofs.«159438_j36850819399877_1_alg».proof.Proof.Gen.Kernel.Launch
import proofs.«159438_j36850819399877_1_alg».proof.Proof.Gen.Kernel.Skeleton
import proofs.«159438_j36850819399877_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of `@main`: five kernel regions among four stretches of host operations

`@main` is nine segments in order: host stretch, region 0, host stretch, region 1, host stretch, region 2, region 3,
host stretch, region 4. This file follows the core's unscoped buffers through them. Their contents at each of the
ten boundaries are a fold from the launch memory: a host stretch rewrites the buffers its operations write and
leaves the rest, a region leaves its windows' arrays at what its pipeline's write-backs amount to and every other
buffer as it found it. Each region's proof data are taken at the contents its region is entered from, so the fold
and the proof data are defined together, one boundary at a time.

From the fold: every argument buffer is read back to its launch contents (no host operation writes one; a region
either does not see it or reads it through an input window, whose array is unchanged); every region becomes a
segment record over the thread state "all unscoped buffers at the boundary's contents, the generator register at
some state, nothing owed"; the segments chain; and the launch theorem for a list of segments gives that every
weakly fair execution of `@main` terminates with the unscoped buffers at the last boundary's contents, hence with
the arguments as launched. -/

-- inequality of a window's array reference and a named reference is decided by evaluating the window table
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the launch memory and the cores' generator registers
variable (m : (ℓ : Loc nD τ sig) → Buf (Elt F) ℓ) (ρ : Dev nD → PrngReg)

/-! ## The buffers' contents at the ten boundaries -/

/-- Boundary 0: core `c`'s buffers at launch. -/
abbrev W0 : Dev nD → Valuation τ sig (Elt F) := fun c b => (s₀ m ρ).mem ((c : Dev nD), b)

/-- Boundary 1, after the host stretch `hostOps0`: region 0's entry. -/
abbrev W1 : Dev nD → Valuation τ sig (Elt F) := fun c => StableHlo.after hostOps0 (W0 m ρ c)
/-- Boundary 1 read at the TensorCore's references: the contents region 0's proof data are taken at. -/
abbrev V1 : (c : Dev nD) → (b : Ref sig .tc) → Buf (Elt F) ((c : Thread nD τ).loc b) := fun c b => W1 m ρ c b

/-- Boundary 2, region 0's exit: its windows' arrays at what the pipeline leaves after the last grid point (an
    input's array as entered, an output's with every write-back folded in), every other buffer as at boundary 1. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- Boundary 2 read at the TensorCore's references. -/
abbrev V2 : (c : Dev nD) → (b : Ref sig .tc) → Buf (Elt F) ((c : Thread nD τ).loc b) := fun c b => W2 m ρ c b
/-- At boundary 2 each array of region 0 holds what the pipeline leaves, and a buffer that is no array of region 0
    holds what it held at boundary 1: the two facts by which the arrays and the bypassing buffers are put back
    together into "all unscoped buffers at boundary 2". -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- Boundary 3, after the host stretch `hostOps1`: region 1's entry. -/
abbrev W3 : Dev nD → Valuation τ sig (Elt F) := fun c => StableHlo.after hostOps1 (W2 m ρ c)
/-- Boundary 3 read at the TensorCore's references: the contents region 1's proof data are taken at. -/
abbrev V3 : (c : Dev nD) → (b : Ref sig .tc) → Buf (Elt F) ((c : Thread nD τ).loc b) := fun c b => W3 m ρ c b

/-- Boundary 4, region 1's exit: its windows' arrays at what the pipeline leaves after the last grid point (an
    input's array as entered, an output's with every write-back folded in), every other buffer as at boundary 3. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- Boundary 4 read at the TensorCore's references. -/
abbrev V4 : (c : Dev nD) → (b : Ref sig .tc) → Buf (Elt F) ((c : Thread nD τ).loc b) := fun c b => W4 m ρ c b
/-- At boundary 4 each array of region 1 holds what the pipeline leaves, and a buffer that is no array of region 1
    holds what it held at boundary 3: the two facts by which the arrays and the bypassing buffers are put back
    together into "all unscoped buffers at boundary 4". -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- Boundary 5, after the host stretch `hostOps2`: region 2's entry. -/
abbrev W5 : Dev nD → Valuation τ sig (Elt F) := fun c => StableHlo.after hostOps2 (W4 m ρ c)
/-- Boundary 5 read at the TensorCore's references: the contents region 2's proof data are taken at. -/
abbrev V5 : (c : Dev nD) → (b : Ref sig .tc) → Buf (Elt F) ((c : Thread nD τ).loc b) := fun c b => W5 m ρ c b

/-- Boundary 6, region 2's exit: its windows' arrays at what the pipeline leaves after the last grid point (an
    input's array as entered, an output's with every write-back folded in), every other buffer as at boundary 5. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- Boundary 6 read at the TensorCore's references. -/
abbrev V6 : (c : Dev nD) → (b : Ref sig .tc) → Buf (Elt F) ((c : Thread nD τ).loc b) := fun c b => W6 m ρ c b
/-- At boundary 6 each array of region 2 holds what the pipeline leaves, and a buffer that is no array of region 2
    holds what it held at boundary 5: the two facts by which the arrays and the bypassing buffers are put back
    together into "all unscoped buffers at boundary 6". -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

-- region 3 follows region 2 directly: boundary 6 is both region 2's exit and region 3's entry

/-- Boundary 7, region 3's exit: its windows' arrays at what the pipeline leaves after the last grid point (an
    input's array as entered, an output's with every write-back folded in), every other buffer as at boundary 6. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- Boundary 7 read at the TensorCore's references. -/
abbrev V7 : (c : Dev nD) → (b : Ref sig .tc) → Buf (Elt F) ((c : Thread nD τ).loc b) := fun c b => W7 m ρ c b
/-- At boundary 7 each array of region 3 holds what the pipeline leaves, and a buffer that is no array of region 3
    holds what it held at boundary 6: the two facts by which the arrays and the bypassing buffers are put back
    together into "all unscoped buffers at boundary 7". -/
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

/-- Boundary 8, after the host stretch `hostOps4`: region 4's entry. -/
abbrev W8 : Dev nD → Valuation τ sig (Elt F) := fun c => StableHlo.after hostOps4 (W7 m ρ c)
/-- Boundary 8 read at the TensorCore's references: the contents region 4's proof data are taken at. -/
abbrev V8 : (c : Dev nD) → (b : Ref sig .tc) → Buf (Elt F) ((c : Thread nD τ).loc b) := fun c b => W8 m ρ c b

/-- Boundary 9, region 4's exit: its windows' arrays at what the pipeline leaves after the last grid point (an
    input's array as entered, an output's with every write-back folded in), every other buffer as at boundary 8. -/
def W9 (c : Dev nD) : Valuation τ sig (Elt F) :=
  Pipeline.withArrays spec4 c (W8 m ρ c) fun w => (dat4 (V8 m ρ) c).arrAt w cfg4.N
theorem W9_arr (c : Dev nD) (w : Fin cfg4.W) :
    W9 m ρ c (Proc.devRef .tc (Pipeline.arrRef spec4 w)) = (dat4 (V8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
/-- Boundary 9 read at the TensorCore's references. -/
abbrev V9 : (c : Dev nD) → (b : Ref sig .tc) → Buf (Elt F) ((c : Thread nD τ).loc b) := fun c b => W9 m ρ c b
/-- At boundary 9 each array of region 4 holds what the pipeline leaves, and a buffer that is no array of region 4
    holds what it held at boundary 8: the two facts by which the arrays and the bypassing buffers are put back
    together into "all unscoped buffers at boundary 9". -/
theorem hF4 (c : Dev nD) (w : Fin cfg4.W) : (dat4 (V8 m ρ) c).arrAt w cfg4.N = V9 m ρ c (Pipeline.arrRef spec4 w) :=
  (W9_arr m ρ c w).symm
theorem hrest4 (c : Dev nD) : ∀ b, b ∉ Finset.univ.image (Pipeline.arrRef spec4) → V9 m ρ c b = V8 m ρ c b :=
  fun b hb => W9_of_ne m ρ c b fun w e => hb (Finset.mem_image.mpr ⟨w, Finset.mem_univ _, e⟩)

/-! ## What the host stretches write

Each host operation writes exactly its result buffer, so a stretch writes the results of its operations; a
reference outside that list keeps its contents across the stretch. No operation allocates. -/

/-- No operation of `hostOps0` allocates a buffer. -/
theorem hostOps0_fresh : (hostOps0 : List (HloOp τ sig (Elt F))).Forall fun op => op.fresh = ∅ := by
  simp only [List.Forall]; repeat' constructor
/-- The result buffers of `hostOps0`'s operations. -/
abbrev hostW0 : List (Ref sig .tc) := [main_v0, main_v1, main_v2, main_v3]
theorem hostOps0_writes : (hostOps0 : List (HloOp τ sig (Elt F))).Forall fun op => op.writes ⊆ (hostW0.map (Proc.devRef (τ := τ) .tc)).toFinset := by
  simp only [List.Forall, StableHlo.unary_writes, StableHlo.reshape_writes, Finset.singleton_subset_iff, List.mem_toFinset]
  exact ⟨List.mem_map_of_mem (by decide), List.mem_map_of_mem (by decide), List.mem_map_of_mem (by decide), List.mem_map_of_mem (by decide)⟩
/-- A reference that is no result of `hostOps0` holds at boundary 1 what it held at boundary 0. -/
theorem W1_of (c : Dev nD) (r : Ref sig .tc) (h : r ∉ hostW0) : W1 m ρ c (Proc.devRef .tc r) = W0 m ρ c (Proc.devRef .tc r) :=
  StableHlo.after_of_writes_sub hostOps0 _ hostOps0_writes h

/-- No operation of `hostOps1` allocates a buffer. -/
theorem hostOps1_fresh : (hostOps1 : List (HloOp τ sig (Elt F))).Forall fun op => op.fresh = ∅ := by
  simp only [List.Forall]; repeat' constructor
/-- The result buffers of `hostOps1`'s operations. -/
abbrev hostW1 : List (Ref sig .tc) := [main_v5, main_v6]
theorem hostOps1_writes : (hostOps1 : List (HloOp τ sig (Elt F))).Forall fun op => op.writes ⊆ (hostW1.map (Proc.devRef (τ := τ) .tc)).toFinset := by
  simp only [List.Forall, StableHlo.unary_writes, StableHlo.reshape_writes, Finset.singleton_subset_iff, List.mem_toFinset]
  exact ⟨List.mem_map_of_mem (by decide), List.mem_map_of_mem (by decide)⟩
/-- A reference that is no result of `hostOps1` holds at boundary 3 what it held at boundary 2. -/
theorem W3_of (c : Dev nD) (r : Ref sig .tc) (h : r ∉ hostW1) : W3 m ρ c (Proc.devRef .tc r) = W2 m ρ c (Proc.devRef .tc r) :=
  StableHlo.after_of_writes_sub hostOps1 _ hostOps1_writes h

/-- No operation of `hostOps2` allocates a buffer. -/
theorem hostOps2_fresh : (hostOps2 : List (HloOp τ sig (Elt F))).Forall fun op => op.fresh = ∅ := by
  simp only [List.Forall]; repeat' constructor
/-- The result buffers of `hostOps2`'s operations. -/
abbrev hostW2 : List (Ref sig .tc) := [main_v8]
theorem hostOps2_writes : (hostOps2 : List (HloOp τ sig (Elt F))).Forall fun op => op.writes ⊆ (hostW2.map (Proc.devRef (τ := τ) .tc)).toFinset := by
  simp only [List.Forall, StableHlo.unary_writes, StableHlo.reshape_writes, Finset.singleton_subset_iff, List.mem_toFinset]
  exact List.mem_map_of_mem (by decide)
/-- A reference that is no result of `hostOps2` holds at boundary 5 what it held at boundary 4. -/
theorem W5_of (c : Dev nD) (r : Ref sig .tc) (h : r ∉ hostW2) : W5 m ρ c (Proc.devRef .tc r) = W4 m ρ c (Proc.devRef .tc r) :=
  StableHlo.after_of_writes_sub hostOps2 _ hostOps2_writes h

/-- No operation of `hostOps4` allocates a buffer. -/
theorem hostOps4_fresh : (hostOps4 : List (HloOp τ sig (Elt F))).Forall fun op => op.fresh = ∅ := by
  simp only [List.Forall]; repeat' constructor
/-- The result buffers of `hostOps4`'s operations. -/
abbrev hostW4 : List (Ref sig .tc) := [main_v11, main_v12, main_v13, main_v14]
theorem hostOps4_writes : (hostOps4 : List (HloOp τ sig (Elt F))).Forall fun op => op.writes ⊆ (hostW4.map (Proc.devRef (τ := τ) .tc)).toFinset := by
  simp only [List.Forall, StableHlo.unary_writes, StableHlo.reshape_writes, Finset.singleton_subset_iff, List.mem_toFinset]
  exact ⟨List.mem_map_of_mem (by decide), List.mem_map_of_mem (by decide), List.mem_map_of_mem (by decide), List.mem_map_of_mem (by decide)⟩
/-- A reference that is no result of `hostOps4` holds at boundary 8 what it held at boundary 7. -/
theorem W8_of (c : Dev nD) (r : Ref sig .tc) (h : r ∉ hostW4) : W8 m ρ c (Proc.devRef .tc r) = W7 m ρ c (Proc.devRef .tc r) :=
  StableHlo.after_of_writes_sub hostOps4 _ hostOps4_writes h

/-! ## The arguments end as launched

A reference that no host stretch writes and that is no array of regions 1 to 4 holds at the last boundary what it
held at region 0's exit (`W9_eq_W2`), and one that the first stretch does not write holds at region 0's entry its
launch contents (`W1_eq_launch`). Six of the seven arguments are no array of region 0 either; `main_arg1` is the
array of region 0's window 0, an input window, whose array the pipeline leaves as entered. -/

theorem W9_eq_W2 (c : Dev nD) (r : Ref sig .tc) (h1 : r ∉ hostW1) (h2 : r ∉ hostW2) (h4 : r ∉ hostW4)
    (a1 : ∀ w, Pipeline.arrRef spec1 w ≠ r) (a2 : ∀ w, Pipeline.arrRef spec2 w ≠ r) (a3 : ∀ w, Pipeline.arrRef spec3 w ≠ r)
    (a4 : ∀ w, Pipeline.arrRef spec4 w ≠ r) :
    W9 m ρ c (Proc.devRef .tc r) = W2 m ρ c (Proc.devRef .tc r) :=
  calc W9 m ρ c (Proc.devRef .tc r)
    _ = W8 m ρ c (Proc.devRef .tc r) := W9_of_ne m ρ c r a4
    _ = W7 m ρ c (Proc.devRef .tc r) := W8_of m ρ c r h4
    _ = W6 m ρ c (Proc.devRef .tc r) := W7_of_ne m ρ c r a3
    _ = W5 m ρ c (Proc.devRef .tc r) := W6_of_ne m ρ c r a2
    _ = W4 m ρ c (Proc.devRef .tc r) := W5_of m ρ c r h2
    _ = W3 m ρ c (Proc.devRef .tc r) := W4_of_ne m ρ c r a1
    _ = W2 m ρ c (Proc.devRef .tc r) := W3_of m ρ c r h1

theorem W1_eq_launch (c : Dev nD) (r : Ref sig .tc) (h0 : r ∉ hostW0) :
    W1 m ρ c (Proc.devRef .tc r) = m ((c : Thread nD τ).loc r) :=
  (W1_of m ρ c r h0).trans rfl

/-- A reference outside every host stretch's results and every region's arrays ends as launched. -/
theorem W9_bypass (c : Dev nD) (r : Ref sig .tc) (h0 : r ∉ hostW0) (h1 : r ∉ hostW1) (h2 : r ∉ hostW2) (h4 : r ∉ hostW4)
    (a0 : ∀ w, Pipeline.arrRef spec0 w ≠ r) (a1 : ∀ w, Pipeline.arrRef spec1 w ≠ r) (a2 : ∀ w, Pipeline.arrRef spec2 w ≠ r)
    (a3 : ∀ w, Pipeline.arrRef spec3 w ≠ r) (a4 : ∀ w, Pipeline.arrRef spec4 w ≠ r) :
    W9 m ρ c (Proc.devRef .tc r) = m ((c : Thread nD τ).loc r) :=
  (W9_eq_W2 m ρ c r h1 h2 h4 a1 a2 a3 a4).trans ((W2_of_ne m ρ c r a0).trans (W1_eq_launch m ρ c r h0))

theorem W9_main_arg0 (c : Dev nD) : W9 m ρ c (Proc.devRef .tc main_arg0) = m ((c : Thread nD τ).loc main_arg0) :=
  W9_bypass m ρ c main_arg0 (by decide) (by decide) (by decide) (by decide) (by decide) (by decide) (by decide) (by decide) (by decide)

theorem W9_main_arg2 (c : Dev nD) : W9 m ρ c (Proc.devRef .tc main_arg2) = m ((c : Thread nD τ).loc main_arg2) :=
  W9_bypass m ρ c main_arg2 (by decide) (by decide) (by decide) (by decide) (by decide) (by decide) (by decide) (by decide) (by decide)

theorem W9_main_arg3 (c : Dev nD) : W9 m ρ c (Proc.devRef .tc main_arg3) = m ((c : Thread nD τ).loc main_arg3) :=
  W9_bypass m ρ c main_arg3 (by decide) (by decide) (by decide) (by decide) (by decide) (by decide) (by decide) (by decide) (by decide)

theorem W9_main_arg4 (c : Dev nD) : W9 m ρ c (Proc.devRef .tc main_arg4) = m ((c : Thread nD τ).loc main_arg4) :=
  W9_bypass m ρ c main_arg4 (by decide) (by decide) (by decide) (by decide) (by decide) (by decide) (by decide) (by decide) (by decide)

theorem W9_main_arg5 (c : Dev nD) : W9 m ρ c (Proc.devRef .tc main_arg5) = m ((c : Thread nD τ).loc main_arg5) :=
  W9_bypass m ρ c main_arg5 (by decide) (by decide) (by decide) (by decide) (by decide) (by decide) (by decide) (by decide) (by decide)

theorem W9_main_arg6 (c : Dev nD) : W9 m ρ c (Proc.devRef .tc main_arg6) = m ((c : Thread nD τ).loc main_arg6) :=
  W9_bypass m ρ c main_arg6 (by decide) (by decide) (by decide) (by decide) (by decide) (by decide) (by decide) (by decide) (by decide)

/-- `main_arg1` is read by region 0 through window 0: at region 0's exit that array is the proof data's array after
    the last point, which for an input window is the array as entered, which is boundary 1's contents there. -/
theorem W9_main_arg1 (c : Dev nD) : W9 m ρ c (Proc.devRef .tc main_arg1) = m ((c : Thread nD τ).loc main_arg1) :=
  calc W9 m ρ c (Proc.devRef .tc main_arg1)
    _ = W2 m ρ c (Proc.devRef .tc main_arg1) := W9_eq_W2 m ρ c main_arg1 (by decide) (by decide) (by decide) (by decide) (by decide) (by decide) (by decide)
    _ = W1 m ρ c (Proc.devRef .tc main_arg1) := (W2_arr m ρ c 0).trans (((dat0 (V1 m ρ) c).arrAt_in 0 rfl _).trans (A_eq0 (V1 m ρ) c 0))
    _ = m ((c : Thread nD τ).loc main_arg1) := W1_eq_launch m ρ c main_arg1 (by decide)

/-! ## The proof data family and the thread state -/

/-- The prefetched tables' admissible contents: no pipeline has a table. -/
abbrev adm : (p : Fin 5) → (pcfgs (F := F) p).Adm := fun p => (cfgs p).toPCfg_adm
/-- Every pipeline's proof data, each at the contents its region is entered from. A literal `match`, so that at a
    numeral the family reduces to that region's data and the pinned configuration to the printed one. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V6 m ρ) c
  | ⟨4, _⟩ => fun c => dat4 (V8 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and the core's dues, which are none. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it is entered
    from those references held at `W c` and leaves them held at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W9 m ρ c) ∗ ∃ r, prngReg c r)

/-! ## The regions as segments

Each region's record has the same shape. ENTRY: the unscoped buffers held at the entry contents split into the
region's arrays at the proof data's first contents and the bypassing rest; no table; the dues at zero; the generator
register set aside for the invariant. The invariant at the first point is made from the register and the scoped
buffers no window stages, and at the last point gives them back. EXIT: the arrays at the proof data's last contents
and the bypassing rest join into the unscoped buffers held at the exit contents. The kernels have no semaphores of
their own. -/

-- a library lemma stated over the pinned configuration `pin pcs a p` unifies with the printed one only when
-- unification may unfold plain definitions inside a metavariable's type
set_option backward.isDefEq.respectTransparency.types false in
/-- REGION 0: entered from every unscoped buffer at boundary 1, left at boundary 2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    -- region 0's invariant is not the class invariant itself: it is reached from it at the first point
    refine .trans ?_ (hin0 (V1 m ρ) c)
    unfold Pipeline.ΦA
    iintro ⟨Hp, -, Hr⟩
    isplitl [Hr]; · iexact Hr
    iexact Hp
  hout c := by
    -- and at the last point it gives the class invariant back
    rw [Pipeline.ownSems0_none]
    refine .trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration `pin pcs a p` unifies with the printed one only when
-- unification may unfold plain definitions inside a metavariable's type
set_option backward.isDefEq.respectTransparency.types false in
/-- REGION 1: entered from every unscoped buffer at boundary 3, left at boundary 4. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration `pin pcs a p` unifies with the printed one only when
-- unification may unfold plain definitions inside a metavariable's type
set_option backward.isDefEq.respectTransparency.types false in
/-- REGION 2: entered from every unscoped buffer at boundary 5, left at boundary 6. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun w => A_eq2 (V5 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration `pin pcs a p` unifies with the printed one only when
-- unification may unfold plain definitions inside a metavariable's type
set_option backward.isDefEq.respectTransparency.types false in
/-- REGION 3: entered from every unscoped buffer at boundary 6, left at boundary 7. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun w => A_eq3 (V6 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration `pin pcs a p` unifies with the printed one only when
-- unification may unfold plain definitions inside a metavariable's type
set_option backward.isDefEq.respectTransparency.types false in
/-- REGION 4, the last segment: entered from every unscoped buffer at boundary 8, left at boundary 9 with the
    dues split off (the form the chain ends in). -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V8 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V8 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V8 m ρ c) fun w => A_eq4 (V8 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V8 m ρ c) (V9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's nine segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ),
    .host (hseg hostOps4 hostOps4_sub hostOps4_fresh (W7 m ρ)),
    .region (reg4 m ρ) ]
/-- @main is the run of the segments: it is the chain of its nine items, and the segments' run unfolds to the same chain. -/
theorem main_run (c : Dev nD) : main (F := F) c = Pipeline.Seg.run (segs m ρ) := (main_chain c).trans (by chain_rfl)

-- the launch theorem's implicit arguments are found by unifying its conclusion with the statement, which takes
-- unfolding plain definitions inside a metavariable's type
set_option backward.isDefEq.respectTransparency.types false in
/-- THE RUN. From any memory with zero counters, every weakly fair execution of @main on the TensorCores terminates,
    nothing faulting, and in every final state each unscoped buffer of each core holds the last boundary's contents.
    The launch theorem over the segment list: the segments chain by definition (each is entered from exactly the state
    the one before leaves); the first thread state is what the launch deals; the last one, held beside the final
    state's interpretation, reads that state's memory. -/
theorem run_all : θ_run defs (onTc (τ := τ) (main (F := F))) ⟨m, fun _ => 0, ρ⟩
    (fun r => ∀ c : Dev nD, ∀ b ∈ Pipeline.ucRefs τ sig, r.2.mem ((c : Thread nD τ).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun _ h => h)

/-- THE FRAME: every weakly fair execution of @main terminates, nothing faulting, and every final state has the seven
    argument arrays as launched. Each argument is an unscoped buffer, so the final state holds the last boundary's
    contents there (`run_all`), which are the launch contents (`W9_main_argJ`). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c)⟩)
    (run_all m ρ)

end Cert.Kernel.Hand

end
-- ==== Proof.KI.Reg0Defs.lean ====
import proofs.«159438_j36850819399877_1_alg».proof.Proof.Gen.KernelIdeal.Launch
import proofs.«159438_j36850819399877_1_alg».proof.Proof.Gen.KernelIdeal.Skeleton
import proofs.«159438_j36850819399877_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Region 0 (`cc0__spectral_kernel`): blocks, the carried accumulator, and the proof data

The region runs a grid of 4 × 2 × 4 points; the last coordinate `k` of point `t` is `t mod 4`. The body keeps a
2048 × 1024 accumulator in a scratch buffer of its own: at `k = 0` it first clears it; at every point it adds the
product of the point's blocks to it; at `k = 3` it normalises the accumulator into the output block. This file
names, at arbitrary entry contents `V`, each window's block at a point, the accumulator after each point (a
recursion along the grid that restarts at every `k = 0`), the output block, the region invariant that carries the
accumulator from one point to the next, and the proof data built from them. -/

-- membership of an index in a whole-buffer rectangle is decided structurally, one step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`: the part of its array (at the entry contents) that the window's index map
    selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is the
    entry contents and whose body leaves the block in place: the window is uncut, never idle, and an unfetched
    point has the block index of the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, in closed form over the grid -/

/-- The first conditional's test (the last grid coordinate is 0), as the body computes it. -/
abbrev cond0_0 (i : grid0.Coords) : Prop := (Scalar.cmpi .ne (Scalar.extui (Scalar.cmpi .eq (BitVec.ofNat 32 (i 2).val) 0#32)) 0#32) = 1#1
/-- It holds exactly at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional's test (the last grid coordinate is 3). -/
abbrev cond0_1 (i : grid0.Coords) : Prop := k0_cond2 i = 1#1
/-- It holds exactly at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- The three inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the second test fails the output window is idle and its block is not written back; -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- where it holds the output window is live. -/
theorem liveAt0_3 : ∀ t : Fin cfg0.N, cond0_1 (grid0.coords t) → cfg0.idle 3 (grid0.coords t) = false := by decide +kernel

/-! ## The memrefs the body is called with -/

/-- Each window's current staging memref at point `t`, and its wholeness. -/
abbrev ms0_0 (t : Fin cfg0.N) : Memref sig .tc .vmem S2048x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x1024 .bf16 := win0_3.stage (cfg0.slots t 3)
abbrev hs0_3 (t : Fin cfg0.N) : (ms0_3 t).IsWhole := hstage0_3 ((cfg0.slots t 3).cast nbuf0_3)
/-- The accumulator: a whole scoped buffer of the kernel's own, passed beside the windows. -/
abbrev scM0_0 : Memref sig .tc .vmem S2048x1024 .f32 := Memref.whole cc0_scratch0

/-! ## The accumulator and the output block, point by point -/

/-- What the accumulator holds after the body at position `n`: at a point ≡ 0 (mod 4) the update of the cleared
    accumulator by the point's three blocks, elsewhere the update of what the point before left. -/
def accAt0 (c : Dev nD) : (n : ℕ) → n < cfg0.N → Vec F S2048x1024 .f32
  | 0, hn => k0_pay2 (iblk0 V c 1 ⟨0, hn⟩) (iblk0 V c 2 ⟨0, hn⟩) (k0_pay1 (F := F)) (iblk0 V c 0 ⟨0, hn⟩)
  | n + 1, hn =>
    if (n + 1) % 4 = 0 then
      k0_pay2 (iblk0 V c 1 ⟨n + 1, hn⟩) (iblk0 V c 2 ⟨n + 1, hn⟩) (k0_pay1 (F := F)) (iblk0 V c 0 ⟨n + 1, hn⟩)
    else
      k0_pay2 (iblk0 V c 1 ⟨n + 1, hn⟩) (iblk0 V c 2 ⟨n + 1, hn⟩) (accAt0 c n (Nat.lt_of_succ_lt hn)) (iblk0 V c 0 ⟨n + 1, hn⟩)

/-- What the output window's staging buffer holds after the body at position `n` where the body stores into it
    (the points ≡ 3 mod 4; elsewhere nothing consults it): the normalised accumulator. -/
def outAt0 (c : Dev nD) (n : ℕ) (hn : n < cfg0.N) : Vec F S1x2048x1024 .bf16 :=
  k0_pay3 (accAt0 V c n hn)

/-- At a point ≡ 0 (mod 4) the accumulation restarts from the cleared accumulator. -/
theorem accAt0_reset (c : Dev nD) (t : Fin cfg0.N) (h : t.val % 4 = 0) :
    accAt0 V c t.val t.isLt = k0_pay2 (iblk0 V c 1 t) (iblk0 V c 2 t) (k0_pay1 (F := F)) (iblk0 V c 0 t) := by
  obtain ⟨n, hn⟩ := t
  cases n with
  | zero => rfl
  | succ n => exact if_pos h

/-- Elsewhere it continues from what the point before left. -/
theorem accAt0_step (c : Dev nD) (t : Fin cfg0.N) (h : t.val % 4 ≠ 0) :
    accAt0 V c t.val t.isLt = k0_pay2 (iblk0 V c 1 t) (iblk0 V c 2 t) (accAt0 V c (t.val - 1) (Nat.lt_of_le_of_lt (Nat.sub_le _ _) t.isLt)) (iblk0 V c 0 t) := by
  obtain ⟨n, hn⟩ := t
  cases n with
  | zero => exact absurd (Nat.zero_mod _) h
  | succ n => exact if_neg h

/-- The output block is the normalised accumulator. -/
theorem outAt0_last (c : Dev nD) (t : Fin cfg0.N) (h : t.val % 4 = 3) :
    outAt0 V c t.val t.isLt = k0_pay3 (accAt0 V c t.val t.isLt) := rfl

/-! ## The region invariant -/

/-- What the launch hands the region, with the accumulator's buffer split off the other scoped buffers and read as a
    memref owned at some contents. -/
theorem PhiA0_eq (c : Dev nD) :
    (Pipeline.ΦA spec0 c : sProp 𝕄)
      = iprop(iprop((∃ d, owns (c : Thread nD τ) scM0_0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

/-- The invariant before position `n`: before the first point what the launch hands over (the accumulator at
    anything); afterwards the accumulator at what the point before left, the other scoped buffers untouched, the
    generator register at some state. -/
def PhiS0 (c : Dev nD) : (n : ℕ) → n ≤ cfg0.N → sProp 𝕄
  | 0, _ => Pipeline.ΦA spec0 c
  | n + 1, hn => iprop(iprop(owns (c : Thread nD τ) scM0_0 fullShare (accAt0 V c n hn)
      ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare (accAt0 V c n hn)
      ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (accAt0 V c (n - 1) (by omega))
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The pipeline's proof data -/

/-- The proof data of pipeline 0 on core `c`: the arrays as the region finds them; after the body at point `t`
    each input's buffer at its block and the output's at the normalised accumulator; the invariant carrying the
    accumulator; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t.val t.isLt
  Φ t := PhiS0 V c t.val (Nat.le_of_lt_succ t.isLt)
  q _ := fullShare
  owed _ := 0

/-- The proof data's arrays are the entry contents. -/
theorem A_eq0 (c : Dev nD) (w : Fin cfg0.W) : (dat0 V c).A w = V c (Pipeline.arrRef spec0 w) := by
  dsimp only [dat0]

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t.val t.isLt := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Cert.KernelIdeal.Hand

end
-- ==== Proof.KI.Reg0RunA.lean ====
import proofs.«159438_j36850819399877_1_alg».proof.Proof.KI.Reg0Defs

/-! # Region 0: the body where the accumulation restarts

The symbolic run of `cc0__spectral_kernel` at a point whose last grid coordinate is 0 (the accumulator is cleared,
then updated; the output is not stored), the cover of the accumulator by the writes made, and what they leave in
it in closed form over the body's payloads. -/

-- membership of an index in a whole-buffer rectangle is decided structurally, one step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer rectangle, as a constant function. -/
theorem hz0_2 : (![0, 0] : Fin 2 → ℕ) = fun _ => 0 := by funext a; fin_cases a <;> rfl
theorem hz0_3 : (![0, 0, 0] : Fin 3 → ℕ) = fun _ => 0 := by funext a; fin_cases a <;> rfl

-- the run's proof term is large
set_option maxHeartbeats 1000000 in
/-- The body at a point where the first test holds and the second fails (the last coordinate is 0): on whole
    memrefs, the three inputs at their contents, the output at contents it hands back untouched, the accumulator at
    anything, it runs to the continuation holding the inputs and the output as they were and the accumulator with two
    covering writes made — the cleared value, then the update. The list of writes is the witness the symbolic run
    of the body's memory operations produces. -/
noncomputable def kernelRun0_A (c : Dev nD) (i : grid0.Coords) (arg3 : Memref sig .tc .vmem S2048x512 .f32) (harg3 : arg3.IsWhole) (arg4 : Memref sig .tc .vmem S512x1024 .f32) (harg4 : arg4.IsWhole) (arg5 : Memref sig .tc .vmem S1x512x1 .f32) (harg5 : arg5.IsWhole) (arg6 : Memref sig .tc .vmem S1x2048x1024 .bf16) (harg6 : arg6.IsWhole) (arg7 : Memref sig .tc .vmem S2048x1024 .f32) (harg7 : arg7.IsWhole) (hc0 : cond0_0 i) (hc1 : ¬cond0_1 i)
    (x0 : Vec F S2048x512 .f32) (x1 : Vec F S512x1024 .f32) (x2 : Vec F S1x512x1 .f32) :
    Σ' (L3 : List (View.Piece (Elt F) S1x2048x1024 .bf16)), { LS0 : List (View.Piece (Elt F) S2048x1024 .f32) //
      ∀ (xi3 : Vec F S1x2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__spectral_kernel i arg3 harg3 arg4 harg4 arg5 harg5 arg6 harg6 arg7 harg7) K } := by
  refine ⟨[], ?_, fun xi3 E K => ?run⟩
  case run =>
    simp only [cc0__spectral_kernel_eq_skeleton]; unfold cc0__spectral_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

/-- The two writes tile the accumulator, so they cover it. -/
theorem scover0_A_0 (c : Dev nD) (i : grid0.Coords) (arg3 : Memref sig .tc .vmem S2048x512 .f32) (harg3 : arg3.IsWhole) (arg4 : Memref sig .tc .vmem S512x1024 .f32) (harg4 : arg4.IsWhole) (arg5 : Memref sig .tc .vmem S1x512x1 .f32) (harg5 : arg5.IsWhole) (arg6 : Memref sig .tc .vmem S1x2048x1024 .bf16) (harg6 : arg6.IsWhole) (arg7 : Memref sig .tc .vmem S2048x1024 .f32) (harg7 : arg7.IsWhole) (hc0 : cond0_0 i) (hc1 : ¬cond0_1 i)
    (x0 : Vec F S2048x512 .f32) (x1 : Vec F S512x1024 .f32) (x2 : Vec F S1x512x1 .f32) (y : S2048x1024.Idx) :
    ∃ pc ∈ (kernelRun0_A c i arg3 harg3 arg4 harg4 arg5 harg5 arg6 harg6 arg7 harg7 hc0 hc1 x0 x1 x2).2.1, y ∈ pc.1.set :=
  View.cover_of_tiledL (kernelRun0_A c i arg3 harg3 arg4 harg4 arg5 harg5 arg6 harg6 arg7 harg7 hc0 hc1 x0 x1 x2).2.1 S2048x1024.size (by sl_kernel_rfl) y

/-- What they leave: the last write covers the whole buffer, so it is its payload; each load of an input through the
    whole-buffer rectangle reads the input, and the load of the accumulator after the clearing write reads the
    cleared value. Hence the update of the cleared accumulator by the three blocks. -/
theorem canon0_A (c : Dev nD) (i : grid0.Coords) (arg3 : Memref sig .tc .vmem S2048x512 .f32) (harg3 : arg3.IsWhole) (arg4 : Memref sig .tc .vmem S512x1024 .f32) (harg4 : arg4.IsWhole) (arg5 : Memref sig .tc .vmem S1x512x1 .f32) (harg5 : arg5.IsWhole) (arg6 : Memref sig .tc .vmem S1x2048x1024 .bf16) (harg6 : arg6.IsWhole) (arg7 : Memref sig .tc .vmem S2048x1024 .f32) (harg7 : arg7.IsWhole) (hc0 : cond0_0 i) (hc1 : ¬cond0_1 i)
    (x0 : Vec F S2048x512 .f32) (x1 : Vec F S512x1024 .f32) (x2 : Vec F S1x512x1 .f32) :
    View.canon (kernelRun0_A c i arg3 harg3 arg4 harg4 arg5 harg5 arg6 harg6 arg7 harg7 hc0 hc1 x0 x1 x2).2.1 = k0_pay2 x1 x2 (k0_pay1 (F := F)) x0 := by
  unfold kernelRun0_A; dsimp only
  sl_unfold_words
  rw [View.canon_cons_unit_zero (S := S2048x1024) hz0_2]
  simp only [View.readAt_eq_ld, harg3.read_unread, harg4.read_unread, harg5.read_unread,
    View.ld_unit_zero (S := S2048x512) hz0_2, View.ld_unit_zero (S := S512x1024) hz0_2, View.ld_unit_zero (S := S1x512x1) hz0_3,
    View.readCov_unit_zero (S := S2048x1024) _ hz0_2]

end Cert.KernelIdeal.Hand

end
-- ==== Proof.KI.Reg0RunB.lean ====
import proofs.«159438_j36850819399877_1_alg».proof.Proof.KI.Reg0RunA

/-! # Region 0: the body in the middle of an accumulation

The symbolic run of `cc0__spectral_kernel` at a point whose last grid coordinate is 1 or 2 (the accumulator is
updated; the output is not stored), the cover of the accumulator by the write made, and what it leaves in closed
form over the body's payloads. -/

-- membership of an index in a whole-buffer rectangle is decided structurally, one step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 1000000 in
/-- The body at a point where both tests fail (the last coordinate is 1 or 2): the accumulator comes in at the
    contents `xs0` the point before left; the body runs to the continuation holding the inputs and the output as
    they were and the accumulator with one covering write made, the update. -/
noncomputable def kernelRun0_B (c : Dev nD) (i : grid0.Coords) (arg3 : Memref sig .tc .vmem S2048x512 .f32) (harg3 : arg3.IsWhole) (arg4 : Memref sig .tc .vmem S512x1024 .f32) (harg4 : arg4.IsWhole) (arg5 : Memref sig .tc .vmem S1x512x1 .f32) (harg5 : arg5.IsWhole) (arg6 : Memref sig .tc .vmem S1x2048x1024 .bf16) (harg6 : arg6.IsWhole) (arg7 : Memref sig .tc .vmem S2048x1024 .f32) (harg7 : arg7.IsWhole) (hc0 : ¬cond0_0 i) (hc1 : ¬cond0_1 i)
    (x0 : Vec F S2048x512 .f32) (x1 : Vec F S512x1024 .f32) (x2 : Vec F S1x512x1 .f32) (xs0 : Vec F S2048x1024 .f32) :
    Σ' (L3 : List (View.Piece (Elt F) S1x2048x1024 .bf16)), { LS0 : List (View.Piece (Elt F) S2048x1024 .f32) //
      ∀ (xi3 : Vec F S1x2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__spectral_kernel i arg3 harg3 arg4 harg4 arg5 harg5 arg6 harg6 arg7 harg7) K } := by
  refine ⟨[], ?_, fun xi3 E K => ?run⟩
  case run =>
    simp only [cc0__spectral_kernel_eq_skeleton]; unfold cc0__spectral_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

/-- The one write tiles the accumulator, so it covers it. -/
theorem scover0_B_0 (c : Dev nD) (i : grid0.Coords) (arg3 : Memref sig .tc .vmem S2048x512 .f32) (harg3 : arg3.IsWhole) (arg4 : Memref sig .tc .vmem S512x1024 .f32) (harg4 : arg4.IsWhole) (arg5 : Memref sig .tc .vmem S1x512x1 .f32) (harg5 : arg5.IsWhole) (arg6 : Memref sig .tc .vmem S1x2048x1024 .bf16) (harg6 : arg6.IsWhole) (arg7 : Memref sig .tc .vmem S2048x1024 .f32) (harg7 : arg7.IsWhole) (hc0 : ¬cond0_0 i) (hc1 : ¬cond0_1 i)
    (x0 : Vec F S2048x512 .f32) (x1 : Vec F S512x1024 .f32) (x2 : Vec F S1x512x1 .f32) (xs0 : Vec F S2048x1024 .f32) (y : S2048x1024.Idx) :
    ∃ pc ∈ (kernelRun0_B c i arg3 harg3 arg4 harg4 arg5 harg5 arg6 harg6 arg7 harg7 hc0 hc1 x0 x1 x2 xs0).2.1, y ∈ pc.1.set :=
  View.cover_of_tiledL (kernelRun0_B c i arg3 harg3 arg4 harg4 arg5 harg5 arg6 harg6 arg7 harg7 hc0 hc1 x0 x1 x2 xs0).2.1 S2048x1024.size (by sl_kernel_rfl) y

/-- What it leaves: its payload, in which each load through the whole-buffer rectangle reads the buffer's contents.
    Hence the update of the incoming accumulator by the three blocks. -/
theorem canon0_B (c : Dev nD) (i : grid0.Coords) (arg3 : Memref sig .tc .vmem S2048x512 .f32) (harg3 : arg3.IsWhole) (arg4 : Memref sig .tc .vmem S512x1024 .f32) (harg4 : arg4.IsWhole) (arg5 : Memref sig .tc .vmem S1x512x1 .f32) (harg5 : arg5.IsWhole) (arg6 : Memref sig .tc .vmem S1x2048x1024 .bf16) (harg6 : arg6.IsWhole) (arg7 : Memref sig .tc .vmem S2048x1024 .f32) (harg7 : arg7.IsWhole) (hc0 : ¬cond0_0 i) (hc1 : ¬cond0_1 i)
    (x0 : Vec F S2048x512 .f32) (x1 : Vec F S512x1024 .f32) (x2 : Vec F S1x512x1 .f32) (xs0 : Vec F S2048x1024 .f32) :
    View.canon (kernelRun0_B c i arg3 harg3 arg4 harg4 arg5 harg5 arg6 harg6 arg7 harg7 hc0 hc1 x0 x1 x2 xs0).2.1 = k0_pay2 x1 x2 xs0 x0 := by
  unfold kernelRun0_B; dsimp only
  try sl_unfold_words
  rw [View.canon_unit_zero (S := S2048x1024) hz0_2]
  simp only [View.readAt_eq_ld, harg3.read_unread, harg4.read_unread, harg5.read_unread, harg7.read_unread,
    View.ld_unit_zero (S := S2048x512) hz0_2, View.ld_unit_zero (S := S512x1024) hz0_2, View.ld_unit_zero (S := S1x512x1) hz0_3,
    View.ld_unit_zero (S := S2048x1024) hz0_2]

end Cert.KernelIdeal.Hand

end
-- ==== Proof.KI.Reg0RunC.lean ====
import proofs.«159438_j36850819399877_1_alg».proof.Proof.KI.Reg0RunB

/-! # Region 0: the body where an accumulation ends

The symbolic run of `cc0__spectral_kernel` at a point whose last grid coordinate is 3 (the accumulator is updated,
then normalised into the output's buffer), the covers of both buffers by the writes made, and what they leave in
closed form over the body's payloads. -/

-- membership of an index in a whole-buffer rectangle is decided structurally, one step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 1000000 in
/-- The body at a point where the first test fails and the second holds (the last coordinate is 3): the accumulator
    comes in at the contents `xs0` the point before left, the output's buffer at anything; the body runs to the
    continuation holding the inputs as they were, the accumulator with one covering write made (the update) and the
    output's buffer with one covering write made (the updated accumulator, normalised). -/
noncomputable def kernelRun0_C (c : Dev nD) (i : grid0.Coords) (arg3 : Memref sig .tc .vmem S2048x512 .f32) (harg3 : arg3.IsWhole) (arg4 : Memref sig .tc .vmem S512x1024 .f32) (harg4 : arg4.IsWhole) (arg5 : Memref sig .tc .vmem S1x512x1 .f32) (harg5 : arg5.IsWhole) (arg6 : Memref sig .tc .vmem S1x2048x1024 .bf16) (harg6 : arg6.IsWhole) (arg7 : Memref sig .tc .vmem S2048x1024 .f32) (harg7 : arg7.IsWhole) (hc0 : ¬cond0_0 i) (hc1 : cond0_1 i)
    (x0 : Vec F S2048x512 .f32) (x1 : Vec F S512x1024 .f32) (x2 : Vec F S1x512x1 .f32) (xs0 : Vec F S2048x1024 .f32) :
    Σ' (L3 : List (View.Piece (Elt F) S1x2048x1024 .bf16)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0__spectral_kernel i arg3 harg3 arg4 harg4 arg5 harg5 arg6 harg6 arg7 harg7) K } := by
  refine ⟨?_, ?_, fun E K => ?run⟩
  case run =>
    simp only [cc0__spectral_kernel_eq_skeleton]; unfold cc0__spectral_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

/-- The one write into the accumulator tiles it, so it covers it; -/
theorem scover0_C_0 (c : Dev nD) (i : grid0.Coords) (arg3 : Memref sig .tc .vmem S2048x512 .f32) (harg3 : arg3.IsWhole) (arg4 : Memref sig .tc .vmem S512x1024 .f32) (harg4 : arg4.IsWhole) (arg5 : Memref sig .tc .vmem S1x512x1 .f32) (harg5 : arg5.IsWhole) (arg6 : Memref sig .tc .vmem S1x2048x1024 .bf16) (harg6 : arg6.IsWhole) (arg7 : Memref sig .tc .vmem S2048x1024 .f32) (harg7 : arg7.IsWhole) (hc0 : ¬cond0_0 i) (hc1 : cond0_1 i)
    (x0 : Vec F S2048x512 .f32) (x1 : Vec F S512x1024 .f32) (x2 : Vec F S1x512x1 .f32) (xs0 : Vec F S2048x1024 .f32) (y : S2048x1024.Idx) :
    ∃ pc ∈ (kernelRun0_C c i arg3 harg3 arg4 harg4 arg5 harg5 arg6 harg6 arg7 harg7 hc0 hc1 x0 x1 x2 xs0).2.1, y ∈ pc.1.set :=
  View.cover_of_tiledL (kernelRun0_C c i arg3 harg3 arg4 harg4 arg5 harg5 arg6 harg6 arg7 harg7 hc0 hc1 x0 x1 x2 xs0).2.1 S2048x1024.size (by sl_kernel_rfl) y

/-- likewise the one write into the output's buffer. -/
theorem cover0_C_3 (c : Dev nD) (i : grid0.Coords) (arg3 : Memref sig .tc .vmem S2048x512 .f32) (harg3 : arg3.IsWhole) (arg4 : Memref sig .tc .vmem S512x1024 .f32) (harg4 : arg4.IsWhole) (arg5 : Memref sig .tc .vmem S1x512x1 .f32) (harg5 : arg5.IsWhole) (arg6 : Memref sig .tc .vmem S1x2048x1024 .bf16) (harg6 : arg6.IsWhole) (arg7 : Memref sig .tc .vmem S2048x1024 .f32) (harg7 : arg7.IsWhole) (hc0 : ¬cond0_0 i) (hc1 : cond0_1 i)
    (x0 : Vec F S2048x512 .f32) (x1 : Vec F S512x1024 .f32) (x2 : Vec F S1x512x1 .f32) (xs0 : Vec F S2048x1024 .f32) (y : S1x2048x1024.Idx) :
    ∃ pc ∈ (kernelRun0_C c i arg3 harg3 arg4 harg4 arg5 harg5 arg6 harg6 arg7 harg7 hc0 hc1 x0 x1 x2 xs0).1, y ∈ pc.1.set :=
  View.cover_of_tiledL (kernelRun0_C c i arg3 harg3 arg4 harg4 arg5 harg5 arg6 harg6 arg7 harg7 hc0 hc1 x0 x1 x2 xs0).1 S1x2048x1024.size (by sl_kernel_rfl) y

/-- The accumulator is left at the update of the incoming one by the three blocks; -/
theorem canon0_C (c : Dev nD) (i : grid0.Coords) (arg3 : Memref sig .tc .vmem S2048x512 .f32) (harg3 : arg3.IsWhole) (arg4 : Memref sig .tc .vmem S512x1024 .f32) (harg4 : arg4.IsWhole) (arg5 : Memref sig .tc .vmem S1x512x1 .f32) (harg5 : arg5.IsWhole) (arg6 : Memref sig .tc .vmem S1x2048x1024 .bf16) (harg6 : arg6.IsWhole) (arg7 : Memref sig .tc .vmem S2048x1024 .f32) (harg7 : arg7.IsWhole) (hc0 : ¬cond0_0 i) (hc1 : cond0_1 i)
    (x0 : Vec F S2048x512 .f32) (x1 : Vec F S512x1024 .f32) (x2 : Vec F S1x512x1 .f32) (xs0 : Vec F S2048x1024 .f32) :
    View.canon (kernelRun0_C c i arg3 harg3 arg4 harg4 arg5 harg5 arg6 harg6 arg7 harg7 hc0 hc1 x0 x1 x2 xs0).2.1 = k0_pay2 x1 x2 xs0 x0 := by
  unfold kernelRun0_C; dsimp only
  sl_unfold_words
  rw [View.canon_unit_zero (S := S2048x1024) hz0_2]
  simp only [View.readAt_eq_ld, harg3.read_unread, harg4.read_unread, harg5.read_unread, harg7.read_unread,
    View.ld_unit_zero (S := S2048x512) hz0_2, View.ld_unit_zero (S := S512x1024) hz0_2, View.ld_unit_zero (S := S1x512x1) hz0_3,
    View.ld_unit_zero (S := S2048x1024) hz0_2]

/-- and the output's buffer at that update normalised: the load of the accumulator after its covering write reads
    the written payload. -/
theorem canonO_C (c : Dev nD) (i : grid0.Coords) (arg3 : Memref sig .tc .vmem S2048x512 .f32) (harg3 : arg3.IsWhole) (arg4 : Memref sig .tc .vmem S512x1024 .f32) (harg4 : arg4.IsWhole) (arg5 : Memref sig .tc .vmem S1x512x1 .f32) (harg5 : arg5.IsWhole) (arg6 : Memref sig .tc .vmem S1x2048x1024 .bf16) (harg6 : arg6.IsWhole) (arg7 : Memref sig .tc .vmem S2048x1024 .f32) (harg7 : arg7.IsWhole) (hc0 : ¬cond0_0 i) (hc1 : cond0_1 i)
    (x0 : Vec F S2048x512 .f32) (x1 : Vec F S512x1024 .f32) (x2 : Vec F S1x512x1 .f32) (xs0 : Vec F S2048x1024 .f32) :
    View.canon (kernelRun0_C c i arg3 harg3 arg4 harg4 arg5 harg5 arg6 harg6 arg7 harg7 hc0 hc1 x0 x1 x2 xs0).1 = k0_pay3 (k0_pay2 x1 x2 xs0 x0) := by
  unfold kernelRun0_C; dsimp only
  sl_unfold_words
  rw [View.canon_unit_zero (S := S1x2048x1024) hz0_3]
  simp only [View.readAt_eq_ld, harg3.read_unread, harg4.read_unread, harg5.read_unread, harg7.read_unread,
    View.ld_unit_zero (S := S2048x512) hz0_2, View.ld_unit_zero (S := S512x1024) hz0_2, View.ld_unit_zero (S := S1x512x1) hz0_3,
    View.ld_unit_zero (S := S2048x1024) hz0_2, View.readCov_unit_zero (S := S2048x1024) _ hz0_2]

end Cert.KernelIdeal.Hand

end
-- ==== Proof.KI.Reg0.lean ====
import proofs.«159438_j36850819399877_1_alg».proof.Proof.KI.Reg0RunC

/-! # Region 0 (`cc0__spectral_kernel`): the body obligation and the invariant's two ends

At every grid point the body, called on the windows' current staging buffers and the accumulator, re-establishes
the region invariant one position further. Which of the body's three behaviours applies is decided by the point's
position mod 4: at 0 the accumulator is cleared and then updated; at 1 and 2 it is updated; at 3 it is updated and
then normalised into the output's buffer. Where the output is not stored its window is idle and its buffer is
handed back as found. -/

-- membership of an index in a whole-buffer rectangle is decided structurally, one step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The body obligation, at a generic point -/

/-- What the body is called with at point `t`: the invariant, what the core owes, and each window's current staging
    buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- What it returns: the invariant one position further, the same debt, and each buffer at what the body leaves
    (for the output window where it is idle and not written back: as found). -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; the position mod 4 selects the behaviour, whose
    symbolic run then applies: the invariant hands it the accumulator (at anything before the first point, else at
    what the point before left) and takes it back at this point's value, identified through the cover of the buffer
    by the writes made and their closed form; the other scoped buffers, the generator register and the core's debt
    pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 4 = 0
  · -- the accumulation restarts
    have hc0 : cond0_0 (grid0.coords t) := (hcond0_0 t).mpr h0
    have hc1 : ¬cond0_1 (grid0.coords t) := fun h => by have := (hcond0_1 t).mp h; omega
    rw [Dat.leavesExact_idle (dat0 V c) 3 t (idleAt0_3 t hc1) (noFlush0_3 t hc1)]
    rw [accAt0_reset V c t h0]
    by_cases hz : t.val = 0
    · rw [PhiS0_castSucc V c t, PhiS0_zero V c _ _ hz, PhiA0_eq]
      iintro ⟨⟨⟨HS0, Hr⟩, Hg⟩, Ho, ⟨%d0, H0⟩, ⟨%d1, H1⟩, ⟨%d2, H2⟩, ⟨%d3, H3⟩⟩
      iapply ((kernelRun0_A c (grid0.coords t) _ _ _ _ _ _ _ _ _ _ hc0 hc1 (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro
            exact (View.read_writes_eq_canon _ _ _ (scover0_A_0 c _ _ _ _ _ _ _ _ _ _ _ _ _ _ _ _)).trans (canon0_A c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩⟩
      iapply ((kernelRun0_A c (grid0.coords t) _ _ _ _ _ _ _ _ _ _ hc0 hc1 (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro
            exact (View.read_writes_eq_canon _ _ _ (scover0_A_0 c _ _ _ _ _ _ _ _ _ _ _ _ _ _ _ _)).trans (canon0_A c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have hc0 : ¬cond0_0 (grid0.coords t) := fun h => h0 ((hcond0_0 t).mp h)
    have hz : t.val ≠ 0 := fun e => h0 (by rw [e])
    rw [accAt0_step V c t h0]
    by_cases h1 : t.val % 4 = 3
    · -- the accumulation ends: the output is stored
      have hc1 : cond0_1 (grid0.coords t) := (hcond0_1 t).mpr h1
      rw [show (dat0 V c).leavesExact 3 t = owns (c : Thread nD τ) (ms0_3 t) fullShare ((dat0 V c).after 3 t) from by
        unfold Dat.leavesExact; rw [liveAt0_3 t hc1], after0_3]
      unfold outAt0
      rw [accAt0_step V c t h0]
      rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩⟩
      iapply ((kernelRun0_C c (grid0.coords t) _ _ _ _ _ _ _ _ _ _ hc0 hc1 (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr Hg]
      · isplitl [HS0 Hr]
        · isplitl [HS0]
          · unfold owns; iexists _; isplitr
            swap; · iexact HS0
            ipureintro
            exact (View.read_writes_eq_canon _ _ _ (scover0_C_0 c _ _ _ _ _ _ _ _ _ _ _ _ _ _ _ _ _)).trans (canon0_C c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro
      exact (View.read_writes_eq_canon _ _ _ (cover0_C_3 c _ _ _ _ _ _ _ _ _ _ _ _ _ _ _ _ _)).trans (canonO_C c _ _ _ _ _ _ _ _ _ _ _ _ _ _ _ _ _)
    · -- the middle of an accumulation
      have hc1 : ¬cond0_1 (grid0.coords t) := fun h => h1 ((hcond0_1 t).mp h)
      rw [Dat.leavesExact_idle (dat0 V c) 3 t (idleAt0_3 t hc1) (noFlush0_3 t hc1)]
      rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩⟩
      iapply ((kernelRun0_B c (grid0.coords t) _ _ _ _ _ _ _ _ _ _ hc0 hc1 (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro
            exact (View.read_writes_eq_canon _ _ _ (scover0_B_0 c _ _ _ _ _ _ _ _ _ _ _ _ _ _ _ _ _)).trans (canon0_B c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The body obligation of the pipeline's proof data, at every point. -/
theorem body_obligation0 (c : Dev nD) : BodyObligation (dat0 (F := F) V c) (defs₀ (F := F)) Variants.none () Set.univ := fun t => by
  rw [bigSep_W0, bigSep_W0]
  exact sound_body0 V c t

/-! ## The invariant's two ends -/

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives it back: the accumulator's value is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

/-- In particular after the last point. -/
theorem hout0 (c : Dev nD) : (dat0 V c).Φ (Fin.last cfg0.N) ⊢ Pipeline.ΦA spec0 c :=
  Phi_out0 V c _ (by rw [Fin.val_last]; have : cfg0.N = 32 := N_0; omega)

end Cert.KernelIdeal.Hand

end
-- ==== Proof.KI.Reg1.lean ====
import proofs.«159438_j36850819399877_1_alg».proof.Proof.Gen.KernelIdeal.Launch
import proofs.«159438_j36850819399877_1_alg».proof.Proof.Gen.KernelIdeal.Skeleton
import proofs.«159438_j36850819399877_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1 (`cc1__xw_kernel`): the body's half of the pipeline argument

The pipeline of this region moves blocks of two input arrays and one output array through staging buffers and
calls the body once per grid point. This file gives, at arbitrary entry contents `V` of the core's buffers:
what each window's block is at a point, what the body leaves in the output's staging buffer as a function of
the two input blocks, the separation-logic triple of the body, and the proof data whose body obligation that
triple discharges. -/

-- membership of an index in a whole-buffer rectangle is decided structurally, one step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`: the part of its array (at the entry contents) that the window's index map
    selects there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether or not the pipeline fetched
    it there (where it did not, the block index has not moved since the last fetch), for any proof data whose
    array is the entry contents and whose body leaves the block in place. Window 0: -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- and window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each staging buffer whole -/

abbrev r1_0 : Rect S512x768 := Rect.unit (s := S512x768) ![0, 0] S512x768.size inb_S512x768_S512x768_0_0
abbrev r1_1 : Rect S1x768x192 := Rect.unit (s := S1x768x192) ![0, 0, 0] S1x768x192.size inb_S1x768x192_S1x768x192_0_0_0
abbrev r1_2 : Rect S1x512x192 := Rect.unit (s := S1x512x192) ![0, 0, 0] S1x512x192.size inb_S1x512x192_S1x512x192_0_0_0

/-! ## What the body leaves in the output window's buffer -/

/-- The output's staging buffer after the body, as a function of the two input blocks: one store of the whole
    buffer, whose payload is computed from the two inputs read whole. -/
def out1_2 (x0 : Vec F S512x768 .bf16) (x1 : Vec F S1x768x192 .bf16) : Vec F S1x512x192 .bf16 :=
  View.canon [⟨r1_2, k1_pay1 (View.ld x0 r1_0) (View.ld x1 r1_1)⟩]

/-- The one store's rectangle is the whole buffer, so every index lies in it. -/
theorem cover1_2 (p0 : Vec F S1x512x192 .bf16) (y : S1x512x192.Idx) :
    ∃ pc ∈ ([⟨r1_2, p0⟩] : List (View.Piece (Elt F) S1x512x192 .bf16)), y ∈ pc.1.set :=
  View.cover_of_tiled [⟨r1_2, p0⟩] S1x512x192.size (by rfl) y

/-! ## The body's triple -/

set_option maxHeartbeats 1000000 in
/-- The body, called on three whole staging buffers — the inputs' at read contents `x0`, `x1`, the output's at
    anything —, runs to a continuation that holds the inputs' as they were and the output's at `out1_2 x0 x1`.
    The body's two input loads read `x0` and `x1` whole; its load of the output buffer reads whatever is there and
    the value is not used; its store overwrites the whole output buffer. -/
theorem sound_kernel1 (c : Dev nD) (E : Set ℕ) (i : grid1.Coords) (arg0 : Memref sig .tc .vmem S512x768 .bf16) (harg0 : arg0.IsWhole) (arg1 : Memref sig .tc .vmem S1x768x192 .bf16) (harg1 : arg1.IsWhole) (arg2 : Memref sig .tc .vmem S1x512x192 .bf16) (harg2 : arg2.IsWhole)
    (x0 : Vec F S512x768 .bf16) (x1 : Vec F S1x768x192 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__xw_kernel i arg0 harg0 arg1 harg1 arg2 harg2) K := by
  simp only [cc1__xw_kernel_eq_skeleton]; unfold cc1__xw_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of this pipeline on core `c`: the arrays at the entry contents; after the body at point `t`
    each input's buffer still at its block and the output's at `out1_2` of the two input blocks; the invariant is
    the rest of the core's state, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`: the invariant, the core's debts, and each window's current staging
    buffer at what the pipeline left there, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline rule, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand
-- ==== Proof.KI.Reg2.lean ====
import proofs.«159438_j36850819399877_1_alg».proof.Proof.Gen.KernelIdeal.Launch
import proofs.«159438_j36850819399877_1_alg».proof.Proof.Gen.KernelIdeal.Skeleton
import proofs.«159438_j36850819399877_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a whole-buffer rectangle is decided structurally, one step per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every buffer of the core when the region is entered: all of the region's data is a function of it
variable (V : (c : Dev nD) → (b : Ref sig .tc) → Buf (Elt F) ((c : Thread nD τ).loc b))

/-! # Region 2: the transposed product with bias and rectifier (pipeline 2), at the entry contents `V` -/

/-! ## The windows' blocks -/

/-- The block of window `w` at grid point `t`: the part of the window's array, as the region finds it, that the
    window's index map selects there. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: every load and the store is of a whole staging buffer -/

abbrev r2_0 : Rect S1x2048x2048 := Rect.unit (s := S1x2048x2048) ![0, 0, 0] S1x2048x2048.size inb_S1x2048x2048_S1x2048x2048_0_0_0
abbrev r2_1 : Rect S1x2048x192 := Rect.unit (s := S1x2048x192) ![0, 0, 0] S1x2048x192.size inb_S1x2048x192_S1x2048x192_0_0_0
abbrev r2_2 : Rect S1x1x192 := Rect.unit (s := S1x1x192) ![0, 0, 0] S1x1x192.size inb_S1x1x192_S1x1x192_0_0_0
abbrev r2_3 : Rect S1x2048x192 := Rect.unit (s := S1x2048x192) ![0, 0, 0] S1x2048x192.size inb_S1x2048x192_S1x2048x192_0_0_0

/-! ## What the body leaves in the output window's buffer -/

/-- The output buffer after the body, as a function of the three input blocks: the body's single store, of the
    payload computed from the three whole-buffer loads, laid over the buffer. The buffer's earlier contents do not
    enter: the store covers it (`cover2_3`). -/
def out2_3 (x0 : Vec F S1x2048x2048 .bf16) (x1 : Vec F S1x2048x192 .bf16) (x2 : Vec F S1x1x192 .f32) : Vec F S1x2048x192 .bf16 :=
  View.canon [⟨r2_3, k2_pay1 (View.ld x0 r2_0) (View.ld x1 r2_1) (View.ld x2 r2_2)⟩]

/-! ## What the body finds in each input window's buffer -/

/-- Input window 0's current staging buffer holds its block at every point, whether or not the window was fetched
    there: where it was not, its block index has not moved since the point before and the body left the block in
    place. Stated for any proof data with the entry arrays (`hA`) whose body leaves the block (`hafter`); the window
    is an input, is never idle and is uncut. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether or not the window was fetched
    there: where it was not, its block index has not moved since the point before and the body left the block in
    place. Stated for any proof data with the entry arrays (`hA`) whose body leaves the block (`hafter`); the window
    is an input, is never idle and is uncut. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether or not the window was fetched
    there: where it was not, its block index has not moved since the point before and the body left the block in
    place. Stated for any proof data with the entry arrays (`hA`) whose body leaves the block (`hafter`); the window
    is an input, is never idle and is uncut. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The single store is of the whole output buffer, so it covers it. -/
theorem cover2_3 (p0 : Vec F S1x2048x192 .bf16) (y : S1x2048x192.Idx) :
    ∃ pc ∈ ([⟨r2_3, p0⟩] : List (View.Piece (Elt F) S1x2048x192 .bf16)), y ∈ pc.1.set :=
  View.cover_of_tiled [⟨r2_3, p0⟩] S1x2048x192.size (by rfl) y

/-! ## The body's triple -/

set_option maxHeartbeats 1000000 in
/-- The body on whole staging buffers, the three inputs' at contents `x0 x1 x2` and the output's at any contents,
    runs to a state where the inputs' are unchanged and the output's holds `out2_3 x0 x1 x2`. The body's three
    input loads read `x0 x1 x2` through the whole-buffer rectangles; its load of the output buffer reads whatever
    is there and the value is not used; its store overwrites the whole output buffer with the payload. -/
theorem sound_kernel2 (c : Dev nD) (E : Set ℕ) (i : grid2.Coords)
    (arg0 : Memref sig .tc .vmem S1x2048x2048 .bf16) (harg0 : arg0.IsWhole) (arg1 : Memref sig .tc .vmem S1x2048x192 .bf16) (harg1 : arg1.IsWhole)
    (arg2 : Memref sig .tc .vmem S1x1x192 .f32) (harg2 : arg2.IsWhole) (arg3 : Memref sig .tc .vmem S1x2048x192 .bf16) (harg3 : arg3.IsWhole)
    (x0 : Vec F S1x2048x2048 .bf16) (x1 : Vec F S1x2048x192 .bf16) (x2 : Vec F S1x1x192 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out2_3 x0 x1 x2)) -∗ K ⟨⟩))
      ⊢ wp frame (wpE (defs₀ (F := F)) Variants.none c none) E (cc2__transA_bias_relu_kernel i arg0 harg0 arg1 harg1 arg2 harg2 arg3 harg3) K := by
  simp only [cc2__transA_bias_relu_kernel_eq_skeleton]; unfold cc2__transA_bias_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`. The arrays are as the region finds them. After the body at point
    `t` each input buffer still holds its block and the output buffer holds `out2_3` of the three input blocks.
    The invariant is the one of a region that touches nothing outside its windows; nothing is owed; every share is
    full. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window: the case split of `dat2` on the window, reduced. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`: the invariant, what is owed, and each window's current staging
    buffer at what the pipeline has put in it, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns: the same with each buffer at what the proof data says the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point. The inputs' buffers hold their blocks (`before2_0..2`), so the body's triple applies
    with those blocks; the invariant and what is owed are not read and pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline's rule, at every point: the rule's separating product over the four
    windows written out is `bodyPre2` before and `bodyPost2` after. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
import proofs.«159438_j36850819399877_1_alg».proof.Proof.Gen.KernelIdeal.Launch
import proofs.«159438_j36850819399877_1_alg».proof.Proof.Gen.KernelIdeal.Skeleton
import proofs.«159438_j36850819399877_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3 (`cc3__transA_kernel`): the body's half of the pipeline argument

The pipeline of this region moves blocks of two input arrays and one output array through staging buffers and
calls the body once per grid point. This file gives, at arbitrary entry contents `V` of the core's buffers:
what each window's block is at a point, what the body leaves in the output's staging buffer as a function of
the two input blocks, the separation-logic triple of the body, and the proof data whose body obligation that
triple discharges. -/

-- membership of an index in a whole-buffer rectangle is decided structurally, one step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`: the part of its array (at the entry contents) that the window's index map
    selects there. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, whether or not the pipeline fetched
    it there (where it did not, the block index has not moved since the last fetch), for any proof data whose
    array is the entry contents and whose body leaves the block in place. Window 0: -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- and window 1. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each staging buffer whole -/

abbrev r3_0 : Rect S1x2048x2048 := Rect.unit (s := S1x2048x2048) ![0, 0, 0] S1x2048x2048.size inb_S1x2048x2048_S1x2048x2048_0_0_0
abbrev r3_1 : Rect S1x2048x192 := Rect.unit (s := S1x2048x192) ![0, 0, 0] S1x2048x192.size inb_S1x2048x192_S1x2048x192_0_0_0
abbrev r3_2 : Rect S1x2048x192 := Rect.unit (s := S1x2048x192) ![0, 0, 0] S1x2048x192.size inb_S1x2048x192_S1x2048x192_0_0_0

/-! ## What the body leaves in the output window's buffer -/

/-- The output's staging buffer after the body, as a function of the two input blocks: one store of the whole
    buffer, whose payload is computed from the two inputs read whole. -/
def out3_2 (x0 : Vec F S1x2048x2048 .bf16) (x1 : Vec F S1x2048x192 .bf16) : Vec F S1x2048x192 .bf16 :=
  View.canon [⟨r3_2, k3_pay1 (View.ld x0 r3_0) (View.ld x1 r3_1)⟩]

/-- The one store's rectangle is the whole buffer, so every index lies in it. -/
theorem cover3_2 (p0 : Vec F S1x2048x192 .bf16) (y : S1x2048x192.Idx) :
    ∃ pc ∈ ([⟨r3_2, p0⟩] : List (View.Piece (Elt F) S1x2048x192 .bf16)), y ∈ pc.1.set :=
  View.cover_of_tiled [⟨r3_2, p0⟩] S1x2048x192.size (by rfl) y

/-! ## The body's triple -/

set_option maxHeartbeats 1000000 in
/-- The body, called on three whole staging buffers — the inputs' at read contents `x0`, `x1`, the output's at
    anything —, runs to a continuation that holds the inputs' as they were and the output's at `out3_2 x0 x1`.
    The body's two input loads read `x0` and `x1` whole; its load of the output buffer reads whatever is there and
    the value is not used; its store overwrites the whole output buffer. -/
theorem sound_kernel3 (c : Dev nD) (E : Set ℕ) (i : grid3.Coords) (arg0 : Memref sig .tc .vmem S1x2048x2048 .bf16) (harg0 : arg0.IsWhole) (arg1 : Memref sig .tc .vmem S1x2048x192 .bf16) (harg1 : arg1.IsWhole) (arg2 : Memref sig .tc .vmem S1x2048x192 .bf16) (harg2 : arg2.IsWhole)
    (x0 : Vec F S1x2048x2048 .bf16) (x1 : Vec F S1x2048x192 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out3_2 x0 x1)) -∗ K ⟨⟩))
      ⊢ wp frame (wpE (defs₀ (F := F)) Variants.none c none) E (cc3__transA_kernel i arg0 harg0 arg1 harg1 arg2 harg2) K := by
  simp only [cc3__transA_kernel_eq_skeleton]; unfold cc3__transA_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of this pipeline on core `c`: the arrays at the entry contents; after the body at point `t`
    each input's buffer still at its block and the output's at `out3_2` of the two input blocks; the invariant is
    the rest of the core's state, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`: the invariant, the core's debts, and each window's current staging
    buffer at what the pipeline left there, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the body's triple applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline rule, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand
-- ==== Proof.KI.Reg4.lean ====
import proofs.«159438_j36850819399877_1_alg».proof.Proof.Gen.KernelIdeal.Launch
import proofs.«159438_j36850819399877_1_alg».proof.Proof.Gen.KernelIdeal.Skeleton
import proofs.«159438_j36850819399877_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a whole-buffer rectangle is decided structurally, one step per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every buffer of the core when the region is entered: all of the region's data is a function of it
variable (V : (c : Dev nD) → (b : Ref sig .tc) → Buf (Elt F) ((c : Thread nD τ).loc b))

/-! # Region 4: the final product with bias and rectifier (pipeline 4), at the entry contents `V` -/

/-! ## The windows' blocks -/

/-- The block of window `w` at grid point `t`: the part of the window's array, as the region finds it, that the
    window's index map selects there. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## The body's accesses: every load and the store is of a whole staging buffer -/

abbrev r4_0 : Rect S1024x768 := Rect.unit (s := S1024x768) ![0, 0] S1024x768.size inb_S1024x768_S1024x768_0_0
abbrev r4_1 : Rect S768x768 := Rect.unit (s := S768x768) ![0, 0] S768x768.size inb_S768x768_S768x768_0_0
abbrev r4_2 : Rect S1x768 := Rect.unit (s := S1x768) ![0, 0] S1x768.size inb_S1x768_S1x768_0_0
abbrev r4_3 : Rect S1024x768 := Rect.unit (s := S1024x768) ![0, 0] S1024x768.size inb_S1024x768_S1024x768_0_0

/-! ## What the body leaves in the output window's buffer -/

/-- The output buffer after the body, as a function of the three input blocks: the body's single store, of the
    payload computed from the three whole-buffer loads, laid over the buffer. The buffer's earlier contents do not
    enter: the store covers it (`cover4_3`). -/
def out4_3 (x0 : Vec F S1024x768 .bf16) (x1 : Vec F S768x768 .bf16) (x2 : Vec F S1x768 .f32) : Vec F S1024x768 .f32 :=
  View.canon [⟨r4_3, k4_pay1 (View.ld x0 r4_0) (View.ld x1 r4_1) (View.ld x2 r4_2)⟩]

/-! ## What the body finds in each input window's buffer -/

/-- Input window 0's current staging buffer holds its block at every point, whether or not the window was fetched
    there: where it was not, its block index has not moved since the point before and the body left the block in
    place. Stated for any proof data with the entry arrays (`hA`) whose body leaves the block (`hafter`); the window
    is an input, is never idle and is uncut. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, whether or not the window was fetched
    there: where it was not, its block index has not moved since the point before and the body left the block in
    place. Stated for any proof data with the entry arrays (`hA`) whose body leaves the block (`hafter`); the window
    is an input, is never idle and is uncut. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, whether or not the window was fetched
    there: where it was not, its block index has not moved since the point before and the body left the block in
    place. Stated for any proof data with the entry arrays (`hA`) whose body leaves the block (`hafter`); the window
    is an input, is never idle and is uncut. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The single store is of the whole output buffer, so it covers it. -/
theorem cover4_3 (p0 : Vec F S1024x768 .f32) (y : S1024x768.Idx) :
    ∃ pc ∈ ([⟨r4_3, p0⟩] : List (View.Piece (Elt F) S1024x768 .f32)), y ∈ pc.1.set :=
  View.cover_of_tiled [⟨r4_3, p0⟩] S1024x768.size (by rfl) y

/-! ## The body's triple -/

set_option maxHeartbeats 1000000 in
/-- The body on whole staging buffers, the three inputs' at contents `x0 x1 x2` and the output's at any contents,
    runs to a state where the inputs' are unchanged and the output's holds `out4_3 x0 x1 x2`. The body's three
    input loads read `x0 x1 x2` through the whole-buffer rectangles; its load of the output buffer reads whatever
    is there and the value is not used; its store overwrites the whole output buffer with the payload. -/
theorem sound_kernel4 (c : Dev nD) (E : Set ℕ) (i : grid4.Coords)
    (arg0 : Memref sig .tc .vmem S1024x768 .bf16) (harg0 : arg0.IsWhole) (arg1 : Memref sig .tc .vmem S768x768 .bf16) (harg1 : arg1.IsWhole)
    (arg2 : Memref sig .tc .vmem S1x768 .f32) (harg2 : arg2.IsWhole) (arg3 : Memref sig .tc .vmem S1024x768 .f32) (harg3 : arg3.IsWhole)
    (x0 : Vec F S1024x768 .bf16) (x1 : Vec F S768x768 .bf16) (x2 : Vec F S1x768 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out4_3 x0 x1 x2)) -∗ K ⟨⟩))
      ⊢ wp frame (wpE (defs₀ (F := F)) Variants.none c none) E (cc4__final_kernel i arg0 harg0 arg1 harg1 arg2 harg2 arg3 harg3) K := by
  simp only [cc4__final_kernel_eq_skeleton]; unfold cc4__final_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of pipeline 4 on core `c`. The arrays are as the region finds them. After the body at point
    `t` each input buffer still holds its block and the output buffer holds `out4_3` of the three input blocks.
    The invariant is the one of a region that touches nothing outside its windows; nothing is owed; every share is
    full. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the entry contents. -/
theorem A_eq4 (c : Dev nD) (w : Fin cfg4.W) : (dat4 V c).A w = V c (Pipeline.arrRef spec4 w) := by
  dsimp only [dat4]

/-- What the body leaves, window by window: the case split of `dat4` on the window, reduced. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`: the invariant, what is owed, and each window's current staging
    buffer at what the pipeline has put in it, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns: the same with each buffer at what the proof data says the body leaves. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point. The inputs' buffers hold their blocks (`before4_0..2`), so the body's triple applies
    with those blocks; the invariant and what is owed are not read and pass through. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline's rule, at every point: the rule's separating product over the four
    windows written out is `bodyPre4` before and `bodyPost4` after. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Run.lean ====
import proofs.«159438_j36850819399877_1_alg».proof.Proof.KI.Reg0
import proofs.«159438_j36850819399877_1_alg».proof.Proof.KI.Reg1
import proofs.«159438_j36850819399877_1_alg».proof.Proof.KI.Reg2
import proofs.«159438_j36850819399877_1_alg».proof.Proof.KI.Reg3
import proofs.«159438_j36850819399877_1_alg».proof.Proof.KI.Reg4
import proofs.«159438_j36850819399877_1_alg».proof.Proof.Gen.KernelIdeal.Launch
import proofs.«159438_j36850819399877_1_alg».proof.Proof.Gen.KernelIdeal.Skeleton
import proofs.«159438_j36850819399877_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of `@main`: five kernel regions among four stretches of host operations

`@main` is nine segments in order: host stretch, region 0, host stretch, region 1, host stretch, region 2, region 3,
host stretch, region 4. This file follows the core's unscoped buffers through them. Their contents at each of the
ten boundaries are a fold from the launch memory: a host stretch rewrites the buffers its operations write and
leaves the rest, a region leaves its windows' arrays at what its pipeline's write-backs amount to and every other
buffer as it found it. Each region's proof data are taken at the contents its region is entered from, so the fold
and the proof data are defined together, one boundary at a time.

From the fold: every argument buffer is read back to its launch contents (no host operation writes one; a region
either does not see it or reads it through an input window, whose array is unchanged); every region becomes a
segment record over the thread state "all unscoped buffers at the boundary's contents, the generator register at
some state, nothing owed"; the segments chain; and the launch theorem for a list of segments gives that every
weakly fair execution of `@main` terminates with the unscoped buffers at the last boundary's contents, hence with
the arguments as launched. -/

-- inequality of a window's array reference and a named reference is decided by evaluating the window table
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the launch memory and the cores' generator registers
variable (m : (ℓ : Loc nD τ sig) → Buf (Elt F) ℓ) (ρ : Dev nD → PrngReg)

/-! ## The buffers' contents at the ten boundaries -/

/-- Boundary 0: core `c`'s buffers at launch. -/
abbrev W0 : Dev nD → Valuation τ sig (Elt F) := fun c b => (s₀ m ρ).mem ((c : Dev nD), b)

/-- Boundary 1, after the host stretch `hostOps0`: region 0's entry. -/
abbrev W1 : Dev nD → Valuation τ sig (Elt F) := fun c => StableHlo.after hostOps0 (W0 m ρ c)
/-- Boundary 1 read at the TensorCore's references: the contents region 0's proof data are taken at. -/
abbrev V1 : (c : Dev nD) → (b : Ref sig .tc) → Buf (Elt F) ((c : Thread nD τ).loc b) := fun c b => W1 m ρ c b

/-- Boundary 2, region 0's exit: its windows' arrays at what the pipeline leaves after the last grid point (an
    input's array as entered, an output's with every write-back folded in), every other buffer as at boundary 1. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- Boundary 2 read at the TensorCore's references. -/
abbrev V2 : (c : Dev nD) → (b : Ref sig .tc) → Buf (Elt F) ((c : Thread nD τ).loc b) := fun c b => W2 m ρ c b
/-- At boundary 2 each array of region 0 holds what the pipeline leaves, and a buffer that is no array of region 0
    holds what it held at boundary 1: the two facts by which the arrays and the bypassing buffers are put back
    together into "all unscoped buffers at boundary 2". -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- Boundary 3, after the host stretch `hostOps1`: region 1's entry. -/
abbrev W3 : Dev nD → Valuation τ sig (Elt F) := fun c => StableHlo.after hostOps1 (W2 m ρ c)
/-- Boundary 3 read at the TensorCore's references: the contents region 1's proof data are taken at. -/
abbrev V3 : (c : Dev nD) → (b : Ref sig .tc) → Buf (Elt F) ((c : Thread nD τ).loc b) := fun c b => W3 m ρ c b

/-- Boundary 4, region 1's exit: its windows' arrays at what the pipeline leaves after the last grid point (an
    input's array as entered, an output's with every write-back folded in), every other buffer as at boundary 3. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- Boundary 4 read at the TensorCore's references. -/
abbrev V4 : (c : Dev nD) → (b : Ref sig .tc) → Buf (Elt F) ((c : Thread nD τ).loc b) := fun c b => W4 m ρ c b
/-- At boundary 4 each array of region 1 holds what the pipeline leaves, and a buffer that is no array of region 1
    holds what it held at boundary 3: the two facts by which the arrays and the bypassing buffers are put back
    together into "all unscoped buffers at boundary 4". -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- Boundary 5, after the host stretch `hostOps2`: region 2's entry. -/
abbrev W5 : Dev nD → Valuation τ sig (Elt F) := fun c => StableHlo.after hostOps2 (W4 m ρ c)
/-- Boundary 5 read at the TensorCore's references: the contents region 2's proof data are taken at. -/
abbrev V5 : (c : Dev nD) → (b : Ref sig .tc) → Buf (Elt F) ((c : Thread nD τ).loc b) := fun c b => W5 m ρ c b

/-- Boundary 6, region 2's exit: its windows' arrays at what the pipeline leaves after the last grid point (an
    input's array as entered, an output's with every write-back folded in), every other buffer as at boundary 5. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- Boundary 6 read at the TensorCore's references. -/
abbrev V6 : (c : Dev nD) → (b : Ref sig .tc) → Buf (Elt F) ((c : Thread nD τ).loc b) := fun c b => W6 m ρ c b
/-- At boundary 6 each array of region 2 holds what the pipeline leaves, and a buffer that is no array of region 2
    holds what it held at boundary 5: the two facts by which the arrays and the bypassing buffers are put back
    together into "all unscoped buffers at boundary 6". -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

-- region 3 follows region 2 directly: boundary 6 is both region 2's exit and region 3's entry

/-- Boundary 7, region 3's exit: its windows' arrays at what the pipeline leaves after the last grid point (an
    input's array as entered, an output's with every write-back folded in), every other buffer as at boundary 6. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- Boundary 7 read at the TensorCore's references. -/
abbrev V7 : (c : Dev nD) → (b : Ref sig .tc) → Buf (Elt F) ((c : Thread nD τ).loc b) := fun c b => W7 m ρ c b
/-- At boundary 7 each array of region 3 holds what the pipeline leaves, and a buffer that is no array of region 3
    holds what it held at boundary 6: the two facts by which the arrays and the bypassing buffers are put back
    together into "all unscoped buffers at boundary 7". -/
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

/-- Boundary 8, after the host stretch `hostOps4`: region 4's entry. -/
abbrev W8 : Dev nD → Valuation τ sig (Elt F) := fun c => StableHlo.after hostOps4 (W7 m ρ c)
/-- Boundary 8 read at the TensorCore's references: the contents region 4's proof data are taken at. -/
abbrev V8 : (c : Dev nD) → (b : Ref sig .tc) → Buf (Elt F) ((c : Thread nD τ).loc b) := fun c b => W8 m ρ c b

/-- Boundary 9, region 4's exit: its windows' arrays at what the pipeline leaves after the last grid point (an
    input's array as entered, an output's with every write-back folded in), every other buffer as at boundary 8. -/
def W9 (c : Dev nD) : Valuation τ sig (Elt F) :=
  Pipeline.withArrays spec4 c (W8 m ρ c) fun w => (dat4 (V8 m ρ) c).arrAt w cfg4.N
theorem W9_arr (c : Dev nD) (w : Fin cfg4.W) :
    W9 m ρ c (Proc.devRef .tc (Pipeline.arrRef spec4 w)) = (dat4 (V8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
/-- Boundary 9 read at the TensorCore's references. -/
abbrev V9 : (c : Dev nD) → (b : Ref sig .tc) → Buf (Elt F) ((c : Thread nD τ).loc b) := fun c b => W9 m ρ c b
/-- At boundary 9 each array of region 4 holds what the pipeline leaves, and a buffer that is no array of region 4
    holds what it held at boundary 8: the two facts by which the arrays and the bypassing buffers are put back
    together into "all unscoped buffers at boundary 9". -/
theorem hF4 (c : Dev nD) (w : Fin cfg4.W) : (dat4 (V8 m ρ) c).arrAt w cfg4.N = V9 m ρ c (Pipeline.arrRef spec4 w) :=
  (W9_arr m ρ c w).symm
theorem hrest4 (c : Dev nD) : ∀ b, b ∉ Finset.univ.image (Pipeline.arrRef spec4) → V9 m ρ c b = V8 m ρ c b :=
  fun b hb => W9_of_ne m ρ c b fun w e => hb (Finset.mem_image.mpr ⟨w, Finset.mem_univ _, e⟩)

/-! ## What the host stretches write

Each host operation writes exactly its result buffer, so a stretch writes the results of its operations; a
reference outside that list keeps its contents across the stretch. No operation allocates. -/

/-- No operation of `hostOps0` allocates a buffer. -/
theorem hostOps0_fresh : (hostOps0 : List (HloOp τ sig (Elt F))).Forall fun op => op.fresh = ∅ := by
  simp only [List.Forall]; repeat' constructor
/-- The result buffers of `hostOps0`'s operations. -/
abbrev hostW0 : List (Ref sig .tc) := [main_v0, main_v1, main_v2, main_v3]
theorem hostOps0_writes : (hostOps0 : List (HloOp τ sig (Elt F))).Forall fun op => op.writes ⊆ (hostW0.map (Proc.devRef (τ := τ) .tc)).toFinset := by
  simp only [List.Forall, StableHlo.unary_writes, StableHlo.reshape_writes, Finset.singleton_subset_iff, List.mem_toFinset]
  exact ⟨List.mem_map_of_mem (by decide), List.mem_map_of_mem (by decide), List.mem_map_of_mem (by decide), List.mem_map_of_mem (by decide)⟩
/-- A reference that is no result of `hostOps0` holds at boundary 1 what it held at boundary 0. -/
theorem W1_of (c : Dev nD) (r : Ref sig .tc) (h : r ∉ hostW0) : W1 m ρ c (Proc.devRef .tc r) = W0 m ρ c (Proc.devRef .tc r) :=
  StableHlo.after_of_writes_sub hostOps0 _ hostOps0_writes h

/-- No operation of `hostOps1` allocates a buffer. -/
theorem hostOps1_fresh : (hostOps1 : List (HloOp τ sig (Elt F))).Forall fun op => op.fresh = ∅ := by
  simp only [List.Forall]; repeat' constructor
/-- The result buffers of `hostOps1`'s operations. -/
abbrev hostW1 : List (Ref sig .tc) := [main_v5, main_v6]
theorem hostOps1_writes : (hostOps1 : List (HloOp τ sig (Elt F))).Forall fun op => op.writes ⊆ (hostW1.map (Proc.devRef (τ := τ) .tc)).toFinset := by
  simp only [List.Forall, StableHlo.unary_writes, StableHlo.reshape_writes, Finset.singleton_subset_iff, List.mem_toFinset]
  exact ⟨List.mem_map_of_mem (by decide), List.mem_map_of_mem (by decide)⟩
/-- A reference that is no result of `hostOps1` holds at boundary 3 what it held at boundary 2. -/
theorem W3_of (c : Dev nD) (r : Ref sig .tc) (h : r ∉ hostW1) : W3 m ρ c (Proc.devRef .tc r) = W2 m ρ c (Proc.devRef .tc r) :=
  StableHlo.after_of_writes_sub hostOps1 _ hostOps1_writes h

/-- No operation of `hostOps2` allocates a buffer. -/
theorem hostOps2_fresh : (hostOps2 : List (HloOp τ sig (Elt F))).Forall fun op => op.fresh = ∅ := by
  simp only [List.Forall]; repeat' constructor
/-- The result buffers of `hostOps2`'s operations. -/
abbrev hostW2 : List (Ref sig .tc) := [main_v8]
theorem hostOps2_writes : (hostOps2 : List (HloOp τ sig (Elt F))).Forall fun op => op.writes ⊆ (hostW2.map (Proc.devRef (τ := τ) .tc)).toFinset := by
  simp only [List.Forall, StableHlo.unary_writes, StableHlo.reshape_writes, Finset.singleton_subset_iff, List.mem_toFinset]
  exact List.mem_map_of_mem (by decide)
/-- A reference that is no result of `hostOps2` holds at boundary 5 what it held at boundary 4. -/
theorem W5_of (c : Dev nD) (r : Ref sig .tc) (h : r ∉ hostW2) : W5 m ρ c (Proc.devRef .tc r) = W4 m ρ c (Proc.devRef .tc r) :=
  StableHlo.after_of_writes_sub hostOps2 _ hostOps2_writes h

/-- No operation of `hostOps4` allocates a buffer. -/
theorem hostOps4_fresh : (hostOps4 : List (HloOp τ sig (Elt F))).Forall fun op => op.fresh = ∅ := by
  simp only [List.Forall]; repeat' constructor
/-- The result buffers of `hostOps4`'s operations. -/
abbrev hostW4 : List (Ref sig .tc) := [main_v11, main_v12, main_v13, main_v14]
theorem hostOps4_writes : (hostOps4 : List (HloOp τ sig (Elt F))).Forall fun op => op.writes ⊆ (hostW4.map (Proc.devRef (τ := τ) .tc)).toFinset := by
  simp only [List.Forall, StableHlo.unary_writes, StableHlo.reshape_writes, Finset.singleton_subset_iff, List.mem_toFinset]
  exact ⟨List.mem_map_of_mem (by decide), List.mem_map_of_mem (by decide), List.mem_map_of_mem (by decide), List.mem_map_of_mem (by decide)⟩
/-- A reference that is no result of `hostOps4` holds at boundary 8 what it held at boundary 7. -/
theorem W8_of (c : Dev nD) (r : Ref sig .tc) (h : r ∉ hostW4) : W8 m ρ c (Proc.devRef .tc r) = W7 m ρ c (Proc.devRef .tc r) :=
  StableHlo.after_of_writes_sub hostOps4 _ hostOps4_writes h

/-! ## The arguments end as launched

A reference that no host stretch writes and that is no array of regions 1 to 4 holds at the last boundary what it
held at region 0's exit (`W9_eq_W2`), and one that the first stretch does not write holds at region 0's entry its
launch contents (`W1_eq_launch`). Six of the seven arguments are no array of region 0 either; `main_arg1` is the
array of region 0's window 0, an input window, whose array the pipeline leaves as entered. -/

theorem W9_eq_W2 (c : Dev nD) (r : Ref sig .tc) (h1 : r ∉ hostW1) (h2 : r ∉ hostW2) (h4 : r ∉ hostW4)
    (a1 : ∀ w, Pipeline.arrRef spec1 w ≠ r) (a2 : ∀ w, Pipeline.arrRef spec2 w ≠ r) (a3 : ∀ w, Pipeline.arrRef spec3 w ≠ r)
    (a4 : ∀ w, Pipeline.arrRef spec4 w ≠ r) :
    W9 m ρ c (Proc.devRef .tc r) = W2 m ρ c (Proc.devRef .tc r) :=
  calc W9 m ρ c (Proc.devRef .tc r)
    _ = W8 m ρ c (Proc.devRef .tc r) := W9_of_ne m ρ c r a4
    _ = W7 m ρ c (Proc.devRef .tc r) := W8_of m ρ c r h4
    _ = W6 m ρ c (Proc.devRef .tc r) := W7_of_ne m ρ c r a3
    _ = W5 m ρ c (Proc.devRef .tc r) := W6_of_ne m ρ c r a2
    _ = W4 m ρ c (Proc.devRef .tc r) := W5_of m ρ c r h2
    _ = W3 m ρ c (Proc.devRef .tc r) := W4_of_ne m ρ c r a1
    _ = W2 m ρ c (Proc.devRef .tc r) := W3_of m ρ c r h1

theorem W1_eq_launch (c : Dev nD) (r : Ref sig .tc) (h0 : r ∉ hostW0) :
    W1 m ρ c (Proc.devRef .tc r) = m ((c : Thread nD τ).loc r) :=
  (W1_of m ρ c r h0).trans rfl

/-- A reference outside every host stretch's results and every region's arrays ends as launched. -/
theorem W9_bypass (c : Dev nD) (r : Ref sig .tc) (h0 : r ∉ hostW0) (h1 : r ∉ hostW1) (h2 : r ∉ hostW2) (h4 : r ∉ hostW4)
    (a0 : ∀ w, Pipeline.arrRef spec0 w ≠ r) (a1 : ∀ w, Pipeline.arrRef spec1 w ≠ r) (a2 : ∀ w, Pipeline.arrRef spec2 w ≠ r)
    (a3 : ∀ w, Pipeline.arrRef spec3 w ≠ r) (a4 : ∀ w, Pipeline.arrRef spec4 w ≠ r) :
    W9 m ρ c (Proc.devRef .tc r) = m ((c : Thread nD τ).loc r) :=
  (W9_eq_W2 m ρ c r h1 h2 h4 a1 a2 a3 a4).trans ((W2_of_ne m ρ c r a0).trans (W1_eq_launch m ρ c r h0))

theorem W9_main_arg0 (c : Dev nD) : W9 m ρ c (Proc.devRef .tc main_arg0) = m ((c : Thread nD τ).loc main_arg0) :=
  W9_bypass m ρ c main_arg0 (by decide) (by decide) (by decide) (by decide) (by decide) (by decide) (by decide) (by decide) (by decide)

theorem W9_main_arg2 (c : Dev nD) : W9 m ρ c (Proc.devRef .tc main_arg2) = m ((c : Thread nD τ).loc main_arg2) :=
  W9_bypass m ρ c main_arg2 (by decide) (by decide) (by decide) (by decide) (by decide) (by decide) (by decide) (by decide) (by decide)

theorem W9_main_arg3 (c : Dev nD) : W9 m ρ c (Proc.devRef .tc main_arg3) = m ((c : Thread nD τ).loc main_arg3) :=
  W9_bypass m ρ c main_arg3 (by decide) (by decide) (by decide) (by decide) (by decide) (by decide) (by decide) (by decide) (by decide)

theorem W9_main_arg4 (c : Dev nD) : W9 m ρ c (Proc.devRef .tc main_arg4) = m ((c : Thread nD τ).loc main_arg4) :=
  W9_bypass m ρ c main_arg4 (by decide) (by decide) (by decide) (by decide) (by decide) (by decide) (by decide) (by decide) (by decide)

theorem W9_main_arg5 (c : Dev nD) : W9 m ρ c (Proc.devRef .tc main_arg5) = m ((c : Thread nD τ).loc main_arg5) :=
  W9_bypass m ρ c main_arg5 (by decide) (by decide) (by decide) (by decide) (by decide) (by decide) (by decide) (by decide) (by decide)

theorem W9_main_arg6 (c : Dev nD) : W9 m ρ c (Proc.devRef .tc main_arg6) = m ((c : Thread nD τ).loc main_arg6) :=
  W9_bypass m ρ c main_arg6 (by decide) (by decide) (by decide) (by decide) (by decide) (by decide) (by decide) (by decide) (by decide)

/-- `main_arg1` is read by region 0 through window 0: at region 0's exit that array is the proof data's array after
    the last point, which for an input window is the array as entered, which is boundary 1's contents there. -/
theorem W9_main_arg1 (c : Dev nD) : W9 m ρ c (Proc.devRef .tc main_arg1) = m ((c : Thread nD τ).loc main_arg1) :=
  calc W9 m ρ c (Proc.devRef .tc main_arg1)
    _ = W2 m ρ c (Proc.devRef .tc main_arg1) := W9_eq_W2 m ρ c main_arg1 (by decide) (by decide) (by decide) (by decide) (by decide) (by decide) (by decide)
    _ = W1 m ρ c (Proc.devRef .tc main_arg1) := (W2_arr m ρ c 0).trans (((dat0 (V1 m ρ) c).arrAt_in 0 rfl _).trans (A_eq0 (V1 m ρ) c 0))
    _ = m ((c : Thread nD τ).loc main_arg1) := W1_eq_launch m ρ c main_arg1 (by decide)

/-! ## The proof data family and the thread state -/

/-- The prefetched tables' admissible contents: no pipeline has a table. -/
abbrev adm : (p : Fin 5) → (pcfgs (F := F) p).Adm := fun p => (cfgs p).toPCfg_adm
/-- Every pipeline's proof data, each at the contents its region is entered from. A literal `match`, so that at a
    numeral the family reduces to that region's data and the pinned configuration to the printed one. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V6 m ρ) c
  | ⟨4, _⟩ => fun c => dat4 (V8 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and the core's dues, which are none. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it is entered
    from those references held at `W c` and leaves them held at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W9 m ρ c) ∗ ∃ r, prngReg c r)

/-! ## The regions as segments

Each region's record has the same shape. ENTRY: the unscoped buffers held at the entry contents split into the
region's arrays at the proof data's first contents and the bypassing rest; no table; the dues at zero; the generator
register set aside for the invariant. The invariant at the first point is made from the register and the scoped
buffers no window stages, and at the last point gives them back. EXIT: the arrays at the proof data's last contents
and the bypassing rest join into the unscoped buffers held at the exit contents. The kernels have no semaphores of
their own. -/

-- a library lemma stated over the pinned configuration `pin pcs a p` unifies with the printed one only when
-- unification may unfold plain definitions inside a metavariable's type
set_option backward.isDefEq.respectTransparency.types false in
/-- REGION 0: entered from every unscoped buffer at boundary 1, left at boundary 2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    -- region 0's invariant is not the class invariant itself: it is reached from it at the first point
    refine .trans ?_ (hin0 (V1 m ρ) c)
    unfold Pipeline.ΦA
    iintro ⟨Hp, -, Hr⟩
    isplitl [Hr]; · iexact Hr
    iexact Hp
  hout c := by
    -- and at the last point it gives the class invariant back
    rw [Pipeline.ownSems0_none]
    refine .trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration `pin pcs a p` unifies with the printed one only when
-- unification may unfold plain definitions inside a metavariable's type
set_option backward.isDefEq.respectTransparency.types false in
/-- REGION 1: entered from every unscoped buffer at boundary 3, left at boundary 4. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration `pin pcs a p` unifies with the printed one only when
-- unification may unfold plain definitions inside a metavariable's type
set_option backward.isDefEq.respectTransparency.types false in
/-- REGION 2: entered from every unscoped buffer at boundary 5, left at boundary 6. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun w => A_eq2 (V5 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration `pin pcs a p` unifies with the printed one only when
-- unification may unfold plain definitions inside a metavariable's type
set_option backward.isDefEq.respectTransparency.types false in
/-- REGION 3: entered from every unscoped buffer at boundary 6, left at boundary 7. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun w => A_eq3 (V6 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration `pin pcs a p` unifies with the printed one only when
-- unification may unfold plain definitions inside a metavariable's type
set_option backward.isDefEq.respectTransparency.types false in
/-- REGION 4, the last segment: entered from every unscoped buffer at boundary 8, left at boundary 9 with the
    dues split off (the form the chain ends in). -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V8 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V8 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V8 m ρ c) fun w => A_eq4 (V8 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V8 m ρ c) (V9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's nine segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ),
    .host (hseg hostOps4 hostOps4_sub hostOps4_fresh (W7 m ρ)),
    .region (reg4 m ρ) ]
/-- @main is the run of the segments: it is the chain of its nine items, and the segments' run unfolds to the same chain. -/
theorem main_run (c : Dev nD) : main (F := F) c = Pipeline.Seg.run (segs m ρ) := (main_chain c).trans (by chain_rfl)

-- the launch theorem's implicit arguments are found by unifying its conclusion with the statement, which takes
-- unfolding plain definitions inside a metavariable's type
set_option backward.isDefEq.respectTransparency.types false in
/-- THE RUN. From any memory with zero counters, every weakly fair execution of @main on the TensorCores terminates,
    nothing faulting, and in every final state each unscoped buffer of each core holds the last boundary's contents.
    The launch theorem over the segment list: the segments chain by definition (each is entered from exactly the state
    the one before leaves); the first thread state is what the launch deals; the last one, held beside the final
    state's interpretation, reads that state's memory. -/
theorem run_all : θ_run defs (onTc (τ := τ) (main (F := F))) ⟨m, fun _ => 0, ρ⟩
    (fun r => ∀ c : Dev nD, ∀ b ∈ Pipeline.ucRefs τ sig, r.2.mem ((c : Thread nD τ).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun _ h => h)

/-- THE FRAME: every weakly fair execution of @main terminates, nothing faulting, and every final state has the seven
    argument arrays as launched. Each argument is an unscoped buffer, so the final state holds the last boundary's
    contents there (`run_all`), which are the launch contents (`W9_main_argJ`). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c)⟩)
    (run_all m ρ)

end Cert.KernelIdeal.Hand

end
-- ==== Proof.Spec.lean ====
/-
  The mathematical content of the certificate, stated once over the extended reals and over no program.

  From an orthonormal-looking basis `V` (2048 × 2048), four spectral signals `s_t` (2048 each), node features `x`
  (2048 × 768), four weight matrices `W_t` (768 × 192) with biases `b_t`, and a fusion layer `(U, u)`:
    filt_t[m, n]  = Σ_k V[m, k] · (s_t[k] · V[n, k])                       the spectral filter  V · diag(s_t) · Vᵀ
    colsq_t[n]    = Σ_m filt_t[m, n]²                                      the squared length of column n
    fm_t[m, n]    = keep (filt_t[m, n]) (colsq_t[n])                       the column normalised, small entries dropped
    xw_t[r, s]    = Σ_d x[r, d] · W_t[d, s]
    h1_t[n, s]    = max (Σ_m fm_t[m, n] · xw_t[m, s] + b_t[s]) 0           one propagation through fm_tᵀ, bias, rectifier
    h2_t[n, s]    = Σ_m fm_t[m, n] · h1_t[m, s]                            a second propagation through fm_tᵀ
    comb[r, 192 t + s] = h2_t[r, s]                                        the four results side by side
    out[r, j]     = max (Σ_d comb[r, d] · U[d, j] + u[j]) 0
  `keep x q` divides `x` by `max (√q) floor` and keeps the quotient where its absolute value exceeds the threshold,
  else zero. The three constants are the binary values of the words both programs carry.
-/
import Idealize.ShloMosaic.PureOps.Ideal
import Idealize.ShloMosaic.Lib.ValueIdx

noncomputable section

open scoped BigOperators

namespace Cert.Spec

open Idealize.ShloMosaic Idealize.ShloMosaic.ValueIdx

/-- The seven argument arrays, read at the ideal instance (every element an extended real). -/
structure Args where
  x   : (⟨2, ![2048, 768]⟩ : Shape).Idx → EReal
  evc : (⟨2, ![2048, 2048]⟩ : Shape).Idx → EReal
  sg  : (⟨3, ![1, 2048, 4]⟩ : Shape).Idx → EReal
  wg  : (⟨3, ![4, 768, 192]⟩ : Shape).Idx → EReal
  bg  : (⟨2, ![4, 192]⟩ : Shape).Idx → EReal
  fw  : (⟨2, ![768, 768]⟩ : Shape).Idx → EReal
  fb  : (⟨1, ![768]⟩ : Shape).Idx → EReal

/-- The value of the all-zero word. -/
def zero : EReal := Ideal.ofBits .f32 0x00000000#32
/-- The floor under a column's length (the word both programs print for `1e-12`). -/
def nfloor : EReal := Ideal.ofBits .f32 0x2B8CBCCC#32
/-- The sparsification threshold (the word both programs print for `1e-4`). -/
def thr : EReal := Ideal.ofBits .f32 0x38D1B717#32

/-- An entry `x` of a column of squared length `q`, normalised. -/
def normed (x q : EReal) : EReal := Ideal.div x (max (Ideal.sqrt q) nfloor)
/-- The normalised entry, kept where its absolute value exceeds the threshold, else zero. -/
def keep (x q : EReal) : EReal :=
  Scalar.select (FloatOps.cmpf (F := Ideal) (φ := .f32) .ogt (FloatOps.absf (F := Ideal) (φ := .f32) (normed x q)) thr) (normed x q) zero

variable (a : Args)

def filt (t : Fin 4) (m n : Fin 2048) : EReal := ∑ k : Fin 2048, a.evc (ix2 m k) * (a.sg (ix3 0 k t) * a.evc (ix2 n k))
def colsq (t : Fin 4) (n : Fin 2048) : EReal := ∑ m : Fin 2048, filt a t m n * filt a t m n
def fm (t : Fin 4) (m n : Fin 2048) : EReal := keep (filt a t m n) (colsq a t n)
def xw (t : Fin 4) (r : Fin 2048) (s : Fin 192) : EReal := ∑ d : Fin 768, a.x (ix2 r d) * a.wg (ix3 t d s)
def h1 (t : Fin 4) (n : Fin 2048) (s : Fin 192) : EReal := max ((∑ m : Fin 2048, fm a t m n * xw a t m s) + a.bg (ix2 t s)) zero
def h2 (t : Fin 4) (n : Fin 2048) (s : Fin 192) : EReal := ∑ m : Fin 2048, fm a t m n * h1 a t m s
def comb (r : Fin 2048) (j : Fin 768) : EReal :=
  h2 a ⟨j.val / 192, by have := j.isLt; omega⟩ r ⟨j.val % 192, Nat.mod_lt _ (by decide)⟩
def out (r : Fin 2048) (j : Fin 768) : EReal := max ((∑ d : Fin 768, comb a r d * a.fw (ix2 d j)) + a.fb (ix1 j)) zero
/-- The result array. -/
def outArr : (⟨2, ![2048, 768]⟩ : Shape).Idx → EReal := fun i => out a (i 0) (i 1)

/-- The zero word denotes the real zero. -/
theorem zero_eq : zero = 0 := by simp [zero, Ideal.ofBits, Ideal.ieee]

end Cert.Spec

end
-- ==== Proof.Stages.lean ====
/-
  Each of the five kernel launches as ONE whole-array function of the arrays it is handed, over the extended reals and
  over no program: what the launch leaves in its result array, index by index.

    G0 V Vt S  [t, m, n] = keep (f t m n) (Σ_m' (f t m' n)²)   with  f t m n = Σ_k V[m, k] · (S[t, k, 0] · Vt[k, n])
    G1 X W     [t, r, s] = Σ_d X[r, d] · W[t, d, s]
    G2 A B b   [t, n, s] = max (Σ_m A[t, m, n] · B[t, m, s] + b[t, 0, s]) 0      (A enters transposed: its FIRST matrix axis is summed)
    G3 A B     [t, n, s] = Σ_m A[t, m, n] · B[t, m, s]
    G4 C U u   [r, j]    = max (Σ_d C[r, d] · U[d, j] + u[0, j]) 0
-/
import proofs.«159438_j36850819399877_1_alg».proof.Proof.Spec

noncomputable section

open scoped BigOperators

namespace Cert.Spec

open Idealize.ShloMosaic Idealize.ShloMosaic.ValueIdx

/-- The unnormalised filter from a matrix `V`, its transpose `Vt` handed separately, and the signals as a column per scale. -/
def f0 (V Vt : (⟨2, ![2048, 2048]⟩ : Shape).Idx → EReal) (S : (⟨3, ![4, 2048, 1]⟩ : Shape).Idx → EReal)
    (t : Fin 4) (m n : Fin 2048) : EReal :=
  ∑ k : Fin 2048, V (ix2 m k) * (S (ix3 t k 0) * Vt (ix2 k n))

def G0 (V Vt : (⟨2, ![2048, 2048]⟩ : Shape).Idx → EReal) (S : (⟨3, ![4, 2048, 1]⟩ : Shape).Idx → EReal) :
    (⟨3, ![4, 2048, 2048]⟩ : Shape).Idx → EReal :=
  fun i => keep (f0 V Vt S (i 0) (i 1) (i 2)) (∑ m : Fin 2048, f0 V Vt S (i 0) m (i 2) * f0 V Vt S (i 0) m (i 2))

def G1 (X : (⟨2, ![2048, 768]⟩ : Shape).Idx → EReal) (W : (⟨3, ![4, 768, 192]⟩ : Shape).Idx → EReal) :
    (⟨3, ![4, 2048, 192]⟩ : Shape).Idx → EReal :=
  fun i => ∑ d : Fin 768, X (ix2 (i 1) d) * W (ix3 (i 0) d (i 2))

def G2 (A : (⟨3, ![4, 2048, 2048]⟩ : Shape).Idx → EReal) (B : (⟨3, ![4, 2048, 192]⟩ : Shape).Idx → EReal)
    (b : (⟨3, ![4, 1, 192]⟩ : Shape).Idx → EReal) : (⟨3, ![4, 2048, 192]⟩ : Shape).Idx → EReal :=
  fun i => max ((∑ m : Fin 2048, A (ix3 (i 0) m (i 1)) * B (ix3 (i 0) m (i 2))) + b (ix3 (i 0) 0 (i 2))) zero

def G3 (A : (⟨3, ![4, 2048, 2048]⟩ : Shape).Idx → EReal) (B : (⟨3, ![4, 2048, 192]⟩ : Shape).Idx → EReal) :
    (⟨3, ![4, 2048, 192]⟩ : Shape).Idx → EReal :=
  fun i => ∑ m : Fin 2048, A (ix3 (i 0) m (i 1)) * B (ix3 (i 0) m (i 2))

def G4 (C : (⟨2, ![2048, 768]⟩ : Shape).Idx → EReal) (U : (⟨2, ![768, 768]⟩ : Shape).Idx → EReal)
    (u : (⟨2, ![1, 768]⟩ : Shape).Idx → EReal) : (⟨2, ![2048, 768]⟩ : Shape).Idx → EReal :=
  fun i => max ((∑ d : Fin 768, C (ix2 (i 0) d) * U (ix2 d (i 1))) + u (ix2 0 (i 1))) zero

end Cert.Spec

end
-- ==== Proof.KI.Compose.lean ====
/-
  The five launches' whole-array functions, composed through the host-side layout changes, are the specification's stages.

  Each launch is handed arrays that agree, index by index, with an argument or an earlier stage; then its result array
  agrees, index by index, with the next stage:
    G0 on V, its transpose and the signals as a column per scale   is  fm
    G1 on the features and the weights                             is  xw
    G2 on fm, xw and the biases as a row per scale                 is  h1
    G3 on fm and h1                                                is  h2
    G4 on the four h2 side by side, the fusion matrix and its bias is  the result array
  Only the sums' summands are rewritten; no law of the extended reals is used.
-/
import proofs.«159438_j36850819399877_1_alg».proof.Proof.Stages

noncomputable section

open scoped BigOperators

namespace Cert.Spec

open Idealize.ShloMosaic Idealize.ShloMosaic.ValueIdx

/-- The unnormalised filter of the first launch is the specification's filter. -/
theorem f0_eq (a : Args) (Vt : (⟨2, ![2048, 2048]⟩ : Shape).Idx → EReal) (S : (⟨3, ![4, 2048, 1]⟩ : Shape).Idx → EReal)
    (hVt : ∀ k n : Fin 2048, Vt (ix2 k n) = a.evc (ix2 n k))
    (hS : ∀ (t : Fin 4) (k : Fin 2048), S (ix3 t k 0) = a.sg (ix3 0 k t))
    (t : Fin 4) (m n : Fin 2048) : f0 a.evc Vt S t m n = filt a t m n := by
  unfold f0 filt
  simp only [hVt, hS]

theorem G0_eq (a : Args) (Vt : (⟨2, ![2048, 2048]⟩ : Shape).Idx → EReal) (S : (⟨3, ![4, 2048, 1]⟩ : Shape).Idx → EReal)
    (hVt : ∀ k n : Fin 2048, Vt (ix2 k n) = a.evc (ix2 n k))
    (hS : ∀ (t : Fin 4) (k : Fin 2048), S (ix3 t k 0) = a.sg (ix3 0 k t))
    (t : Fin 4) (m n : Fin 2048) : G0 a.evc Vt S (ix3 t m n) = fm a t m n := by
  unfold G0 fm colsq
  simp only [f0_eq a Vt S hVt hS]

theorem G1_eq (a : Args) (X : (⟨2, ![2048, 768]⟩ : Shape).Idx → EReal) (W : (⟨3, ![4, 768, 192]⟩ : Shape).Idx → EReal)
    (hX : ∀ r d, X (ix2 r d) = a.x (ix2 r d)) (hW : ∀ t d s, W (ix3 t d s) = a.wg (ix3 t d s))
    (t : Fin 4) (r : Fin 2048) (s : Fin 192) : G1 X W (ix3 t r s) = xw a t r s := by
  unfold G1 xw
  simp only [hX, hW]

theorem G2_eq (a : Args) (A : (⟨3, ![4, 2048, 2048]⟩ : Shape).Idx → EReal) (B : (⟨3, ![4, 2048, 192]⟩ : Shape).Idx → EReal)
    (b : (⟨3, ![4, 1, 192]⟩ : Shape).Idx → EReal)
    (hA : ∀ t m n, A (ix3 t m n) = fm a t m n) (hB : ∀ t r s, B (ix3 t r s) = xw a t r s)
    (hb : ∀ (t : Fin 4) (s : Fin 192), b (ix3 t 0 s) = a.bg (ix2 t s))
    (t : Fin 4) (n : Fin 2048) (s : Fin 192) : G2 A B b (ix3 t n s) = h1 a t n s := by
  unfold G2 h1
  simp only [hA, hB, hb]

theorem G3_eq (a : Args) (A : (⟨3, ![4, 2048, 2048]⟩ : Shape).Idx → EReal) (B : (⟨3, ![4, 2048, 192]⟩ : Shape).Idx → EReal)
    (hA : ∀ t m n, A (ix3 t m n) = fm a t m n) (hB : ∀ t n s, B (ix3 t n s) = h1 a t n s)
    (t : Fin 4) (n : Fin 2048) (s : Fin 192) : G3 A B (ix3 t n s) = h2 a t n s := by
  unfold G3 h2
  simp only [hA, hB]

theorem G4_eq (a : Args) (C : (⟨2, ![2048, 768]⟩ : Shape).Idx → EReal) (U : (⟨2, ![768, 768]⟩ : Shape).Idx → EReal)
    (u : (⟨2, ![1, 768]⟩ : Shape).Idx → EReal)
    (hC : ∀ (r : Fin 2048) (j : Fin 768), C (ix2 r j) = comb a r j) (hU : ∀ d j, U (ix2 d j) = a.fw (ix2 d j))
    (hu : ∀ j : Fin 768, u (ix2 0 j) = a.fb (ix1 j)) : G4 C U u = outArr a := by
  funext i
  obtain ⟨r, j, rfl⟩ : ∃ (r : Fin 2048) (j : Fin 768), i = ix2 r j := ⟨i 0, i 1, eq_ix2 i⟩
  unfold G4 outArr out
  simp only [hC, hU, hu]

end Cert.Spec

end
-- ==== Proof.KI.Val0Pay.lean ====
/-
  The three values the body of the spectral-filter launch stores, read entry by entry over the extended reals.

  With A the accumulator (2048 × 1024), L a block of the matrix (2048 × 512), R a block of its transpose
  (512 × 1024) and s a block of one signal (512 entries, as a column):
    the cleared accumulator          is 0 everywhere;
    the updated accumulator at (p,q) is A[p,q] + Σ_k L[p,k] · (R[k,q] · s[k])     (k over the 512 positions of the block);
    the normalised block at (0,p,q)  is keep (A[p,q]) (Σ_m A[m,q]²)               (m over the 2048 rows of column q).
  Every pointwise operation reads its operands at the same index; the column of signals is first stretched along the
  1024 columns; the column's squared length is one sum along the rows, stretched back along the rows.
-/
import proofs.«159438_j36850819399877_1_alg».proof.Proof.Gen.KernelIdeal.Skeleton
import proofs.«159438_j36850819399877_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.HandV.R0

open Cert.KernelIdeal Cert.KernelIdeal.Gen Idealize.ShloMosaic Idealize.ShloMosaic.ValueIdx

/-! ## The cleared accumulator -/

/-- The cleared accumulator is zero at every entry: the zero word denotes the real zero. -/
theorem pay1_apply (i : S2048x1024.Idx) : (k0_pay1 (F := Ideal)) i = 0 := by
  unfold k0_pay1
  rw [shapeCast_self]
  exact Ideal.ofBits_zero_f32

/-! ## The column sums -/

/-- A sum along the rows of a 2048 × 1024 array, read at column q: the sum over the 2048 rows of the entry in that
    column. -/
theorem colsum_apply (src : FVec Ideal S2048x1024 .f32) (hφ : FKind.Formats .f32)
    (hacc : (0x00000000#32 : BitVec 32) = 0x00000000#32) (q : Fin 1024) :
    multiReduction (F := Ideal) .add [0] S1024 src 0x00000000#32 reduces_S2048x1024_S1024 hφ hacc (ix1 q)
      = ∑ m : Fin 2048, src (ix2 m q) := by
  refine (Ideal.multiReduction_add_single src 0x00000000#32 reduces_S2048x1024_S1024 hφ hacc (ix1 q)).trans ?_
  show ∑ m : Fin 2048, src (reduces_S2048x1024_S1024.lift (ix1 q) m) = _
  refine Finset.sum_congr rfl fun m _ => congrArg src ?_
  exact funext fun a => Fin.ext (by match a with | ⟨0, _⟩ => rfl | ⟨1, _⟩ => rfl)

/-! ## The normalised block -/

/-- The normalised block at (0, p, q): the accumulator's entry divided by the larger of its column's length and the
    floor, kept where its absolute value exceeds the threshold. The column's squared length is the sum over the rows of
    the squared entries of column q. -/
theorem pay3_apply (v19 : Vec Ideal S2048x1024 .f32) (p : Fin 2048) (q : Fin 1024) :
    k0_pay3 v19 (ix3 (0 : Fin 1) p q)
      = Cert.Spec.keep (v19 (ix2 p q)) (∑ m : Fin 2048, v19 (ix2 m q) * v19 (ix2 m q)) := by
  unfold k0_pay3
  refine (shapeCast_ab_1ab_apply _ _ (0 : Fin 1) p q).trans ?_
  -- the pointwise operations at (p, q); the divisor is a row of 1024 entries stretched along the 2048 rows
  show Scalar.select (FloatOps.cmpf (F := Ideal) (φ := .f32) .ogt (FloatOps.absf (F := Ideal) (φ := .f32)
        (Ideal.div (v19 (ix2 p q)) (broadcastTo S2048x1024 _ broadcasts_S1x1024_S2048x1024 (ix2 p q)))) _)
      (Ideal.div (v19 (ix2 p q)) (broadcastTo S2048x1024 _ broadcasts_S1x1024_S2048x1024 (ix2 p q))) _ = _
  rw [broadcastTo_1b_ab_apply]
  -- that row at q: the larger of the root of the column sum and the floor
  show Scalar.select (FloatOps.cmpf (F := Ideal) (φ := .f32) .ogt (FloatOps.absf (F := Ideal) (φ := .f32)
        (Ideal.div (v19 (ix2 p q)) (max (Ideal.sqrt (shapeCast S1x1024 _ shapeCasts_S1024_S1x1024 (ix2 (0 : Fin 1) q))) Cert.Spec.nfloor))) Cert.Spec.thr)
      (Ideal.div (v19 (ix2 p q)) (max (Ideal.sqrt (shapeCast S1x1024 _ shapeCasts_S1024_S1x1024 (ix2 (0 : Fin 1) q))) Cert.Spec.nfloor)) Cert.Spec.zero = _
  rw [shapeCast_a_1a_apply, colsum_apply]
  rfl

/-! ## The block product -/

/-- The four coordinates of the two operands' indices in the block product: the left operand is read at (row of the
    result, contracted position), the right at (contracted position, column of the result). -/
theorem lhs_pay2_0 (i : S2048x1024.Idx) (q : dot_S2048x512_S512x1024_S2048x1024_1_0_0_1_n_n.contr.Idx) :
    (dot_S2048x512_S512x1024_S2048x1024_1_0_0_1_n_n.lhsIdx i q 0).val = (i 0).val := by
  unfold DotDims.lhsIdx
  rw [dif_neg (show ¬(0 : Fin S2048x512.rank) ∈ dot_S2048x512_S512x1024_S2048x1024_1_0_0_1_n_n.lhsBatch by decide), dif_pos (show (0 : Fin S2048x512.rank) ∈ dot_S2048x512_S512x1024_S2048x1024_1_0_0_1_n_n.lhsNonContracting by decide)]
  rfl
theorem lhs_pay2_1 (i : S2048x1024.Idx) (q : dot_S2048x512_S512x1024_S2048x1024_1_0_0_1_n_n.contr.Idx) :
    (dot_S2048x512_S512x1024_S2048x1024_1_0_0_1_n_n.lhsIdx i q 1).val = (q ⟨0, by decide⟩).val :=
  dot_S2048x512_S512x1024_S2048x1024_1_0_0_1_n_n.lhsIdx_val_of_single rfl i q
theorem rhs_pay2_0 (i : S2048x1024.Idx) (q : dot_S2048x512_S512x1024_S2048x1024_1_0_0_1_n_n.contr.Idx) :
    (dot_S2048x512_S512x1024_S2048x1024_1_0_0_1_n_n.rhsIdx i q 0).val = (q ⟨0, by decide⟩).val :=
  dot_S2048x512_S512x1024_S2048x1024_1_0_0_1_n_n.rhsIdx_val_of_single rfl i q
theorem rhs_pay2_1 (i : S2048x1024.Idx) (q : dot_S2048x512_S512x1024_S2048x1024_1_0_0_1_n_n.contr.Idx) :
    (dot_S2048x512_S512x1024_S2048x1024_1_0_0_1_n_n.rhsIdx i q 1).val = (i 1).val := by
  unfold DotDims.rhsIdx
  rw [dif_neg (show ¬(1 : Fin S512x1024.rank) ∈ dot_S2048x512_S512x1024_S2048x1024_1_0_0_1_n_n.rhsBatch by decide), dif_pos (show (1 : Fin S512x1024.rank) ∈ dot_S2048x512_S512x1024_S2048x1024_1_0_0_1_n_n.rhsNonContracting by decide)]
  rfl

/-- The product of a 2048 × 512 block and a 512 × 1024 block into a zero accumulator, at (p, q): the sum over the 512
    contracted positions of the products of the entries. -/
theorem blockdot_apply (l : FVec Ideal S2048x512 .f32) (r : FVec Ideal S512x1024 .f32) (p : Fin 2048) (q : Fin 1024) :
    matmul (F := Ideal) dot_S2048x512_S512x1024_S2048x1024_1_0_0_1_n_n none l r (constant (F := Ideal) S2048x1024 .f32 0x00000000#32) (ix2 p q)
      = ∑ k : Fin 512, l (ix2 p k) * r (ix2 k q) := by
  simp only [matmul]
  rw [Ideal.matmul_constant_zero_apply, ← Equiv.sum_comp (ValueIdx.contrEquiv1 dot_S2048x512_S512x1024_S2048x1024_1_0_0_1_n_n 512 rfl rfl).symm]
  refine Finset.sum_congr rfl fun k _ => ?_
  have hk := ValueIdx.contrEquiv1_symm_val dot_S2048x512_S512x1024_S2048x1024_1_0_0_1_n_n 512 rfl rfl k
  have el : dot_S2048x512_S512x1024_S2048x1024_1_0_0_1_n_n.lhsIdx (ix2 p q) ((ValueIdx.contrEquiv1 dot_S2048x512_S512x1024_S2048x1024_1_0_0_1_n_n 512 rfl rfl).symm k) = ix2 p k := funext fun a => Fin.ext (by
    match a with
    | ⟨0, _⟩ => exact lhs_pay2_0 _ _
    | ⟨1, _⟩ => exact (lhs_pay2_1 _ _).trans hk)
  have er : dot_S2048x512_S512x1024_S2048x1024_1_0_0_1_n_n.rhsIdx (ix2 p q) ((ValueIdx.contrEquiv1 dot_S2048x512_S512x1024_S2048x1024_1_0_0_1_n_n 512 rfl rfl).symm k) = ix2 k q := funext fun a => Fin.ext (by
    match a with
    | ⟨0, _⟩ => exact (rhs_pay2_0 _ _).trans hk
    | ⟨1, _⟩ => exact rhs_pay2_1 _ _)
  rw [el, er]

/-! ## The updated accumulator -/

/-- The updated accumulator at (p, q): what it held plus the sum over the block's 512 positions k of the matrix
    block's entry (p, k) times the transpose block's entry (k, q) scaled by the signal's entry k. -/
theorem pay2_apply (v3 : Vec Ideal S512x1024 .f32) (v5 : Vec Ideal S1x512x1 .f32) (v9 : Vec Ideal S2048x1024 .f32)
    (v10 : Vec Ideal S2048x512 .f32) (p : Fin 2048) (q : Fin 1024) :
    k0_pay2 v3 v5 v9 v10 (ix2 p q)
      = v9 (ix2 p q) + ∑ k : Fin 512, v10 (ix2 p k) * (v3 (ix2 k q) * v5 (ix3 (0 : Fin 1) k (0 : Fin 1))) := by
  unfold k0_pay2
  rw [shapeCast_self]
  refine (addf_apply _ _ _).trans ?_
  refine congrArg (v9 (ix2 p q) + ·) ?_
  refine (blockdot_apply _ _ p q).trans ?_
  refine Finset.sum_congr rfl fun k _ => congrArg (v10 (ix2 p k) * ·) ?_
  refine (mulf_apply _ _ _).trans ?_
  rw [shapeCast_self]
  refine congrArg (v3 (ix2 k q) * ·) ?_
  -- the signal column stretched along the columns, read at (k, q), is the column's entry k
  refine (broadcastTo_apply _ broadcasts_S512x1_S512x1024 (ix2 k q) (ix2 k (0 : Fin 1)) fun a => ?_).trans ?_
  · match a with
    | ⟨0, _⟩ => rfl
    | ⟨1, _⟩ => rfl
  · exact shapeCast_1ab_ab_apply v5 _ k (0 : Fin 1)

end Cert.KernelIdeal.HandV.R0

end
-- ==== Proof.LibTileSums.lean ====
import Idealize.ShloMosaic.PureOps.Ideal
import Mathlib.Logic.Equiv.Fin.Basic
import Mathlib.Data.Fintype.BigOperators
import Mathlib.Algebra.BigOperators.Fin

/-!
Sums over the extended reals, reindexed.

Three facts about finite sums in a commutative additive monoid with a multiplication that has a
zero and a one, stated at the extended reals and over plain `Fin`-indexed functions:

* a sum over `A * B` positions is the sum over `A` tiles of the sums over the `B` positions of each
  tile (`sum_tiles`);
* an accumulator that starts from `0 + s 0` and adds `s (j + 1)` at each later step holds the sum of
  the terms seen so far (`fold_eq_sum` and its variants);
* a sum weighted by the indicator of one position picks out that position's term, or is `0` when
  the position lies outside the range (`onehot_sum`, `onehot_sum'`).

Nothing here asks a term to be finite: only associativity and commutativity of `+`, `0 + x = x`,
`0 * x = 0` and `1 * x = x` are used.
-/

namespace Cert.LibTileSums

open scoped BigOperators

/-! ### Tiles -/

/-- Position `r` of tile `i` lies below `A * B`. -/
theorem tile_lt {A B n : ℕ} (h : A * B = n) (i : Fin A) (r : Fin B) : i.val * B + r.val < n := by
  subst h
  calc i.val * B + r.val < i.val * B + B := Nat.add_lt_add_left r.isLt _
    _ = (i.val + 1) * B := (Nat.succ_mul _ _).symm
    _ ≤ A * B := Nat.mul_le_mul_right _ i.isLt

/-- A sum over `n = A * B` positions, tile by tile: tile `i` holds the positions `i * B + r`. -/
theorem sum_tiles {A B n : ℕ} (h : A * B = n) (f : Fin n → EReal) :
    ∑ i : Fin A, ∑ r : Fin B, f ⟨i.val * B + r.val, tile_lt h i r⟩ = ∑ k : Fin n, f k := by
  subst h
  rw [← Fintype.sum_prod_type' (f := fun (i : Fin A) (r : Fin B) =>
        f ⟨i.val * B + r.val, tile_lt rfl i r⟩),
    ← Equiv.sum_comp (finProdFinEquiv (m := A) (n := B)) f]
  refine Finset.sum_congr rfl fun p _ => congrArg f (Fin.ext ?_)
  show p.1.val * B + p.2.val = p.2.val + B * p.1.val
  rw [Nat.mul_comm, Nat.add_comm]

/-- The same with the tile sums named: if `g i` is the sum over tile `i`, the sum of the `g i` is the
    whole sum. -/
theorem sum_tiles_of {A B n : ℕ} (h : A * B = n) (f : Fin n → EReal) (g : Fin A → EReal)
    (hg : ∀ i : Fin A, g i = ∑ r : Fin B, f ⟨i.val * B + r.val, tile_lt h i r⟩) :
    ∑ i : Fin A, g i = ∑ k : Fin n, f k := by
  rw [← sum_tiles h f]
  exact Finset.sum_congr rfl fun i _ => hg i

/-! ### The running sum -/

/-- `0 + x = x`. -/
theorem zero_add_eq (x : EReal) : 0 + x = x := zero_add x

/-- The accumulator by recursion: `0 + s 0` at the first step, the previous value plus the next term
    after it. -/
noncomputable def accum (s : ℕ → EReal) : ℕ → EReal
  | 0 => 0 + s 0
  | j + 1 => accum s j + s (j + 1)

@[simp] theorem accum_zero (s : ℕ → EReal) : accum s 0 = 0 + s 0 := rfl

@[simp] theorem accum_succ (s : ℕ → EReal) (j : ℕ) : accum s (j + 1) = accum s j + s (j + 1) := rfl

/-- The accumulator after step `j` is the sum of the terms `0 … j`. -/
theorem accum_eq_sum (s : ℕ → EReal) (j : ℕ) : accum s j = ∑ k : Fin (j + 1), s k.val := by
  induction j with
  | zero => simp
  | succ j ih =>
    rw [accum_succ, ih, Fin.sum_univ_castSucc (f := fun k : Fin (j + 1 + 1) => s k.val)]
    rfl

/-- Any family that obeys the recursion up to step `m` is the running sum there: if
    `acc 0 = 0 + s 0` and `acc (j + 1) = acc j + s (j + 1)` for `j + 1 < m`, then
    `acc j = ∑ k : Fin (j + 1), s k` for `j < m`. -/
theorem fold_eq_sum (s acc : ℕ → EReal) (m : ℕ) (h0 : acc 0 = 0 + s 0)
    (hs : ∀ j, j + 1 < m → acc (j + 1) = acc j + s (j + 1)) :
    ∀ j, j < m → acc j = ∑ k : Fin (j + 1), s k.val := by
  intro j
  induction j with
  | zero => intro _; rw [h0]; simp
  | succ j ih =>
    intro hj
    rw [hs j hj, ih (Nat.lt_of_succ_lt hj),
      Fin.sum_univ_castSucc (f := fun k : Fin (j + 1 + 1) => s k.val)]
    rfl

/-- The last step of `fold_eq_sum`: after `m + 1` steps the accumulator holds the whole sum. -/
theorem fold_last (s acc : ℕ → EReal) (m : ℕ) (h0 : acc 0 = 0 + s 0)
    (hs : ∀ j, j + 1 < m + 1 → acc (j + 1) = acc j + s (j + 1)) :
    acc m = ∑ k : Fin (m + 1), s k.val :=
  fold_eq_sum s acc (m + 1) h0 hs m (Nat.lt_succ_self m)

/-- The same over `Fin`-indexed steps and terms. -/
theorem fold_fin_eq_sum {m : ℕ} (s acc : Fin (m + 1) → EReal) (h0 : acc 0 = 0 + s 0)
    (hs : ∀ j : Fin m, acc j.succ = acc j.castSucc + s j.succ) :
    acc (Fin.last m) = ∑ k : Fin (m + 1), s k := by
  let s' : ℕ → EReal := fun k => if hk : k < m + 1 then s ⟨k, hk⟩ else 0
  let acc' : ℕ → EReal := fun k => if hk : k < m + 1 then acc ⟨k, hk⟩ else 0
  have h0' : acc' 0 = 0 + s' 0 := by
    simp only [acc', s', Nat.zero_lt_succ, dite_true]
    exact h0
  have hs' : ∀ j, j + 1 < m + 1 → acc' (j + 1) = acc' j + s' (j + 1) := by
    intro j hj
    have hj' : j < m + 1 := Nat.lt_of_succ_lt hj
    simp only [acc', s', hj, hj', dite_true]
    exact hs ⟨j, Nat.lt_of_succ_lt_succ hj⟩
  have h := fold_last s' acc' m h0' hs'
  simp only [acc', s', Nat.lt_succ_self, dite_true] at h
  rw [show Fin.last m = ⟨m, Nat.lt_succ_self m⟩ from rfl, h]
  exact Finset.sum_congr rfl fun k _ => by simp [k.isLt]

/-! ### One position picked out -/

/-- A 32-bit word equals the word of a number below `2 ^ 32` exactly when its value is that number. -/
theorem eq_ofNat_iff (w : BitVec 32) {k : ℕ} (hk : k < 2 ^ 32) :
    w = BitVec.ofNat 32 k ↔ w.toNat = k := by
  constructor
  · intro h; rw [h, BitVec.toNat_ofNat, Nat.mod_eq_of_lt hk]
  · intro h; apply BitVec.eq_of_toNat_eq; rw [h, BitVec.toNat_ofNat, Nat.mod_eq_of_lt hk]

/-- The indicator-weighted sum with the term kept or replaced by `0`: it is the term at the word's
    value when that lies in range, and `0` otherwise. -/
theorem onehot_sum' {n : ℕ} (hn : n ≤ 2 ^ 32) (w : BitVec 32) (h : Fin n → EReal) :
    ∑ k : Fin n, (if w = BitVec.ofNat 32 k.val then h k else 0)
      = if hw : w.toNat < n then h ⟨w.toNat, hw⟩ else 0 := by
  have key : ∀ k : Fin n, w = BitVec.ofNat 32 k.val ↔ w.toNat = k.val := fun k =>
    eq_ofNat_iff w (Nat.lt_of_lt_of_le k.isLt hn)
  by_cases hw : w.toNat < n
  · rw [dif_pos hw, Finset.sum_eq_single (⟨w.toNat, hw⟩ : Fin n)]
    · rw [if_pos ((key _).2 rfl)]
    · intro k _ hk
      rw [if_neg]
      intro hwk
      exact hk (Fin.ext ((key k).1 hwk).symm)
    · intro hmem; exact absurd (Finset.mem_univ _) hmem
  · rw [dif_neg hw]
    refine Finset.sum_eq_zero fun k _ => ?_
    rw [if_neg]
    intro hwk
    exact hw (((key k).1 hwk) ▸ k.isLt)

/-- The indicator-weighted sum with the indicator as a factor `1` or `0`. -/
theorem onehot_sum {n : ℕ} (hn : n ≤ 2 ^ 32) (w : BitVec 32) (h : Fin n → EReal) :
    ∑ k : Fin n, (if w = BitVec.ofNat 32 k.val then (1 : EReal) else 0) * h k
      = if hw : w.toNat < n then h ⟨w.toNat, hw⟩ else 0 := by
  rw [← onehot_sum' hn w h]
  refine Finset.sum_congr rfl fun k _ => ?_
  by_cases hk : w = BitVec.ofNat 32 k.val
  · rw [if_pos hk, if_pos hk, one_mul]
  · rw [if_neg hk, if_neg hk, zero_mul]

/-- The factor on the right. -/
theorem onehot_sum_right {n : ℕ} (hn : n ≤ 2 ^ 32) (w : BitVec 32) (h : Fin n → EReal) :
    ∑ k : Fin n, h k * (if w = BitVec.ofNat 32 k.val then (1 : EReal) else 0)
      = if hw : w.toNat < n then h ⟨w.toNat, hw⟩ else 0 := by
  rw [← onehot_sum hn w h]
  exact Finset.sum_congr rfl fun k _ => mul_comm _ _

end Cert.LibTileSums
-- ==== Proof.KI.Val0.lean ====
/-
  The value of the spectral-filter launch over the extended reals: after its run the result array is, index by index,
  G0 of the matrix, its transpose and the signals as the region finds them.

  The grid has 4 × 2 × 4 points; point t = 8·σ + 4·h + j works on scale σ, on column half h (columns 1024·h … 1024·h + 1023)
  and on tile j of the contracted axis (positions 512·j … 512·j + 511). Along the four points of a run (σ, h) the
  accumulator at (p, q) is cleared and then takes, tile by tile,
      Σ_{k < 512}  V[p, 512·j + k] · (Vt[512·j + k, 1024·h + q] · S[σ, 512·j + k, 0]),
  so after the run's last point it holds the whole sum over the 2048 positions: the unnormalised filter
  f0 σ p (1024·h + q). That last point normalises each column of the accumulator and writes the block back at
  (σ, all rows, column half h); the eight such blocks tile the result, so every index (σ, m, n) is written by the
  last point of run (σ, n / 1024), and what it holds there is keep (f0 σ m n) (Σ_m' (f0 σ m' n)²).
-/
import proofs.«159438_j36850819399877_1_alg».proof.Proof.KI.Reg0Defs
import proofs.«159438_j36850819399877_1_alg».proof.Proof.KI.Val0Pay
import proofs.«159438_j36850819399877_1_alg».proof.Proof.Stages
import proofs.«159438_j36850819399877_1_alg».proof.Proof.LibTileSums
import Idealize.ShloMosaic.Lib.Pipeline.Value
import Idealize.ShloMosaic.Lib.ValueIdx
import Idealize.ShloMosaic.PureOps.Ideal.Laws

noncomputable section

open scoped BigOperators

namespace Cert.KernelIdeal.HandV

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

namespace R0

variable (V : (c : Dev nD) → (b : Ref sig .tc) → Buf (Elt Ideal) ((c : Thread nD τ).loc b))

/-! ## The arrays, the blocks, and where the blocks sit -/

/-- The matrix, its transpose and the signals as the region finds them, and the three input blocks at a point, at
    their literal types. -/
abbrev mat (c : Dev nD) : Vec Ideal S2048x2048 .f32 := V c main_arg1
abbrev matT (c : Dev nD) : Vec Ideal S2048x2048 .f32 := V c main_v3
abbrev sgn (c : Dev nD) : Vec Ideal S4x2048x1 .f32 := V c main_v2
abbrev lblk (c : Dev nD) (t : Fin cfg0.N) : Vec Ideal S2048x512 .f32 := iblk0 V c 0 t
abbrev rblk (c : Dev nD) (t : Fin cfg0.N) : Vec Ideal S512x1024 .f32 := iblk0 V c 1 t
abbrev sblk (c : Dev nD) (t : Fin cfg0.N) : Vec Ideal S1x512x1 .f32 := iblk0 V c 2 t

/-- The block indices over the grid: point t = 8·scale + 4·half + step reads the matrix at column block step, the
    transpose at (row block step, column block half), the signals at (scale, row block step), and writes the result at
    (scale, column block half). -/
theorem idx_facts : ∀ t : Fin cfg0.N,
    win0_0.index t (0 : Fin 2) = 0 ∧ win0_0.index t (1 : Fin 2) = t.val % 4
  ∧ win0_1.index t (0 : Fin 2) = t.val % 4 ∧ win0_1.index t (1 : Fin 2) = (t.val / 4) % 2
  ∧ win0_2.index t (0 : Fin 3) = t.val / 8 ∧ win0_2.index t (1 : Fin 3) = t.val % 4 ∧ win0_2.index t (2 : Fin 3) = 0
  ∧ win0_3.index t (0 : Fin 3) = t.val / 8 ∧ win0_3.index t (1 : Fin 3) = 0 ∧ win0_3.index t (2 : Fin 3) = (t.val / 4) % 2 :=
  (by decide +kernel : ∀ t : Fin grid0.N, _)

theorem lblk_apply (c : Dev nD) (t : Fin cfg0.N) (p : Fin 2048) (k : Fin 512) (κ : Fin 2048)
    (hκ : κ.val = (t.val % 4) * 512 + k.val) :
    lblk V c t (ix2 p k) = mat V c (ix2 p κ) := by
  obtain ⟨e0, e1, -⟩ := idx_facts t
  show V c main_arg1 (((cfg0.win 0).blk t).view.emb (ix2 p k)) = V c main_arg1 (ix2 p κ)
  refine congrArg (V c main_arg1) (funext fun a => Fin.ext ?_)
  match a with
  | ⟨0, _⟩ => show win0_0.index t (0 : Fin 2) * 2048 + 1 * p.val = p.val; omega
  | ⟨1, _⟩ => show win0_0.index t (1 : Fin 2) * 512 + 1 * k.val = κ.val; omega

theorem rblk_apply (c : Dev nD) (t : Fin cfg0.N) (k : Fin 512) (q : Fin 1024) (κ ν : Fin 2048)
    (hκ : κ.val = (t.val % 4) * 512 + k.val) (hν : ν.val = ((t.val / 4) % 2) * 1024 + q.val) :
    rblk V c t (ix2 k q) = matT V c (ix2 κ ν) := by
  obtain ⟨-, -, e2, e3, -⟩ := idx_facts t
  show V c main_v3 (((cfg0.win 1).blk t).view.emb (ix2 k q)) = V c main_v3 (ix2 κ ν)
  refine congrArg (V c main_v3) (funext fun a => Fin.ext ?_)
  match a with
  | ⟨0, _⟩ => show win0_1.index t (0 : Fin 2) * 512 + 1 * k.val = κ.val; omega
  | ⟨1, _⟩ => show win0_1.index t (1 : Fin 2) * 1024 + 1 * q.val = ν.val; omega

theorem sblk_apply (c : Dev nD) (t : Fin cfg0.N) (k : Fin 512) (σ : Fin 4) (κ : Fin 2048)
    (hσ : σ.val = t.val / 8) (hκ : κ.val = (t.val % 4) * 512 + k.val) :
    sblk V c t (ix3 (0 : Fin 1) k (0 : Fin 1)) = sgn V c (ix3 σ κ (0 : Fin 1)) := by
  obtain ⟨-, -, -, -, e4, e5, e6, -⟩ := idx_facts t
  show V c main_v2 (((cfg0.win 2).blk t).view.emb (ix3 (0 : Fin 1) k (0 : Fin 1))) = V c main_v2 (ix3 σ κ (0 : Fin 1))
  refine congrArg (V c main_v2) (funext fun a => Fin.ext ?_)
  match a with
  | ⟨0, _⟩ => show win0_2.index t (0 : Fin 3) * 1 + 1 * 0 = σ.val; omega
  | ⟨1, _⟩ => show win0_2.index t (1 : Fin 3) * 512 + 1 * k.val = κ.val; omega
  | ⟨2, _⟩ => show win0_2.index t (2 : Fin 3) * 1 + 1 * 0 = 0; omega

/-- An index of the result array lies in point t's block iff each coordinate lies in the block's range on its axis. -/
theorem mem_blk (t : Fin cfg0.N) (i : S4x2048x2048.Idx) :
    i ∈ ((cfg0.win 3).blk t).view.set ↔ ∀ a : Fin 3, win0_3.index t a * S1x2048x1024.size a ≤ (i a).val ∧ (i a).val < win0_3.index t a * S1x2048x1024.size a + S1x2048x1024.size a := by
  show i ∈ ((View.whole main_v4).slice (win0_3.rect t)).set ↔ _
  rw [View.set_slice_whole, Rect.mem_set_unit]
  exact Iff.rfl

/-- Every index (scale, row, column) of the result lies in the block written back at the last point of the run of
    (scale, column half): point 8·scale + 4·(column / 1024) + 3. -/
theorem cover (i : S4x2048x2048.Idx) :
    ∃ t : Fin cfg0.N, (cfg0.win 3).flush t = true ∧ i ∈ ((cfg0.win 3).blk t).view.set := by
  have h0 : (i 0).val < 4 := (i 0).isLt
  have h1 : (i 1).val < 2048 := (i 1).isLt
  have h2 : (i 2).val < 2048 := (i 2).isLt
  have hN : cfg0.N = 32 := N_0
  refine ⟨⟨8 * (i 0).val + 4 * ((i 2).val / 1024) + 3, by rw [hN]; omega⟩, ?_, ?_⟩
  · rw [flush0_3]; show (8 * (i 0).val + 4 * ((i 2).val / 1024) + 3) % 4 = 3; omega
  · rw [mem_blk]
    obtain ⟨-, -, -, -, -, -, -, e7, e8, e9⟩ := idx_facts ⟨8 * (i 0).val + 4 * ((i 2).val / 1024) + 3, by rw [hN]; omega⟩
    intro a
    match a with
    | ⟨0, _⟩ =>
      show win0_3.index _ (0 : Fin 3) * 1 ≤ (i 0).val ∧ (i 0).val < win0_3.index _ (0 : Fin 3) * 1 + 1
      rw [e7]; show (8 * (i 0).val + 4 * ((i 2).val / 1024) + 3) / 8 * 1 ≤ (i 0).val ∧ (i 0).val < (8 * (i 0).val + 4 * ((i 2).val / 1024) + 3) / 8 * 1 + 1
      omega
    | ⟨1, _⟩ =>
      show win0_3.index _ (1 : Fin 3) * 2048 ≤ (i 1).val ∧ (i 1).val < win0_3.index _ (1 : Fin 3) * 2048 + 2048
      rw [e8]; omega
    | ⟨2, _⟩ =>
      show win0_3.index _ (2 : Fin 3) * 1024 ≤ (i 2).val ∧ (i 2).val < win0_3.index _ (2 : Fin 3) * 1024 + 1024
      rw [e9]; show (8 * (i 0).val + 4 * ((i 2).val / 1024) + 3) / 4 % 2 * 1024 ≤ (i 2).val ∧ (i 2).val < (8 * (i 0).val + 4 * ((i 2).val / 1024) + 3) / 4 % 2 * 1024 + 1024
      omega

/-! ## The accumulator along a run of four points -/

/-- One term of the filter's sum: contracted position κ, for scale σ, row p and column ν. -/
def term (c : Dev nD) (σ : Fin 4) (p ν κ : Fin 2048) : EReal :=
  mat V c (ix2 p κ) * (matT V c (ix2 κ ν) * sgn V c (ix3 σ κ (0 : Fin 1)))

/-- The accumulator after position n, with no bound to carry: zero past the grid. -/
def accN (c : Dev nD) (n : ℕ) : Vec Ideal S2048x1024 .f32 :=
  if h : n < cfg0.N then accAt0 V c n h else fun _ => 0

theorem accN_eq (c : Dev nD) (n : ℕ) (h : n < cfg0.N) : accN V c n = accAt0 V c n h := dif_pos h

/-- The update at point t, at (p, q): what was there plus tile j = t mod 4 of the filter's sum. -/
theorem upd_apply (c : Dev nD) (t : Fin cfg0.N) (A : Vec Ideal S2048x1024 .f32) (p : Fin 2048) (q : Fin 1024)
    (σ : Fin 4) (ν : Fin 2048) (j : Fin 4)
    (hσ : σ.val = t.val / 8) (hν : ν.val = ((t.val / 4) % 2) * 1024 + q.val) (hj : j.val = t.val % 4) :
    k0_pay2 (rblk V c t) (sblk V c t) A (lblk V c t) (ix2 p q)
      = A (ix2 p q) + ∑ k : Fin 512, term V c σ p ν ⟨j.val * 512 + k.val, Cert.LibTileSums.tile_lt (by decide : 4 * 512 = 2048) j k⟩ := by
  rw [pay2_apply]
  refine congrArg (A (ix2 p q) + ·) (Finset.sum_congr rfl fun k _ => ?_)
  rw [lblk_apply V c t p k ⟨j.val * 512 + k.val, Cert.LibTileSums.tile_lt (by decide : 4 * 512 = 2048) j k⟩ (by show j.val * 512 + k.val = _; omega),
    rblk_apply V c t k q ⟨j.val * 512 + k.val, Cert.LibTileSums.tile_lt (by decide : 4 * 512 = 2048) j k⟩ ν (by show j.val * 512 + k.val = _; omega) hν,
    sblk_apply V c t k σ ⟨j.val * 512 + k.val, Cert.LibTileSums.tile_lt (by decide : 4 * 512 = 2048) j k⟩ hσ (by show j.val * 512 + k.val = _; omega)]
  rfl

/-- At a point ≡ 0 (mod 4) the accumulator holds zero plus the first tile. -/
theorem accN_reset (c : Dev nD) (n : ℕ) (hn : n < cfg0.N) (h4 : n % 4 = 0) (p : Fin 2048) (q : Fin 1024)
    (σ : Fin 4) (ν : Fin 2048) (hσ : σ.val = n / 8) (hν : ν.val = ((n / 4) % 2) * 1024 + q.val) :
    accN V c n (ix2 p q)
      = 0 + ∑ k : Fin 512, term V c σ p ν ⟨(0 : Fin 4).val * 512 + k.val, Cert.LibTileSums.tile_lt (by decide : 4 * 512 = 2048) 0 k⟩ := by
  rw [accN_eq V c n hn]
  refine (congrFun (accAt0_reset V c ⟨n, hn⟩ h4) (ix2 p q)).trans ?_
  refine (upd_apply V c ⟨n, hn⟩ (k0_pay1 (F := Ideal)) p q σ ν 0 hσ hν (by show 0 = n % 4; omega)).trans ?_
  rw [pay1_apply]

/-- At any other point it holds what the point before left plus tile j = (n + 1) mod 4. -/
theorem accN_step (c : Dev nD) (n : ℕ) (hn : n + 1 < cfg0.N) (h4 : (n + 1) % 4 ≠ 0) (p : Fin 2048) (q : Fin 1024)
    (σ : Fin 4) (ν : Fin 2048) (j : Fin 4) (hσ : σ.val = (n + 1) / 8) (hν : ν.val = (((n + 1) / 4) % 2) * 1024 + q.val)
    (hj : j.val = (n + 1) % 4) :
    accN V c (n + 1) (ix2 p q)
      = accN V c n (ix2 p q) + ∑ k : Fin 512, term V c σ p ν ⟨j.val * 512 + k.val, Cert.LibTileSums.tile_lt (by decide : 4 * 512 = 2048) j k⟩ := by
  rw [accN_eq V c (n + 1) hn, accN_eq V c n (Nat.lt_of_succ_lt hn)]
  refine (congrFun (accAt0_step V c ⟨n + 1, hn⟩ h4) (ix2 p q)).trans ?_
  exact upd_apply V c ⟨n + 1, hn⟩ (accAt0 V c n (Nat.lt_of_succ_lt hn)) p q σ ν j hσ hν hj

/-- After the four points of run r = 2·scale + half the accumulator at (p, q) is the whole filter sum: the four tiles
    of 512 positions make up the 2048 positions. -/
theorem run_sum (c : Dev nD) (r : Fin 8) (p : Fin 2048) (q : Fin 1024) (σ : Fin 4) (ν : Fin 2048)
    (hσ : σ.val = r.val / 2) (hν : ν.val = (r.val % 2) * 1024 + q.val) :
    accN V c (4 * r.val + 3) (ix2 p q) = ∑ κ : Fin 2048, term V c σ p ν κ := by
  have hN : cfg0.N = 32 := N_0
  have hr := r.isLt
  have h0 : accN V c (4 * r.val + (0 : Fin 4).val) (ix2 p q)
      = 0 + ∑ k : Fin 512, term V c σ p ν ⟨(0 : Fin 4).val * 512 + k.val, Cert.LibTileSums.tile_lt (by decide : 4 * 512 = 2048) 0 k⟩ :=
    accN_reset V c (4 * r.val) (by rw [hN]; omega) (by omega) p q σ ν (by omega) (by omega)
  have hs : ∀ j : Fin 3, accN V c (4 * r.val + j.succ.val) (ix2 p q)
      = accN V c (4 * r.val + j.castSucc.val) (ix2 p q)
        + ∑ k : Fin 512, term V c σ p ν ⟨j.succ.val * 512 + k.val, Cert.LibTileSums.tile_lt (by decide : 4 * 512 = 2048) j.succ k⟩ := fun j => by
    have hj := j.isLt
    show accN V c (4 * r.val + j.val + 1) (ix2 p q) = accN V c (4 * r.val + j.val) (ix2 p q) + _
    exact accN_step V c (4 * r.val + j.val) (by rw [hN]; omega) (by omega) p q σ ν j.succ (by omega) (by omega)
      (by rw [Fin.val_succ]; omega)
  have h := Cert.LibTileSums.fold_fin_eq_sum
    (fun j : Fin 4 => ∑ k : Fin 512, term V c σ p ν ⟨j.val * 512 + k.val, Cert.LibTileSums.tile_lt (by decide : 4 * 512 = 2048) j k⟩)
    (fun j : Fin 4 => accN V c (4 * r.val + j.val) (ix2 p q)) h0 hs
  exact h.trans (Cert.LibTileSums.sum_tiles_of (by decide : 4 * 512 = 2048) (term V c σ p ν) _ fun i => rfl)

/-- So at the last point of a run the accumulator holds the unnormalised filter of the run's scale, on the run's half
    of the columns. -/
theorem acc_last (c : Dev nD) (t : Fin cfg0.N) (h3 : t.val % 4 = 3) (m : Fin 2048) (q : Fin 1024) (σ : Fin 4) (ν : Fin 2048)
    (hσ : σ.val = t.val / 8) (hν : ν.val = ((t.val / 4) % 2) * 1024 + q.val) :
    accAt0 V c t.val t.isLt (ix2 m q) = Cert.Spec.f0 (V c main_arg1) (V c main_v3) (V c main_v2) σ m ν := by
  have hN : cfg0.N = 32 := N_0
  have ht := t.isLt
  rw [← accN_eq V c t.val t.isLt]
  have e : t.val = 4 * (⟨t.val / 4, by omega⟩ : Fin 8).val + 3 := by show t.val = 4 * (t.val / 4) + 3; omega
  refine (congrArg (fun n => accN V c n (ix2 m q)) e).trans ?_
  refine (run_sum V c ⟨t.val / 4, by omega⟩ m q σ ν (by show σ.val = t.val / 4 / 2; omega) (by show ν.val = t.val / 4 % 2 * 1024 + q.val; omega)).trans ?_
  unfold Cert.Spec.f0 term
  exact Finset.sum_congr rfl fun κ _ => congrArg (_ * ·) (mul_comm _ _)

/-! ## What a point writes back, and the result array -/

/-- Where an entry of the result block at point t sits in the result array, for any index of the block. -/
theorem oblk_emb (t : Fin cfg0.N) (y : S1x2048x1024.Idx) (p : Fin 2048) (q : Fin 1024) (σ : Fin 4) (ν : Fin 2048)
    (hp : (y 1).val = p.val) (hq : (y 2).val = q.val)
    (hσ : σ.val = t.val / 8) (hν : ν.val = ((t.val / 4) % 2) * 1024 + q.val) :
    ((cfg0.win 3).blk t).view.emb y = ix3 σ p ν := by
  obtain ⟨-, -, -, -, -, -, -, e7, e8, e9⟩ := idx_facts t
  have hy0 : (y 0).val < 1 := (y 0).isLt
  refine funext fun a => Fin.ext ?_
  match a with
  | ⟨0, _⟩ => show win0_3.index t (0 : Fin 3) * 1 + 1 * (y 0).val = σ.val; omega
  | ⟨1, _⟩ => show win0_3.index t (1 : Fin 3) * 2048 + 1 * (y 1).val = p.val; omega
  | ⟨2, _⟩ => show win0_3.index t (2 : Fin 3) * 1024 + 1 * (y 2).val = ν.val; omega

/-- What a point ≡ 3 (mod 4) writes back is its block of the launch's whole-array result. -/
theorem flushed_eq (c : Dev nD) (t : Fin cfg0.N) (hf : (cfg0.win 3).flush t = true) :
    (dat0 V c).flushed 3 t
      = ((cfg0.win 3).blk t).view.read (Elt Ideal) (Cert.Spec.G0 (V c main_arg1) (V c main_v3) (V c main_v2)) := by
  have h3 : t.val % 4 = 3 := (flush0_3 t).1 hf
  have hN : cfg0.N = 32 := N_0
  have ht := t.isLt
  show (cfg0.win 3).cut (grid0.coords t) ((dat0 V c).after 3 t) = _
  rw [after0_3]
  funext y
  have hy0 : (y 0).val < 1 := (y 0).isLt
  have hy1 : (y 1).val < 2048 := (y 1).isLt
  have hy2 : (y 2).val < 1024 := (y 2).isLt
  have e1 : (cfg0.win 3).xinj (grid0.coords t) y = ix3 (0 : Fin 1) (⟨(y 1).val, hy1⟩ : Fin 2048) (⟨(y 2).val, hy2⟩ : Fin 1024) :=
    funext fun a => Fin.ext (by
      match a with
      | ⟨0, _⟩ => show (y 0).val = 0; omega
      | ⟨1, _⟩ => rfl
      | ⟨2, _⟩ => rfl)
  have e2 := oblk_emb t y ⟨(y 1).val, hy1⟩ ⟨(y 2).val, hy2⟩ ⟨t.val / 8, by omega⟩
    ⟨((t.val / 4) % 2) * 1024 + (y 2).val, by omega⟩ rfl rfl rfl rfl
  show outAt0 V c t.val t.isLt ((cfg0.win 3).xinj (grid0.coords t) y)
    = Cert.Spec.G0 (V c main_arg1) (V c main_v3) (V c main_v2) (((cfg0.win 3).blk t).view.emb y)
  refine ((congrArg (outAt0 V c t.val t.isLt) e1).trans ?_).trans
    (congrArg (Cert.Spec.G0 (V c main_arg1) (V c main_v3) (V c main_v2)) e2.symm)
  unfold outAt0
  refine (pay3_apply _ _ _).trans ?_
  have hA := fun m : Fin 2048 => acc_last V c t h3 m ⟨(y 2).val, hy2⟩ ⟨t.val / 8, by omega⟩
    ⟨((t.val / 4) % 2) * 1024 + (y 2).val, by omega⟩ rfl rfl
  rw [hA ⟨(y 1).val, hy1⟩, Finset.sum_congr rfl fun m _ => by rw [hA m]]
  rfl

end R0

/-- The result array of the spectral-filter launch after its run is the launch's whole-array function of the matrix,
    its transpose and the signals as the region finds them: every index lies in a block written back at the last point of
    a run, and that block is the function's. -/
theorem final0 (V : (c : Dev nD) → (b : Ref sig .tc) → Buf (Elt Ideal) ((c : Thread nD τ).loc b)) (c : Dev nD) :
    (dat0 (F := Ideal) V c).arrAt 3 cfg0.N = Cert.Spec.G0 (V c main_arg1) (V c main_v3) (V c main_v2) :=
  (dat0 V c).arrAt_eq_of_cover 3 _ (fun t hf => R0.flushed_eq V c t hf) R0.cover

end Cert.KernelIdeal.HandV

end
-- ==== Proof.KI.Val1.lean ====
import proofs.«159438_j36850819399877_1_alg».proof.Proof.KI.Reg1
import proofs.«159438_j36850819399877_1_alg».proof.Proof.Spec
import proofs.«159438_j36850819399877_1_alg».proof.Proof.Stages
import Idealize.ShloMosaic.Lib.Pipeline.Value
import Idealize.ShloMosaic.Lib.ValueIdx
import Idealize.ShloMosaic.Lib.ValueLayout
import Idealize.ShloMosaic.PureOps.Ideal.Laws

/-! # Region 1 at the exact (extended-real) instance: the result array is `G1` of the two input arrays

The region multiplies, for each of four matrices `t`, the 2048 × 768 array `X` by the 768 × 192 matrix `W[t]`, one
512-row block of `X` per grid point: the body leaves in the (1, 512, 192) result block the products
`∑_d x0[p, d] · x1[0, d, q]` of the staged row block `x0` and the staged matrix `x1` (the change of float format and
the re-shapings are the identity on values, and the product accumulates into zero). Read through the blocks'
places in the arrays, point `t` = (matrix, row block) writes back exactly that block of
`G1 X W [t, r, s] = ∑_d X[r, d] · W[t, d, s]`, and the sixteen blocks tile the result array. -/

set_option maxRecDepth 16384

noncomputable section

open scoped BigOperators

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-! ## The body's result at an index -/

/-- The zero offsets of a whole-buffer access, rank 2 and rank 3. -/
theorem zeros1_rank2 : (![0, 0] : Fin 2 → Nat) = fun _ => 0 := funext fun a => by fin_cases a <;> rfl
theorem zeros1_rank3 : (![0, 0, 0] : Fin 3 → Nat) = fun _ => 0 := funext fun a => by fin_cases a <;> rfl

/-- The product's operand indices, axis by axis: at result index `i` and contraction position `q` the left operand is
    read at (i 0, q) and the right at (q, i 1). -/
theorem lhs1_0 (i : S512x192.Idx) (q : dot_S512x768_S768x192_S512x192_1_0_0_1_n_n.contr.Idx) :
    (dot_S512x768_S768x192_S512x192_1_0_0_1_n_n.lhsIdx i q 0).val = (i 0).val := by
  unfold DotDims.lhsIdx
  rw [dif_neg (show ¬(0 : Fin S512x768.rank) ∈ dot_S512x768_S768x192_S512x192_1_0_0_1_n_n.lhsBatch by decide), dif_pos (show (0 : Fin S512x768.rank) ∈ dot_S512x768_S768x192_S512x192_1_0_0_1_n_n.lhsNonContracting by decide)]
  rfl
theorem lhs1_1 (i : S512x192.Idx) (q : dot_S512x768_S768x192_S512x192_1_0_0_1_n_n.contr.Idx) :
    (dot_S512x768_S768x192_S512x192_1_0_0_1_n_n.lhsIdx i q 1).val = (q ⟨0, by decide⟩).val :=
  dot_S512x768_S768x192_S512x192_1_0_0_1_n_n.lhsIdx_val_of_single rfl i q
theorem rhs1_0 (i : S512x192.Idx) (q : dot_S512x768_S768x192_S512x192_1_0_0_1_n_n.contr.Idx) :
    (dot_S512x768_S768x192_S512x192_1_0_0_1_n_n.rhsIdx i q 0).val = (q ⟨0, by decide⟩).val :=
  dot_S512x768_S768x192_S512x192_1_0_0_1_n_n.rhsIdx_val_of_single rfl i q
theorem rhs1_1 (i : S512x192.Idx) (q : dot_S512x768_S768x192_S512x192_1_0_0_1_n_n.contr.Idx) :
    (dot_S512x768_S768x192_S512x192_1_0_0_1_n_n.rhsIdx i q 1).val = (i 1).val := by
  unfold DotDims.rhsIdx
  rw [dif_neg (show ¬(1 : Fin S768x192.rank) ∈ dot_S512x768_S768x192_S512x192_1_0_0_1_n_n.rhsBatch by decide), dif_pos (show (1 : Fin S768x192.rank) ∈ dot_S512x768_S768x192_S512x192_1_0_0_1_n_n.rhsNonContracting by decide)]
  rfl

/-- The product of the two operands at an output index. -/
theorem mm1_apply (a : FVec Ideal S512x768 .bf16) (b : FVec Ideal S768x192 .bf16) (p : Fin 512) (q : Fin 192) :
    FloatOps.matmul dot_S512x768_S768x192_S512x192_1_0_0_1_n_n none a b (constant (F := Ideal) S512x192 .f32 0x00000000#32) (ix2 p q)
      = ∑ d : Fin 768, a (ix2 p d) * b (ix2 d q) := by
  rw [Ideal.matmul_constant_zero_apply, ← Equiv.sum_comp (ValueIdx.contrEquiv1 dot_S512x768_S768x192_S512x192_1_0_0_1_n_n 768 rfl rfl).symm]
  refine Finset.sum_congr rfl fun k _ => ?_
  have hk := ValueIdx.contrEquiv1_symm_val dot_S512x768_S768x192_S512x192_1_0_0_1_n_n 768 rfl rfl k
  have el : dot_S512x768_S768x192_S512x192_1_0_0_1_n_n.lhsIdx (ix2 p q) ((ValueIdx.contrEquiv1 dot_S512x768_S768x192_S512x192_1_0_0_1_n_n 768 rfl rfl).symm k) = ix2 p k := funext fun a => Fin.ext (by
    match a with
    | ⟨0, _⟩ => exact lhs1_0 _ _
    | ⟨1, _⟩ => exact (lhs1_1 _ _).trans hk)
  have er : dot_S512x768_S768x192_S512x192_1_0_0_1_n_n.rhsIdx (ix2 p q) ((ValueIdx.contrEquiv1 dot_S512x768_S768x192_S512x192_1_0_0_1_n_n 768 rfl rfl).symm k) = ix2 k q := funext fun a => Fin.ext (by
    match a with
    | ⟨0, _⟩ => exact (rhs1_0 _ _).trans hk
    | ⟨1, _⟩ => exact rhs1_1 _ _)
  rw [el, er]

/-- The stored value at (0, p, q): the row-by-column product of the staged row block and the staged matrix. -/
theorem pay1_apply (x0 : Vec Ideal S512x768 .bf16) (x1 : Vec Ideal S1x768x192 .bf16) (p : Fin 512) (q : Fin 192) :
    k1_pay1 x0 x1 (ix3 (0 : Fin 1) p q) = ∑ d : Fin 768, x0 (ix2 p d) * x1 (ix3 (0 : Fin 1) d q) := by
  unfold k1_pay1
  refine (shapeCast_addUnit_apply ![512, 192] _ _ (ix3 (0 : Fin 1) p q)).trans ?_
  have e : (fun a : Fin 2 => (ix3 (0 : Fin 1) p q) a.succ) = ix2 p q := funext fun a => by
    match a with
    | ⟨0, _⟩ => rfl
    | ⟨1, _⟩ => rfl
  rw [e]
  refine (truncf_apply (φ := .f32) (ψ := .bf16) _ bitsLt_bf16_f32 (ix2 p q)).trans ?_
  refine (mm1_apply _ _ p q).trans ?_
  refine Finset.sum_congr rfl fun d _ => ?_
  rw [shapeCast_self]
  refine congrArg (x0 (ix2 p d) * ·) ?_
  refine (shapeCast_dropUnit_apply ![768, 192] x1 _ (ix2 d q)).trans ?_
  refine congrArg x1 (funext fun a => ?_)
  match a with
  | ⟨0, _⟩ => rfl
  | ⟨1, _⟩ => rfl
  | ⟨2, _⟩ => rfl

/-- So is what the body leaves in the result's buffer: its one store fills the buffer with that value, and its loads
    read the input buffers whole. -/
theorem out1_2_apply (x0 : Vec Ideal S512x768 .bf16) (x1 : Vec Ideal S1x768x192 .bf16) (p : Fin 512) (q : Fin 192) :
    out1_2 x0 x1 (ix3 (0 : Fin 1) p q) = ∑ d : Fin 768, x0 (ix2 p d) * x1 (ix3 (0 : Fin 1) d q) := by
  unfold out1_2
  rw [View.canon_unit_zero zeros1_rank3]
  simp only [View.ld_unit_zero (S := S512x768) zeros1_rank2, View.ld_unit_zero (S := S1x768x192) zeros1_rank3]
  exact pay1_apply x0 x1 p q

/-! ## From blocks to the array -/

variable (V : (c : Dev nD) → (b : Ref sig .tc) → Buf (Elt Ideal) ((c : Thread nD τ).loc b))

/-- The three index maps over the sixteen grid points: the first input's row block is the result's row block and
    its column block is the only one; the second input's matrix is the result's matrix and is taken whole; the
    result's column block is the only one, and its matrix and row block numbers are below four. -/
theorem idx_facts1 : ∀ t : Fin cfg1.N, win1_0.index t (0 : Fin 2) = win1_2.index t (1 : Fin 3)
    ∧ win1_0.index t (1 : Fin 2) = 0
    ∧ win1_1.index t (0 : Fin 3) = win1_2.index t (0 : Fin 3)
    ∧ win1_1.index t (1 : Fin 3) = 0
    ∧ win1_1.index t (2 : Fin 3) = 0
    ∧ win1_2.index t (2 : Fin 3) = 0
    ∧ win1_2.index t (0 : Fin 3) ≤ 3
    ∧ win1_2.index t (1 : Fin 3) ≤ 3 :=
  (by decide +kernel : ∀ t : Fin grid1.N, _)

/-- Every (matrix, row block) pair is some grid point's. -/
theorem idx_onto1 : ∀ (q0 : Fin 4) (q1 : Fin 4), ∃ t : Fin cfg1.N, win1_2.index t = ![q0.val, q1.val, 0] :=
  (by decide +kernel : ∀ (q0 : Fin 4) (q1 : Fin 4), ∃ t : Fin grid1.N, win1_2.index t = ![q0.val, q1.val, 0])

/-- What the body leaves at entry (0, p, q) of the result block at point `t` is entry of `G1` at the block's place
    in the array: the sum over `d` runs over the same products, each input block's entry being the array's entry at
    the block's offset plus the entry's own coordinates. -/
theorem point1 (c : Dev nD) (t : Fin cfg1.N) (p : Fin 512) (q : Fin 192) :
    out1_2 (iblk1 V c 0 t) (iblk1 V c 1 t) (ix3 (0 : Fin 1) p q)
      = Cert.Spec.G1 (V c main_v5) (V c main_v6) (((cfg1.win 2).blk t).view.emb (ix3 (0 : Fin 1) p q)) := by
  refine (out1_2_apply (iblk1 V c 0 t) (iblk1 V c 1 t) p q).trans ?_
  obtain ⟨e0, e1, e2, e3, e4, e5, e6, e7⟩ := idx_facts1 t
  unfold Cert.Spec.G1
  refine Finset.sum_congr rfl fun d _ => ?_
  have h0 : iblk1 V c 0 t (ix2 p d) = V c main_v5 (ix2 ((((cfg1.win 2).blk t).view.emb (ix3 (0 : Fin 1) p q)) 1) d) := by
    show V c main_v5 (((cfg1.win 0).blk t).view.emb (ix2 p d)) = _
    refine congrArg (V c main_v5) (funext fun a => Fin.ext ?_)
    match a with
    | ⟨0, _⟩ => show win1_0.index t (0 : Fin 2) * 512 + 1 * p.val = win1_2.index t (1 : Fin 3) * 512 + 1 * p.val; omega
    | ⟨1, _⟩ => show win1_0.index t (1 : Fin 2) * 768 + 1 * d.val = d.val; omega
  have h1 : iblk1 V c 1 t (ix3 (0 : Fin 1) d q) = V c main_v6 (ix3 ((((cfg1.win 2).blk t).view.emb (ix3 (0 : Fin 1) p q)) 0) d ((((cfg1.win 2).blk t).view.emb (ix3 (0 : Fin 1) p q)) 2)) := by
    show V c main_v6 (((cfg1.win 1).blk t).view.emb (ix3 (0 : Fin 1) d q)) = _
    refine congrArg (V c main_v6) (funext fun a => Fin.ext ?_)
    match a with
    | ⟨0, _⟩ => show win1_1.index t (0 : Fin 3) * 1 + 1 * 0 = win1_2.index t (0 : Fin 3) * 1 + 1 * 0; omega
    | ⟨1, _⟩ => show win1_1.index t (1 : Fin 3) * 768 + 1 * d.val = d.val; omega
    | ⟨2, _⟩ => show win1_1.index t (2 : Fin 3) * 192 + 1 * q.val = win1_2.index t (2 : Fin 3) * 192 + 1 * q.val; omega
  exact congr (congrArg _ h0) h1

/-- What point `t` writes back is block `t` of `G1` of the two input arrays. -/
theorem flushed1_eq (c : Dev nD) (t : Fin cfg1.N) :
    (dat1 (F := Ideal) V c).flushed 2 t = ((cfg1.win 2).blk t).view.read (Elt Ideal) (Cert.Spec.G1 (V c main_v5) (V c main_v6)) := by
  show (cfg1.win 2).cut (grid1.coords t) ((dat1 (F := Ideal) V c).after 2 t) = _
  rw [after1_2]
  funext j
  obtain ⟨z, p, q, rfl⟩ : ∃ (z : Fin 1) (p : Fin 512) (q : Fin 192), j = ix3 z p q := ⟨j 0, j 1, j 2, eq_ix3 j⟩
  obtain rfl : z = 0 := Subsingleton.elim _ _
  exact point1 V c t p q

/-- An index of the array is in point `t`'s block iff each coordinate is in the block's range on its axis. -/
theorem mem_blk1 (t : Fin cfg1.N) (i : S4x2048x192.Idx) :
    i ∈ ((cfg1.win 2).blk t).view.set ↔ ∀ a : Fin 3, win1_2.index t a * S1x512x192.size a ≤ (i a).val ∧ (i a).val < win1_2.index t a * S1x512x192.size a + S1x512x192.size a := by
  show i ∈ ((View.whole main_v7).slice (win1_2.rect t)).set ↔ _
  rw [View.set_slice_whole, Rect.mem_set_unit]
  exact Iff.rfl

/-- Every index of the result array lies in some point's block: matrix `i 0`, row block `i 1 / 512`. -/
theorem cover1 (i : S4x2048x192.Idx) : ∃ t : Fin cfg1.N, (cfg1.win 2).flush t = true ∧ i ∈ ((cfg1.win 2).blk t).view.set := by
  have hi0 : (i 0).val < 4 := (i 0).isLt
  have hi1 : (i 1).val < 2048 := (i 1).isLt
  have hi2 : (i 2).val < 192 := (i 2).isLt
  obtain ⟨t, ht⟩ := idx_onto1 ⟨(i 0).val, hi0⟩ ⟨(i 1).val / 512, by omega⟩
  have q0 : win1_2.index t (0 : Fin 3) = (i 0).val := congrFun ht 0
  have q1 : win1_2.index t (1 : Fin 3) = (i 1).val / 512 := congrFun ht 1
  have q2 : win1_2.index t (2 : Fin 3) = 0 := congrFun ht 2
  refine ⟨t, flush1_2 t, ?_⟩
  rw [mem_blk1]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 512 ≤ (i 1).val ∧ (i 1).val < win1_2.index t (1 : Fin 3) * 512 + 512; omega
  | ⟨2, _⟩ => show win1_2.index t (2 : Fin 3) * 192 ≤ (i 2).val ∧ (i 2).val < win1_2.index t (2 : Fin 3) * 192 + 192; omega

/-- The result array after the region: `G1` of the two input arrays as the region finds them. -/
theorem final1 (c : Dev nD) :
    (dat1 (F := Ideal) V c).arrAt 2 cfg1.N = Cert.Spec.G1 (V c main_v5) (V c main_v6) :=
  (dat1 (F := Ideal) V c).arrAt_eq_of_cover 2 (Cert.Spec.G1 (V c main_v5) (V c main_v6)) (fun t _ => flushed1_eq V c t) cover1

end Cert.KernelIdeal.HandV

end
-- ==== Proof.KI.Val2.lean ====
import proofs.«159438_j36850819399877_1_alg».proof.Proof.KI.Reg2
import proofs.«159438_j36850819399877_1_alg».proof.Proof.Spec
import proofs.«159438_j36850819399877_1_alg».proof.Proof.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HandV

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! # Region 2 at the ideal values: the result array is `G2` of the three arrays the region is handed -/

/-! ## Layout operations of the body, read at an index -/

/-- A matrix viewed from under a leading unit axis: entry `(m, n)` is entry `(0, m, n)`. -/
theorem r2_cast_drop_2048x2048 (v : FVec Ideal S1x2048x2048 .bf16) (m n : Fin 2048) :
    shapeCast S2048x2048 v shapeCasts_S1x2048x2048_S2048x2048 (ix2 m n) = v (ix3 0 m n) :=
  shapeCast_apply v _ (ix2 m n) (ix3 0 m n) (by
    rw [Shape.rowMajor_val_three, Shape.rowMajor_val_two]
    show ((0 : ℕ) * 2048 + m.val) * 2048 + n.val = m.val * 2048 + n.val
    omega)

theorem r2_cast_drop_2048x192 (v : FVec Ideal S1x2048x192 .bf16) (m : Fin 2048) (s : Fin 192) :
    shapeCast S2048x192 v shapeCasts_S1x2048x192_S2048x192 (ix2 m s) = v (ix3 0 m s) :=
  shapeCast_apply v _ (ix2 m s) (ix3 0 m s) (by
    rw [Shape.rowMajor_val_three, Shape.rowMajor_val_two]
    show ((0 : ℕ) * 2048 + m.val) * 192 + s.val = m.val * 192 + s.val
    omega)

/-- The bias row viewed from under a leading unit axis. -/
theorem r2_cast_drop_1x192 (v : FVec Ideal S1x1x192 .f32) (s : Fin 192) :
    shapeCast S1x192 v shapeCasts_S1x1x192_S1x192 (ix2 0 s) = v (ix3 0 0 s) :=
  shapeCast_apply v _ (ix2 0 s) (ix3 0 0 s) (by
    rw [Shape.rowMajor_val_three, Shape.rowMajor_val_two]
    show ((0 : ℕ) * 1 + 0) * 192 + s.val = 0 * 192 + s.val
    omega)

/-- The result matrix put under a leading unit axis: entry `(0, n, s)` is entry `(n, s)`. -/
theorem r2_cast_add_2048x192 (v : FVec Ideal S2048x192 .bf16) (n : Fin 2048) (s : Fin 192) :
    shapeCast S1x2048x192 v shapeCasts_S2048x192_S1x2048x192 (ix3 0 n s) = v (ix2 n s) :=
  shapeCast_apply v _ (ix3 0 n s) (ix2 n s) (by
    rw [Shape.rowMajor_val_three, Shape.rowMajor_val_two]
    show n.val * 192 + s.val = ((0 : ℕ) * 2048 + n.val) * 192 + s.val
    omega)

/-- The bias row repeated down the rows: entry `(n, s)` is entry `(0, s)` of the row. -/
theorem r2_bcast_rows (v : FVec Ideal S1x192 .f32) (n : Fin 2048) (s : Fin 192) :
    broadcastTo S2048x192 v broadcasts_S1x192_S2048x192 (ix2 n s) = v (ix2 0 s) :=
  broadcastTo_apply v _ (ix2 n s) (ix2 0 s) (fun a => by
    match a with
    | ⟨0, _⟩ => rfl
    | ⟨1, _⟩ => rfl)

/-! ## The body's matrix product: it sums over the FIRST axis of both operands -/

theorem lhs2_0 (i : S2048x192.Idx) (q : dot_S2048x2048_S2048x192_S2048x192_0_0_1_1_n_n.contr.Idx) :
    (dot_S2048x2048_S2048x192_S2048x192_0_0_1_1_n_n.lhsIdx i q 0).val = (q ⟨0, by decide⟩).val :=
  dot_S2048x2048_S2048x192_S2048x192_0_0_1_1_n_n.lhsIdx_val_of_single rfl i q
theorem lhs2_1 (i : S2048x192.Idx) (q : dot_S2048x2048_S2048x192_S2048x192_0_0_1_1_n_n.contr.Idx) :
    (dot_S2048x2048_S2048x192_S2048x192_0_0_1_1_n_n.lhsIdx i q 1).val = (i 0).val := by
  unfold DotDims.lhsIdx
  rw [dif_neg (show ¬(1 : Fin S2048x2048.rank) ∈ dot_S2048x2048_S2048x192_S2048x192_0_0_1_1_n_n.lhsBatch by decide), dif_pos (show (1 : Fin S2048x2048.rank) ∈ dot_S2048x2048_S2048x192_S2048x192_0_0_1_1_n_n.lhsNonContracting by decide)]
  rfl
theorem rhs2_0 (i : S2048x192.Idx) (q : dot_S2048x2048_S2048x192_S2048x192_0_0_1_1_n_n.contr.Idx) :
    (dot_S2048x2048_S2048x192_S2048x192_0_0_1_1_n_n.rhsIdx i q 0).val = (q ⟨0, by decide⟩).val :=
  dot_S2048x2048_S2048x192_S2048x192_0_0_1_1_n_n.rhsIdx_val_of_single rfl i q
theorem rhs2_1 (i : S2048x192.Idx) (q : dot_S2048x2048_S2048x192_S2048x192_0_0_1_1_n_n.contr.Idx) :
    (dot_S2048x2048_S2048x192_S2048x192_0_0_1_1_n_n.rhsIdx i q 1).val = (i 1).val := by
  unfold DotDims.rhsIdx
  rw [dif_neg (show ¬(1 : Fin S2048x192.rank) ∈ dot_S2048x2048_S2048x192_S2048x192_0_0_1_1_n_n.rhsBatch by decide), dif_pos (show (1 : Fin S2048x192.rank) ∈ dot_S2048x2048_S2048x192_S2048x192_0_0_1_1_n_n.rhsNonContracting by decide)]
  rfl

/-- The product into a zero accumulator, at `(n, s)`: the sum over `m` of `a[m, n] · b[m, s]`. -/
theorem matmul2_apply (a : FVec Ideal S2048x2048 .bf16) (b : FVec Ideal S2048x192 .bf16) (n : Fin 2048) (s : Fin 192) :
    matmul dot_S2048x2048_S2048x192_S2048x192_0_0_1_1_n_n none a b (constant (F := Ideal) S2048x192 .f32 0x00000000#32) (ix2 n s)
      = ∑ m : Fin 2048, a (ix2 m n) * b (ix2 m s) := by
  simp only [matmul]
  rw [Ideal.matmul_constant_zero_apply, ← Equiv.sum_comp (ValueIdx.contrEquiv1 dot_S2048x2048_S2048x192_S2048x192_0_0_1_1_n_n 2048 rfl rfl).symm]
  refine Finset.sum_congr rfl fun k _ => ?_
  have hk := ValueIdx.contrEquiv1_symm_val dot_S2048x2048_S2048x192_S2048x192_0_0_1_1_n_n 2048 rfl rfl k
  have el : dot_S2048x2048_S2048x192_S2048x192_0_0_1_1_n_n.lhsIdx (ix2 n s) ((ValueIdx.contrEquiv1 dot_S2048x2048_S2048x192_S2048x192_0_0_1_1_n_n 2048 rfl rfl).symm k) = ix2 k n := funext fun a => Fin.ext (by
    match a with
    | ⟨0, _⟩ => exact (lhs2_0 _ _).trans hk
    | ⟨1, _⟩ => exact lhs2_1 _ _)
  have er : dot_S2048x2048_S2048x192_S2048x192_0_0_1_1_n_n.rhsIdx (ix2 n s) ((ValueIdx.contrEquiv1 dot_S2048x2048_S2048x192_S2048x192_0_0_1_1_n_n 2048 rfl rfl).symm k) = ix2 k s := funext fun a => Fin.ext (by
    match a with
    | ⟨0, _⟩ => exact (rhs2_0 _ _).trans hk
    | ⟨1, _⟩ => exact rhs2_1 _ _)
  rw [el, er]

/-! ## The body's payload, and what it leaves in the output buffer, at an index -/

/-- The payload at `(0, n, s)`: the product of the transposed first block with the second, plus the bias row, rectified. -/
theorem pay2_apply (x0 : Vec Ideal S1x2048x2048 .bf16) (x1 : Vec Ideal S1x2048x192 .bf16) (x2 : Vec Ideal S1x1x192 .f32)
    (n : Fin 2048) (s : Fin 192) :
    k2_pay1 (F := Ideal) x0 x1 x2 (ix3 0 n s)
      = max ((∑ m : Fin 2048, x0 (ix3 0 m n) * x1 (ix3 0 m s)) + x2 (ix3 0 0 s)) Cert.Spec.zero := by
  unfold k2_pay1
  refine (r2_cast_add_2048x192 _ n s).trans ?_
  refine (truncf_apply (φ := .f32) (ψ := .bf16) _ bitsLt_bf16_f32 (ix2 n s)).trans ?_
  refine (maximumf_apply (φ := .f32) _ _ (ix2 n s)).trans ?_
  refine congrArg₂ max ?_ rfl
  refine (addf_apply (φ := .f32) _ _ (ix2 n s)).trans ?_
  refine congrArg₂ (· + ·) ?_ ?_
  · refine (matmul2_apply _ _ n s).trans ?_
    refine Finset.sum_congr rfl fun m _ => ?_
    exact congrArg₂ (· * ·) (r2_cast_drop_2048x2048 x0 m n) (r2_cast_drop_2048x192 x1 m s)
  · exact (r2_bcast_rows _ n s).trans (r2_cast_drop_1x192 x2 s)

theorem r2_hz : (![0, 0, 0] : Fin 3 → Nat) = fun _ => 0 := funext fun a => by fin_cases a <;> rfl

/-- The output buffer after the body, at `(0, n, s)`. -/
theorem out2_3_apply (x0 : Vec Ideal S1x2048x2048 .bf16) (x1 : Vec Ideal S1x2048x192 .bf16) (x2 : Vec Ideal S1x1x192 .f32)
    (n : Fin 2048) (s : Fin 192) :
    out2_3 x0 x1 x2 (ix3 0 n s)
      = max ((∑ m : Fin 2048, x0 (ix3 0 m n) * x1 (ix3 0 m s)) + x2 (ix3 0 0 s)) Cert.Spec.zero := by
  unfold out2_3
  rw [View.canon_unit_zero r2_hz]
  simp only [View.ld_unit_zero (S := S1x2048x2048) r2_hz, View.ld_unit_zero (S := S1x2048x192) r2_hz, View.ld_unit_zero (S := S1x1x192) r2_hz]
  exact pay2_apply x0 x1 x2 n s

/-- The output buffer after the body at any index of it (its leading coordinate is `0`). -/
theorem out2_3_at (x0 : Vec Ideal S1x2048x2048 .bf16) (x1 : Vec Ideal S1x2048x192 .bf16) (x2 : Vec Ideal S1x1x192 .f32)
    (j : S1x2048x192.Idx) :
    out2_3 x0 x1 x2 j
      = max ((∑ m : Fin 2048, x0 (ix3 0 m (j 1)) * x1 (ix3 0 m (j 2))) + x2 (ix3 0 0 (j 2))) Cert.Spec.zero := by
  obtain ⟨p, n, s, rfl⟩ : ∃ (p : Fin 1) (n : Fin 2048) (s : Fin 192), j = ix3 p n s := ⟨j 0, j 1, j 2, eq_ix3 j⟩
  obtain rfl : p = 0 := Subsingleton.elim _ _
  exact out2_3_apply x0 x1 x2 n s

/-! ## From blocks to the array -/

variable (V : (c : Dev nD) → (b : Ref sig .tc) → Buf (Elt Ideal) ((c : Thread nD τ).loc b))

/-- The index maps, decided over the four grid points: every window's block at point `t` is the `t`-th slab along the
    leading axis, at offset zero on the two matrix axes, and the three inputs' slabs are the output's. -/
theorem idx_facts2 : ∀ t : Fin cfg2.N,
      win2_0.index t (0 : Fin 3) = win2_3.index t (0 : Fin 3) ∧ win2_0.index t (1 : Fin 3) = 0 ∧ win2_0.index t (2 : Fin 3) = 0
    ∧ win2_1.index t (0 : Fin 3) = win2_3.index t (0 : Fin 3) ∧ win2_1.index t (1 : Fin 3) = 0 ∧ win2_1.index t (2 : Fin 3) = 0
    ∧ win2_2.index t (0 : Fin 3) = win2_3.index t (0 : Fin 3) ∧ win2_2.index t (1 : Fin 3) = 0 ∧ win2_2.index t (2 : Fin 3) = 0
    ∧ win2_3.index t (0 : Fin 3) ≤ 3 ∧ win2_3.index t (1 : Fin 3) = 0 ∧ win2_3.index t (2 : Fin 3) = 0 :=
  (by decide +kernel : ∀ t : Fin grid2.N, _)

/-- Every slab of the result is some point's block. -/
theorem idx_onto2 : ∀ q : Fin 4, ∃ t : Fin cfg2.N, win2_3.index t = ![q.val, 0, 0] :=
  (by decide +kernel : ∀ q : Fin 4, ∃ t : Fin grid2.N, win2_3.index t = ![q.val, 0, 0])

/-- What point `t` writes back is block `t` of `G2` of the three arrays as the region finds them: the body's result
    at `(0, n, s)` sums the first block's column `n` against the second block's column `s` and adds the bias row, and
    the three blocks are slab `t` of their arrays, as the output block is of the result. -/
theorem flushed2_eq (c : Dev nD) (t : Fin cfg2.N) :
    (dat2 (F := Ideal) V c).flushed 3 t
      = ((cfg2.win 3).blk t).view.read (Elt Ideal) (Cert.Spec.G2 (V c main_v4) (V c main_v7) (V c main_v8)) := by
  show (cfg2.win 3).cut (grid2.coords t) ((dat2 (F := Ideal) V c).after 3 t) = _
  rw [after2_3]
  obtain ⟨a0, a1, a2, b0, b1, b2, c0, c1, c2, d0, d1, d2⟩ := idx_facts2 t
  funext j
  refine (out2_3_at (iblk2 V c 0 t) (iblk2 V c 1 t) (iblk2 V c 2 t) j).trans ?_
  have hj0 : (j 0).val < 1 := (j 0).isLt
  show _ = Cert.Spec.G2 (V c main_v4) (V c main_v7) (V c main_v8) (((cfg2.win 3).blk t).view.emb j)
  unfold Cert.Spec.G2
  refine congrArg₂ max (congrArg₂ (· + ·) (Finset.sum_congr rfl fun m _ => congrArg₂ (· * ·) ?_ ?_) ?_) rfl
  · show V c main_v4 (((cfg2.win 0).blk t).view.emb (ix3 0 m (j 1))) = _
    refine congrArg (V c main_v4) (funext fun a => Fin.ext ?_)
    match a with
    | ⟨0, _⟩ => show win2_0.index t (0 : Fin 3) * 1 + 1 * 0 = win2_3.index t (0 : Fin 3) * 1 + 1 * (j 0).val; omega
    | ⟨1, _⟩ => show win2_0.index t (1 : Fin 3) * 2048 + 1 * m.val = m.val; omega
    | ⟨2, _⟩ => show win2_0.index t (2 : Fin 3) * 2048 + 1 * (j 1).val = win2_3.index t (1 : Fin 3) * 2048 + 1 * (j 1).val; omega
  · show V c main_v7 (((cfg2.win 1).blk t).view.emb (ix3 0 m (j 2))) = _
    refine congrArg (V c main_v7) (funext fun a => Fin.ext ?_)
    match a with
    | ⟨0, _⟩ => show win2_1.index t (0 : Fin 3) * 1 + 1 * 0 = win2_3.index t (0 : Fin 3) * 1 + 1 * (j 0).val; omega
    | ⟨1, _⟩ => show win2_1.index t (1 : Fin 3) * 2048 + 1 * m.val = m.val; omega
    | ⟨2, _⟩ => show win2_1.index t (2 : Fin 3) * 192 + 1 * (j 2).val = win2_3.index t (2 : Fin 3) * 192 + 1 * (j 2).val; omega
  · show V c main_v8 (((cfg2.win 2).blk t).view.emb (ix3 0 0 (j 2))) = _
    refine congrArg (V c main_v8) (funext fun a => Fin.ext ?_)
    match a with
    | ⟨0, _⟩ => show win2_2.index t (0 : Fin 3) * 1 + 1 * 0 = win2_3.index t (0 : Fin 3) * 1 + 1 * (j 0).val; omega
    | ⟨1, _⟩ => show win2_2.index t (1 : Fin 3) * 1 + 1 * 0 = 0; omega
    | ⟨2, _⟩ => show win2_2.index t (2 : Fin 3) * 192 + 1 * (j 2).val = win2_3.index t (2 : Fin 3) * 192 + 1 * (j 2).val; omega

/-- An index of the result is in point `t`'s block iff each coordinate is in the block's range on its axis. -/
theorem mem_blk2 (t : Fin cfg2.N) (i : S4x2048x192.Idx) :
    i ∈ ((cfg2.win 3).blk t).view.set ↔ ∀ a : Fin 3, win2_3.index t a * S1x2048x192.size a ≤ (i a).val ∧ (i a).val < win2_3.index t a * S1x2048x192.size a + S1x2048x192.size a := by
  show i ∈ ((View.whole main_v9).slice (win2_3.rect t)).set ↔ _
  rw [View.set_slice_whole, Rect.mem_set_unit]
  exact Iff.rfl

/-- The four blocks cover the result: index `(q, n, s)` is in the block of the point whose slab is `q`. -/
theorem cover2 (i : S4x2048x192.Idx) :
    ∃ t : Fin cfg2.N, (cfg2.win 3).flush t = true ∧ i ∈ ((cfg2.win 3).blk t).view.set := by
  have hi0 : (i 0).val < 4 := (i 0).isLt
  have hi1 : (i 1).val < 2048 := (i 1).isLt
  have hi2 : (i 2).val < 192 := (i 2).isLt
  obtain ⟨t, ht⟩ := idx_onto2 ⟨(i 0).val, hi0⟩
  have q0 : win2_3.index t (0 : Fin 3) = (i 0).val := congrFun ht 0
  have q1 : win2_3.index t (1 : Fin 3) = 0 := congrFun ht 1
  have q2 : win2_3.index t (2 : Fin 3) = 0 := congrFun ht 2
  refine ⟨t, flush2_3 t, ?_⟩
  rw [mem_blk2]
  intro a
  match a with
  | ⟨0, _⟩ => show win2_3.index t (0 : Fin 3) * 1 ≤ (i 0).val ∧ (i 0).val < win2_3.index t (0 : Fin 3) * 1 + 1; omega
  | ⟨1, _⟩ => show win2_3.index t (1 : Fin 3) * 2048 ≤ (i 1).val ∧ (i 1).val < win2_3.index t (1 : Fin 3) * 2048 + 2048; omega
  | ⟨2, _⟩ => show win2_3.index t (2 : Fin 3) * 192 ≤ (i 2).val ∧ (i 2).val < win2_3.index t (2 : Fin 3) * 192 + 192; omega

/-- The result array after the region is `G2` of the three arrays the region is handed. -/
theorem final2 (c : Dev nD) :
    (dat2 (F := Ideal) V c).arrAt 3 cfg2.N = Cert.Spec.G2 (V c main_v4) (V c main_v7) (V c main_v8) :=
  (dat2 (F := Ideal) V c).arrAt_eq_of_cover 3 (Cert.Spec.G2 (V c main_v4) (V c main_v7) (V c main_v8))
    (fun t _ => flushed2_eq V c t) cover2

end Cert.KernelIdeal.HandV

end
-- ==== Proof.KI.Val3.lean ====
import proofs.«159438_j36850819399877_1_alg».proof.Proof.KI.Reg3
import proofs.«159438_j36850819399877_1_alg».proof.Proof.Spec
import proofs.«159438_j36850819399877_1_alg».proof.Proof.Stages
import Idealize.ShloMosaic.Lib.Pipeline.Value
import Idealize.ShloMosaic.Lib.ValueIdx
import Idealize.ShloMosaic.Lib.ValueLayout
import Idealize.ShloMosaic.PureOps.Ideal.Laws

/-! # Region 3 at the exact (extended-real) instance: the result array is `G3` of the two input arrays

For each of four matrices `t` the region multiplies the TRANSPOSE of the 2048 × 2048 matrix `A[t]` by the
2048 × 192 matrix `B[t]`: the body contracts the FIRST axis of both staged matrices, leaving
`∑_m x0[0, m, n] · x1[0, m, s]` at (0, n, s) of the result block (the change of float format and the re-shapings
are the identity on values, and the product accumulates into zero). Each of the four grid points stages matrix
`t` of both inputs whole and writes back matrix `t` of `G3 A B [t, n, s] = ∑_m A[t, m, n] · B[t, m, s]`; the four
blocks tile the result array. -/

set_option maxRecDepth 16384

noncomputable section

open scoped BigOperators

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-! ## The body's result at an index -/

/-- The zero offsets of a whole-buffer access. -/
theorem zeros3_rank3 : (![0, 0, 0] : Fin 3 → Nat) = fun _ => 0 := funext fun a => by fin_cases a <;> rfl

/-- The product's operand indices, axis by axis: at result index `i` and contraction position `q` the left operand is
    read at (q, i 0) and the right at (q, i 1): both operands are contracted along their first axis. -/
theorem lhs3_0 (i : S2048x192.Idx) (q : dot_S2048x2048_S2048x192_S2048x192_0_0_1_1_n_n.contr.Idx) :
    (dot_S2048x2048_S2048x192_S2048x192_0_0_1_1_n_n.lhsIdx i q 0).val = (q ⟨0, by decide⟩).val :=
  dot_S2048x2048_S2048x192_S2048x192_0_0_1_1_n_n.lhsIdx_val_of_single rfl i q
theorem lhs3_1 (i : S2048x192.Idx) (q : dot_S2048x2048_S2048x192_S2048x192_0_0_1_1_n_n.contr.Idx) :
    (dot_S2048x2048_S2048x192_S2048x192_0_0_1_1_n_n.lhsIdx i q 1).val = (i 0).val := by
  unfold DotDims.lhsIdx
  rw [dif_neg (show ¬(1 : Fin S2048x2048.rank) ∈ dot_S2048x2048_S2048x192_S2048x192_0_0_1_1_n_n.lhsBatch by decide), dif_pos (show (1 : Fin S2048x2048.rank) ∈ dot_S2048x2048_S2048x192_S2048x192_0_0_1_1_n_n.lhsNonContracting by decide)]
  rfl
theorem rhs3_0 (i : S2048x192.Idx) (q : dot_S2048x2048_S2048x192_S2048x192_0_0_1_1_n_n.contr.Idx) :
    (dot_S2048x2048_S2048x192_S2048x192_0_0_1_1_n_n.rhsIdx i q 0).val = (q ⟨0, by decide⟩).val :=
  dot_S2048x2048_S2048x192_S2048x192_0_0_1_1_n_n.rhsIdx_val_of_single rfl i q
theorem rhs3_1 (i : S2048x192.Idx) (q : dot_S2048x2048_S2048x192_S2048x192_0_0_1_1_n_n.contr.Idx) :
    (dot_S2048x2048_S2048x192_S2048x192_0_0_1_1_n_n.rhsIdx i q 1).val = (i 1).val := by
  unfold DotDims.rhsIdx
  rw [dif_neg (show ¬(1 : Fin S2048x192.rank) ∈ dot_S2048x2048_S2048x192_S2048x192_0_0_1_1_n_n.rhsBatch by decide), dif_pos (show (1 : Fin S2048x192.rank) ∈ dot_S2048x2048_S2048x192_S2048x192_0_0_1_1_n_n.rhsNonContracting by decide)]
  rfl

/-- The product of the two operands at an output index: the sum over the shared first axis. -/
theorem mm3_apply (a : FVec Ideal S2048x2048 .bf16) (b : FVec Ideal S2048x192 .bf16) (n : Fin 2048) (s : Fin 192) :
    FloatOps.matmul dot_S2048x2048_S2048x192_S2048x192_0_0_1_1_n_n none a b (constant (F := Ideal) S2048x192 .f32 0x00000000#32) (ix2 n s)
      = ∑ m : Fin 2048, a (ix2 m n) * b (ix2 m s) := by
  rw [Ideal.matmul_constant_zero_apply, ← Equiv.sum_comp (ValueIdx.contrEquiv1 dot_S2048x2048_S2048x192_S2048x192_0_0_1_1_n_n 2048 rfl rfl).symm]
  refine Finset.sum_congr rfl fun k _ => ?_
  have hk := ValueIdx.contrEquiv1_symm_val dot_S2048x2048_S2048x192_S2048x192_0_0_1_1_n_n 2048 rfl rfl k
  have el : dot_S2048x2048_S2048x192_S2048x192_0_0_1_1_n_n.lhsIdx (ix2 n s) ((ValueIdx.contrEquiv1 dot_S2048x2048_S2048x192_S2048x192_0_0_1_1_n_n 2048 rfl rfl).symm k) = ix2 k n := funext fun a => Fin.ext (by
    match a with
    | ⟨0, _⟩ => exact (lhs3_0 _ _).trans hk
    | ⟨1, _⟩ => exact lhs3_1 _ _)
  have er : dot_S2048x2048_S2048x192_S2048x192_0_0_1_1_n_n.rhsIdx (ix2 n s) ((ValueIdx.contrEquiv1 dot_S2048x2048_S2048x192_S2048x192_0_0_1_1_n_n 2048 rfl rfl).symm k) = ix2 k s := funext fun a => Fin.ext (by
    match a with
    | ⟨0, _⟩ => exact (rhs3_0 _ _).trans hk
    | ⟨1, _⟩ => exact rhs3_1 _ _)
  rw [el, er]

/-- The stored value at (0, n, s): column `n` of the first staged matrix against column `s` of the second. -/
theorem pay3_apply (x0 : Vec Ideal S1x2048x2048 .bf16) (x1 : Vec Ideal S1x2048x192 .bf16) (n : Fin 2048) (s : Fin 192) :
    k3_pay1 x0 x1 (ix3 (0 : Fin 1) n s) = ∑ m : Fin 2048, x0 (ix3 (0 : Fin 1) m n) * x1 (ix3 (0 : Fin 1) m s) := by
  unfold k3_pay1
  refine (shapeCast_addUnit_apply ![2048, 192] _ _ (ix3 (0 : Fin 1) n s)).trans ?_
  have e : (fun a : Fin 2 => (ix3 (0 : Fin 1) n s) a.succ) = ix2 n s := funext fun a => by
    match a with
    | ⟨0, _⟩ => rfl
    | ⟨1, _⟩ => rfl
  rw [e]
  refine (truncf_apply (φ := .f32) (ψ := .bf16) _ bitsLt_bf16_f32 (ix2 n s)).trans ?_
  refine (mm3_apply _ _ n s).trans ?_
  refine Finset.sum_congr rfl fun m _ => ?_
  have h0 : shapeCast S2048x2048 x0 shapeCasts_S1x2048x2048_S2048x2048 (ix2 m n) = x0 (ix3 (0 : Fin 1) m n) := by
    refine (shapeCast_dropUnit_apply ![2048, 2048] x0 _ (ix2 m n)).trans ?_
    refine congrArg x0 (funext fun a => ?_)
    match a with
    | ⟨0, _⟩ => rfl
    | ⟨1, _⟩ => rfl
    | ⟨2, _⟩ => rfl
  have h1 : shapeCast S2048x192 x1 shapeCasts_S1x2048x192_S2048x192 (ix2 m s) = x1 (ix3 (0 : Fin 1) m s) := by
    refine (shapeCast_dropUnit_apply ![2048, 192] x1 _ (ix2 m s)).trans ?_
    refine congrArg x1 (funext fun a => ?_)
    match a with
    | ⟨0, _⟩ => rfl
    | ⟨1, _⟩ => rfl
    | ⟨2, _⟩ => rfl
  exact congr (congrArg _ h0) h1

/-- So is what the body leaves in the result's buffer: its one store fills the buffer with that value, and its loads
    read the input buffers whole. -/
theorem out3_2_apply (x0 : Vec Ideal S1x2048x2048 .bf16) (x1 : Vec Ideal S1x2048x192 .bf16) (n : Fin 2048) (s : Fin 192) :
    out3_2 x0 x1 (ix3 (0 : Fin 1) n s) = ∑ m : Fin 2048, x0 (ix3 (0 : Fin 1) m n) * x1 (ix3 (0 : Fin 1) m s) := by
  unfold out3_2
  rw [View.canon_unit_zero zeros3_rank3]
  simp only [View.ld_unit_zero (S := S1x2048x2048) zeros3_rank3, View.ld_unit_zero (S := S1x2048x192) zeros3_rank3]
  exact pay3_apply x0 x1 n s

/-! ## From blocks to the array -/

variable (V : (c : Dev nD) → (b : Ref sig .tc) → Buf (Elt Ideal) ((c : Thread nD τ).loc b))

/-- The three index maps over the four grid points: both inputs' matrix is the result's matrix, every other block
    index is the only one, and the matrix number is below four. -/
theorem idx_facts3 : ∀ t : Fin cfg3.N, win3_0.index t (0 : Fin 3) = win3_2.index t (0 : Fin 3)
    ∧ win3_0.index t (1 : Fin 3) = 0
    ∧ win3_0.index t (2 : Fin 3) = 0
    ∧ win3_1.index t (0 : Fin 3) = win3_2.index t (0 : Fin 3)
    ∧ win3_1.index t (1 : Fin 3) = 0
    ∧ win3_1.index t (2 : Fin 3) = 0
    ∧ win3_2.index t (1 : Fin 3) = 0
    ∧ win3_2.index t (2 : Fin 3) = 0
    ∧ win3_2.index t (0 : Fin 3) ≤ 3 :=
  (by decide +kernel : ∀ t : Fin grid3.N, _)

/-- Every matrix is some grid point's. -/
theorem idx_onto3 : ∀ (q0 : Fin 4), ∃ t : Fin cfg3.N, win3_2.index t = ![q0.val, 0, 0] :=
  (by decide +kernel : ∀ (q0 : Fin 4), ∃ t : Fin grid3.N, win3_2.index t = ![q0.val, 0, 0])

/-- What the body leaves at entry (0, n, s) of the result block at point `t` is the entry of `G3` at the block's place
    in the array: the sum over `m` runs over the same products, each input block's entry being the array's entry in
    the same matrix at the same coordinates. -/
theorem point3 (c : Dev nD) (t : Fin cfg3.N) (n : Fin 2048) (s : Fin 192) :
    out3_2 (iblk3 V c 0 t) (iblk3 V c 1 t) (ix3 (0 : Fin 1) n s)
      = Cert.Spec.G3 (V c main_v4) (V c main_v9) (((cfg3.win 2).blk t).view.emb (ix3 (0 : Fin 1) n s)) := by
  refine (out3_2_apply (iblk3 V c 0 t) (iblk3 V c 1 t) n s).trans ?_
  obtain ⟨e0, e1, e2, e3, e4, e5, e6, e7, e8⟩ := idx_facts3 t
  unfold Cert.Spec.G3
  refine Finset.sum_congr rfl fun m _ => ?_
  have h0 : iblk3 V c 0 t (ix3 (0 : Fin 1) m n) = V c main_v4 (ix3 ((((cfg3.win 2).blk t).view.emb (ix3 (0 : Fin 1) n s)) 0) m ((((cfg3.win 2).blk t).view.emb (ix3 (0 : Fin 1) n s)) 1)) := by
    show V c main_v4 (((cfg3.win 0).blk t).view.emb (ix3 (0 : Fin 1) m n)) = _
    refine congrArg (V c main_v4) (funext fun a => Fin.ext ?_)
    match a with
    | ⟨0, _⟩ => show win3_0.index t (0 : Fin 3) * 1 + 1 * 0 = win3_2.index t (0 : Fin 3) * 1 + 1 * 0; omega
    | ⟨1, _⟩ => show win3_0.index t (1 : Fin 3) * 2048 + 1 * m.val = m.val; omega
    | ⟨2, _⟩ => show win3_0.index t (2 : Fin 3) * 2048 + 1 * n.val = win3_2.index t (1 : Fin 3) * 2048 + 1 * n.val; omega
  have h1 : iblk3 V c 1 t (ix3 (0 : Fin 1) m s) = V c main_v9 (ix3 ((((cfg3.win 2).blk t).view.emb (ix3 (0 : Fin 1) n s)) 0) m ((((cfg3.win 2).blk t).view.emb (ix3 (0 : Fin 1) n s)) 2)) := by
    show V c main_v9 (((cfg3.win 1).blk t).view.emb (ix3 (0 : Fin 1) m s)) = _
    refine congrArg (V c main_v9) (funext fun a => Fin.ext ?_)
    match a with
    | ⟨0, _⟩ => show win3_1.index t (0 : Fin 3) * 1 + 1 * 0 = win3_2.index t (0 : Fin 3) * 1 + 1 * 0; omega
    | ⟨1, _⟩ => show win3_1.index t (1 : Fin 3) * 2048 + 1 * m.val = m.val; omega
    | ⟨2, _⟩ => show win3_1.index t (2 : Fin 3) * 192 + 1 * s.val = win3_2.index t (2 : Fin 3) * 192 + 1 * s.val; omega
  exact congr (congrArg _ h0) h1

/-- What point `t` writes back is block `t` of `G3` of the two input arrays. -/
theorem flushed3_eq (c : Dev nD) (t : Fin cfg3.N) :
    (dat3 (F := Ideal) V c).flushed 2 t = ((cfg3.win 2).blk t).view.read (Elt Ideal) (Cert.Spec.G3 (V c main_v4) (V c main_v9)) := by
  show (cfg3.win 2).cut (grid3.coords t) ((dat3 (F := Ideal) V c).after 2 t) = _
  rw [after3_2]
  funext j
  obtain ⟨z, n, s, rfl⟩ : ∃ (z : Fin 1) (n : Fin 2048) (s : Fin 192), j = ix3 z n s := ⟨j 0, j 1, j 2, eq_ix3 j⟩
  obtain rfl : z = 0 := Subsingleton.elim _ _
  exact point3 V c t n s

/-- An index of the array is in point `t`'s block iff each coordinate is in the block's range on its axis. -/
theorem mem_blk3 (t : Fin cfg3.N) (i : S4x2048x192.Idx) :
    i ∈ ((cfg3.win 2).blk t).view.set ↔ ∀ a : Fin 3, win3_2.index t a * S1x2048x192.size a ≤ (i a).val ∧ (i a).val < win3_2.index t a * S1x2048x192.size a + S1x2048x192.size a := by
  show i ∈ ((View.whole main_v10).slice (win3_2.rect t)).set ↔ _
  rw [View.set_slice_whole, Rect.mem_set_unit]
  exact Iff.rfl

/-- Every index of the result array lies in some point's block: the point of matrix `i 0`. -/
theorem cover3 (i : S4x2048x192.Idx) : ∃ t : Fin cfg3.N, (cfg3.win 2).flush t = true ∧ i ∈ ((cfg3.win 2).blk t).view.set := by
  have hi0 : (i 0).val < 4 := (i 0).isLt
  have hi1 : (i 1).val < 2048 := (i 1).isLt
  have hi2 : (i 2).val < 192 := (i 2).isLt
  obtain ⟨t, ht⟩ := idx_onto3 ⟨(i 0).val, hi0⟩
  have q0 : win3_2.index t (0 : Fin 3) = (i 0).val := congrFun ht 0
  have q1 : win3_2.index t (1 : Fin 3) = 0 := congrFun ht 1
  have q2 : win3_2.index t (2 : Fin 3) = 0 := congrFun ht 2
  refine ⟨t, flush3_2 t, ?_⟩
  rw [mem_blk3]
  intro a
  match a with
  | ⟨0, _⟩ => show win3_2.index t (0 : Fin 3) * 1 ≤ (i 0).val ∧ (i 0).val < win3_2.index t (0 : Fin 3) * 1 + 1; omega
  | ⟨1, _⟩ => show win3_2.index t (1 : Fin 3) * 2048 ≤ (i 1).val ∧ (i 1).val < win3_2.index t (1 : Fin 3) * 2048 + 2048; omega
  | ⟨2, _⟩ => show win3_2.index t (2 : Fin 3) * 192 ≤ (i 2).val ∧ (i 2).val < win3_2.index t (2 : Fin 3) * 192 + 192; omega

/-- The result array after the region: `G3` of the two input arrays as the region finds them. -/
theorem final3 (c : Dev nD) :
    (dat3 (F := Ideal) V c).arrAt 2 cfg3.N = Cert.Spec.G3 (V c main_v4) (V c main_v9) :=
  (dat3 (F := Ideal) V c).arrAt_eq_of_cover 2 (Cert.Spec.G3 (V c main_v4) (V c main_v9)) (fun t _ => flushed3_eq V c t) cover3

end Cert.KernelIdeal.HandV

end
-- ==== Proof.KI.Val4.lean ====
import proofs.«159438_j36850819399877_1_alg».proof.Proof.KI.Reg4
import proofs.«159438_j36850819399877_1_alg».proof.Proof.Spec
import proofs.«159438_j36850819399877_1_alg».proof.Proof.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HandV

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! # Region 4 at the ideal values: the result array is `G4` of the three arrays the region is handed -/

/-! ## Layout operations of the body, read at an index -/

/-- The bias row repeated down the rows: entry `(r, j)` is entry `(0, j)` of the row. -/
theorem r4_bcast_rows (v : FVec Ideal S1x768 .f32) (r : Fin 1024) (j : Fin 768) :
    broadcastTo S1024x768 v broadcasts_S1x768_S1024x768 (ix2 r j) = v (ix2 0 j) :=
  broadcastTo_apply v _ (ix2 r j) (ix2 0 j) (fun a => by
    match a with
    | ⟨0, _⟩ => rfl
    | ⟨1, _⟩ => rfl)

/-! ## The body's matrix product: rows of the left operand against columns of the right -/

theorem lhs4_0 (i : S1024x768.Idx) (q : dot_S1024x768_S768x768_S1024x768_1_0_0_1_n_n.contr.Idx) :
    (dot_S1024x768_S768x768_S1024x768_1_0_0_1_n_n.lhsIdx i q 0).val = (i 0).val := by
  unfold DotDims.lhsIdx
  rw [dif_neg (show ¬(0 : Fin S1024x768.rank) ∈ dot_S1024x768_S768x768_S1024x768_1_0_0_1_n_n.lhsBatch by decide), dif_pos (show (0 : Fin S1024x768.rank) ∈ dot_S1024x768_S768x768_S1024x768_1_0_0_1_n_n.lhsNonContracting by decide)]
  rfl
theorem lhs4_1 (i : S1024x768.Idx) (q : dot_S1024x768_S768x768_S1024x768_1_0_0_1_n_n.contr.Idx) :
    (dot_S1024x768_S768x768_S1024x768_1_0_0_1_n_n.lhsIdx i q 1).val = (q ⟨0, by decide⟩).val :=
  dot_S1024x768_S768x768_S1024x768_1_0_0_1_n_n.lhsIdx_val_of_single rfl i q
theorem rhs4_0 (i : S1024x768.Idx) (q : dot_S1024x768_S768x768_S1024x768_1_0_0_1_n_n.contr.Idx) :
    (dot_S1024x768_S768x768_S1024x768_1_0_0_1_n_n.rhsIdx i q 0).val = (q ⟨0, by decide⟩).val :=
  dot_S1024x768_S768x768_S1024x768_1_0_0_1_n_n.rhsIdx_val_of_single rfl i q
theorem rhs4_1 (i : S1024x768.Idx) (q : dot_S1024x768_S768x768_S1024x768_1_0_0_1_n_n.contr.Idx) :
    (dot_S1024x768_S768x768_S1024x768_1_0_0_1_n_n.rhsIdx i q 1).val = (i 1).val := by
  unfold DotDims.rhsIdx
  rw [dif_neg (show ¬(1 : Fin S768x768.rank) ∈ dot_S1024x768_S768x768_S1024x768_1_0_0_1_n_n.rhsBatch by decide), dif_pos (show (1 : Fin S768x768.rank) ∈ dot_S1024x768_S768x768_S1024x768_1_0_0_1_n_n.rhsNonContracting by decide)]
  rfl

/-- The product into a zero accumulator, at `(r, j)`: the sum over `d` of `a[r, d] · b[d, j]`. -/
theorem matmul4_apply (a : FVec Ideal S1024x768 .bf16) (b : FVec Ideal S768x768 .bf16) (r : Fin 1024) (j : Fin 768) :
    matmul dot_S1024x768_S768x768_S1024x768_1_0_0_1_n_n none a b (constant (F := Ideal) S1024x768 .f32 0x00000000#32) (ix2 r j)
      = ∑ d : Fin 768, a (ix2 r d) * b (ix2 d j) := by
  simp only [matmul]
  rw [Ideal.matmul_constant_zero_apply, ← Equiv.sum_comp (ValueIdx.contrEquiv1 dot_S1024x768_S768x768_S1024x768_1_0_0_1_n_n 768 rfl rfl).symm]
  refine Finset.sum_congr rfl fun k _ => ?_
  have hk := ValueIdx.contrEquiv1_symm_val dot_S1024x768_S768x768_S1024x768_1_0_0_1_n_n 768 rfl rfl k
  have el : dot_S1024x768_S768x768_S1024x768_1_0_0_1_n_n.lhsIdx (ix2 r j) ((ValueIdx.contrEquiv1 dot_S1024x768_S768x768_S1024x768_1_0_0_1_n_n 768 rfl rfl).symm k) = ix2 r k := funext fun a => Fin.ext (by
    match a with
    | ⟨0, _⟩ => exact lhs4_0 _ _
    | ⟨1, _⟩ => exact (lhs4_1 _ _).trans hk)
  have er : dot_S1024x768_S768x768_S1024x768_1_0_0_1_n_n.rhsIdx (ix2 r j) ((ValueIdx.contrEquiv1 dot_S1024x768_S768x768_S1024x768_1_0_0_1_n_n 768 rfl rfl).symm k) = ix2 k j := funext fun a => Fin.ext (by
    match a with
    | ⟨0, _⟩ => exact (rhs4_0 _ _).trans hk
    | ⟨1, _⟩ => exact rhs4_1 _ _)
  rw [el, er]

/-! ## The body's payload, and what it leaves in the output buffer, at an index -/

/-- The payload at `(r, j)`: row `r` of the first block against column `j` of the second, plus the bias row, rectified.
    The three shape casts of the body are to the operand's own shape, hence the identity. -/
theorem pay4_apply (x0 : Vec Ideal S1024x768 .bf16) (x1 : Vec Ideal S768x768 .bf16) (x2 : Vec Ideal S1x768 .f32)
    (r : Fin 1024) (j : Fin 768) :
    k4_pay1 (F := Ideal) x0 x1 x2 (ix2 r j)
      = max ((∑ d : Fin 768, x0 (ix2 r d) * x1 (ix2 d j)) + x2 (ix2 0 j)) Cert.Spec.zero := by
  unfold k4_pay1
  refine (maximumf_apply (φ := .f32) _ _ (ix2 r j)).trans ?_
  refine congrArg₂ max ?_ rfl
  refine (addf_apply (φ := .f32) _ _ (ix2 r j)).trans ?_
  refine congrArg₂ (· + ·) ?_ ?_
  · refine (matmul4_apply _ _ r j).trans ?_
    refine Finset.sum_congr rfl fun d _ => ?_
    exact congrArg₂ (· * ·) (congrFun (shapeCast_self x0 shapeCasts_S1024x768_S1024x768) (ix2 r d))
      (congrFun (shapeCast_self x1 shapeCasts_S768x768_S768x768) (ix2 d j))
  · exact (r4_bcast_rows _ r j).trans (congrFun (shapeCast_self x2 shapeCasts_S1x768_S1x768) (ix2 0 j))

theorem r4_hz : (![0, 0] : Fin 2 → Nat) = fun _ => 0 := funext fun a => by fin_cases a <;> rfl

/-- The output buffer after the body, at `(r, j)`. -/
theorem out4_3_apply (x0 : Vec Ideal S1024x768 .bf16) (x1 : Vec Ideal S768x768 .bf16) (x2 : Vec Ideal S1x768 .f32)
    (r : Fin 1024) (j : Fin 768) :
    out4_3 x0 x1 x2 (ix2 r j)
      = max ((∑ d : Fin 768, x0 (ix2 r d) * x1 (ix2 d j)) + x2 (ix2 0 j)) Cert.Spec.zero := by
  unfold out4_3
  rw [View.canon_unit_zero r4_hz]
  simp only [View.ld_unit_zero (S := S1024x768) r4_hz, View.ld_unit_zero (S := S768x768) r4_hz, View.ld_unit_zero (S := S1x768) r4_hz]
  exact pay4_apply x0 x1 x2 r j

/-- The same at any index of the buffer. -/
theorem out4_3_at (x0 : Vec Ideal S1024x768 .bf16) (x1 : Vec Ideal S768x768 .bf16) (x2 : Vec Ideal S1x768 .f32)
    (y : S1024x768.Idx) :
    out4_3 x0 x1 x2 y
      = max ((∑ d : Fin 768, x0 (ix2 (y 0) d) * x1 (ix2 d (y 1))) + x2 (ix2 0 (y 1))) Cert.Spec.zero := by
  obtain ⟨r, j, rfl⟩ : ∃ (r : Fin 1024) (j : Fin 768), y = ix2 r j := ⟨y 0, y 1, eq_ix2 y⟩
  exact out4_3_apply x0 x1 x2 r j

/-! ## From blocks to the array -/

variable (V : (c : Dev nD) → (b : Ref sig .tc) → Buf (Elt Ideal) ((c : Thread nD τ).loc b))

/-- The index maps, decided over the two grid points: the first input and the output move together, `1024` rows per
    point at column offset zero; the second and third inputs are whole arrays, the same block at both points. -/
theorem idx_facts4 : ∀ t : Fin cfg4.N,
      win4_0.index t (0 : Fin 2) = win4_3.index t (0 : Fin 2) ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) ≤ 1 ∧ win4_3.index t (1 : Fin 2) = 0 :=
  (by decide +kernel : ∀ t : Fin grid4.N, _)

/-- Both row blocks of the result are some point's. -/
theorem idx_onto4 : ∀ q : Fin 2, ∃ t : Fin cfg4.N, win4_3.index t = ![q.val, 0] :=
  (by decide +kernel : ∀ q : Fin 2, ∃ t : Fin grid4.N, win4_3.index t = ![q.val, 0])

/-- What point `t` writes back is block `t` of `G4` of the three arrays as the region finds them: the body's result
    at `(r, j)` sums row `r` of the first block against column `j` of the whole second array and adds the bias row;
    row `r` of the first block is row `1024 t + r` of its array, as row `r` of the output block is of the result. -/
theorem flushed4_eq (c : Dev nD) (t : Fin cfg4.N) :
    (dat4 (F := Ideal) V c).flushed 3 t
      = ((cfg4.win 3).blk t).view.read (Elt Ideal) (Cert.Spec.G4 (V c main_v12) (V c main_v13) (V c main_v14)) := by
  show (cfg4.win 3).cut (grid4.coords t) ((dat4 (F := Ideal) V c).after 3 t) = _
  rw [after4_3]
  obtain ⟨a0, a1, b0, b1, c0, c1, d0, d1⟩ := idx_facts4 t
  funext y
  refine (out4_3_at (iblk4 V c 0 t) (iblk4 V c 1 t) (iblk4 V c 2 t) y).trans ?_
  show _ = Cert.Spec.G4 (V c main_v12) (V c main_v13) (V c main_v14) (((cfg4.win 3).blk t).view.emb y)
  unfold Cert.Spec.G4
  refine congrArg₂ max (congrArg₂ (· + ·) (Finset.sum_congr rfl fun d _ => congrArg₂ (· * ·) ?_ ?_) ?_) rfl
  · show V c main_v12 (((cfg4.win 0).blk t).view.emb (ix2 (y 0) d)) = _
    refine congrArg (V c main_v12) (funext fun a => Fin.ext ?_)
    match a with
    | ⟨0, _⟩ => show win4_0.index t (0 : Fin 2) * 1024 + 1 * (y 0).val = win4_3.index t (0 : Fin 2) * 1024 + 1 * (y 0).val; omega
    | ⟨1, _⟩ => show win4_0.index t (1 : Fin 2) * 768 + 1 * d.val = d.val; omega
  · show V c main_v13 (((cfg4.win 1).blk t).view.emb (ix2 d (y 1))) = _
    refine congrArg (V c main_v13) (funext fun a => Fin.ext ?_)
    match a with
    | ⟨0, _⟩ => show win4_1.index t (0 : Fin 2) * 768 + 1 * d.val = d.val; omega
    | ⟨1, _⟩ => show win4_1.index t (1 : Fin 2) * 768 + 1 * (y 1).val = win4_3.index t (1 : Fin 2) * 768 + 1 * (y 1).val; omega
  · show V c main_v14 (((cfg4.win 2).blk t).view.emb (ix2 0 (y 1))) = _
    refine congrArg (V c main_v14) (funext fun a => Fin.ext ?_)
    match a with
    | ⟨0, _⟩ => show win4_2.index t (0 : Fin 2) * 1 + 1 * 0 = 0; omega
    | ⟨1, _⟩ => show win4_2.index t (1 : Fin 2) * 768 + 1 * (y 1).val = win4_3.index t (1 : Fin 2) * 768 + 1 * (y 1).val; omega

/-- An index of the result is in point `t`'s block iff each coordinate is in the block's range on its axis. -/
theorem mem_blk4 (t : Fin cfg4.N) (i : S2048x768.Idx) :
    i ∈ ((cfg4.win 3).blk t).view.set ↔ ∀ a : Fin 2, win4_3.index t a * S1024x768.size a ≤ (i a).val ∧ (i a).val < win4_3.index t a * S1024x768.size a + S1024x768.size a := by
  show i ∈ ((View.whole main_v15).slice (win4_3.rect t)).set ↔ _
  rw [View.set_slice_whole, Rect.mem_set_unit]
  exact Iff.rfl

/-- The two blocks cover the result: row `r` is in the block of the point whose row block is `r / 1024`. -/
theorem cover4 (i : S2048x768.Idx) :
    ∃ t : Fin cfg4.N, (cfg4.win 3).flush t = true ∧ i ∈ ((cfg4.win 3).blk t).view.set := by
  have hi0 : (i 0).val < 2048 := (i 0).isLt
  have hi1 : (i 1).val < 768 := (i 1).isLt
  obtain ⟨t, ht⟩ := idx_onto4 ⟨(i 0).val / 1024, by omega⟩
  have q0 : win4_3.index t (0 : Fin 2) = (i 0).val / 1024 := congrFun ht 0
  have q1 : win4_3.index t (1 : Fin 2) = 0 := congrFun ht 1
  refine ⟨t, flush4_3 t, ?_⟩
  rw [mem_blk4]
  intro a
  match a with
  | ⟨0, _⟩ => show win4_3.index t (0 : Fin 2) * 1024 ≤ (i 0).val ∧ (i 0).val < win4_3.index t (0 : Fin 2) * 1024 + 1024; omega
  | ⟨1, _⟩ => show win4_3.index t (1 : Fin 2) * 768 ≤ (i 1).val ∧ (i 1).val < win4_3.index t (1 : Fin 2) * 768 + 768; omega

/-- The result array after the region is `G4` of the three arrays the region is handed. -/
theorem final4 (c : Dev nD) :
    (dat4 (F := Ideal) V c).arrAt 3 cfg4.N = Cert.Spec.G4 (V c main_v12) (V c main_v13) (V c main_v14) :=
  (dat4 (F := Ideal) V c).arrAt_eq_of_cover 3 (Cert.Spec.G4 (V c main_v12) (V c main_v13) (V c main_v14))
    (fun t _ => flushed4_eq V c t) cover4

end Cert.KernelIdeal.HandV

end
-- ==== Proof.KI.Value.lean ====
/-
  The kernel's result, read off its run.

  The run leaves every unscoped buffer at the last boundary's contents, a fold through the program: a host stretch
  rewrites the buffers its operations name, a launch replaces its result array by the whole-array function of the arrays
  it is handed. Walking that fold backwards from the result array, each array a launch is handed is named, index by
  index, as an argument (through a transpose, a change of shape, or a rounding that is the identity on extended reals)
  or as an earlier stage of the specification:

    v3[k, n]      = V[n, k]                 v2[t, k, 0] = s[0, k, t]         v4 = fm
    v5 = x        v6 = W                    v7 = xw                          v8[t, 0, s] = b[t, s]
    v9 = h1       v10 = h2                  v12[r, 192 t + s] = v10[t, r, s] = comb
    v13 = U       v14[0, j] = u[j]          v15 = out

  An array that no later item writes keeps its contents across the items between (a host stretch that does not name it,
  a launch of which it is no array, a launch that only reads it through an input window).
-/
import proofs.«159438_j36850819399877_1_alg».proof.Proof.KI.Run
import proofs.«159438_j36850819399877_1_alg».proof.Proof.KI.Compose
import proofs.«159438_j36850819399877_1_alg».proof.Proof.KI.Val0
import proofs.«159438_j36850819399877_1_alg».proof.Proof.KI.Val1
import proofs.«159438_j36850819399877_1_alg».proof.Proof.KI.Val2
import proofs.«159438_j36850819399877_1_alg».proof.Proof.KI.Val3
import proofs.«159438_j36850819399877_1_alg».proof.Proof.KI.Val4
import Idealize.ShloMosaic.PureOps.Ideal
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx

/-! ## Changes of shape and transposes read at an index -/

section Layout
variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A rank-3 array with its first two axes exchanged (permutation `[1, 0, 2]`) reads, at `(j, i, k)`, the operand at `(i, j, k)`. -/
theorem transpose_ix3_102_apply {a b c : ℕ} (x : (⟨3, ![a, b, c]⟩ : Shape).Idx → α)
    (h : (⟨3, ![a, b, c]⟩ : Shape).Transposes [1, 0, 2] ⟨3, ![b, a, c]⟩) (j : Fin b) (i : Fin a) (k : Fin c) :
    transpose ⟨3, ![b, a, c]⟩ [1, 0, 2] x h (ix3 j i k) = x (ix3 i j k) :=
  transpose_apply _ x h _ _ fun d => match d with | ⟨0, _⟩ => rfl | ⟨1, _⟩ => rfl | ⟨2, _⟩ => rfl

/-- An `[a, b, c]` array with its last two axes merged reads, at `(i, b' · c + k)`, the operand at `(i, b', k)`. -/
theorem shapeCast_abc_aBC_apply {a b c : ℕ} (x : (⟨3, ![a, b, c]⟩ : Shape).Idx → α)
    (h : (⟨3, ![a, b, c]⟩ : Shape).ShapeCasts ⟨2, ![a, b * c]⟩) (i : Fin a) (p : Fin b) (k : Fin c) (q : Fin (b * c))
    (hq : q.val = p.val * c + k.val) :
    shapeCast ⟨2, ![a, b * c]⟩ x h (ix2 i q) = x (ix3 i p k) :=
  shapeCast_apply x h _ _ (by
    rw [Shape.rowMajor_val_three, Shape.rowMajor_val_two]
    show (i.val * b + p.val) * c + k.val = i.val * (b * c) + q.val
    rw [hq, Nat.add_mul, Nat.mul_assoc, Nat.add_assoc])

end Layout

/-! ## The host stretches read at an index, from any contents `W` -/

section Host
variable (W : Valuation τ sig (Elt Ideal))

/-- The basis handed transposed: `v3[k, n] = arg1[n, k]`. -/
theorem host0_v3 (k n : Fin 2048) :
    (StableHlo.after (hostOps0 (F := Ideal)) W (Proc.devRef .tc main_v3) : S2048x2048.Idx → EReal) (ix2 k n)
      = (W (Proc.devRef .tc main_arg1) : S2048x2048.Idx → EReal) (ix2 n k) := by
  have e : StableHlo.after (hostOps0 (F := Ideal)) W (Proc.devRef .tc main_v3)
      = transpose S2048x2048 [1, 0] (W (Proc.devRef .tc main_arg1)) transposes_S2048x2048_S2048x2048_1_0 := by
    after_results
  rw [e]
  exact transpose_ix2_apply _ _ k n

/-- The signals as a column per scale: `v2[t, k, 0] = arg2[0, k, t]`. -/
theorem host0_v2 (t : Fin 4) (k : Fin 2048) :
    (StableHlo.after (hostOps0 (F := Ideal)) W (Proc.devRef .tc main_v2) : S4x2048x1.Idx → EReal) (ix3 t k 0)
      = (W (Proc.devRef .tc main_arg2) : S1x2048x4.Idx → EReal) (ix3 0 k t) := by
  have e : StableHlo.after (hostOps0 (F := Ideal)) W (Proc.devRef .tc main_v2)
      = shapeCast S4x2048x1 (transpose S4x2048 [1, 0] (shapeCast S2048x4 (W (Proc.devRef .tc main_arg2)) shapeCasts_S1x2048x4_S2048x4)
          transposes_S2048x4_S4x2048_1_0) shapeCasts_S4x2048_S4x2048x1 := by
    after_results
    rfl
  rw [e]
  refine (shapeCast_ab_ab1_apply _ _ t k 0).trans ?_
  refine (transpose_ix2_apply _ _ t k).trans ?_
  exact shapeCast_1ab_ab_apply _ _ k t

/-- A rounding to the narrower format is the identity on extended reals: `v5 = arg0`. -/
theorem host1_v5 (i : S2048x768.Idx) :
    (StableHlo.after (hostOps1 (F := Ideal)) W (Proc.devRef .tc main_v5) : S2048x768.Idx → EReal) i
      = (W (Proc.devRef .tc main_arg0) : S2048x768.Idx → EReal) i := by
  have e : StableHlo.after (hostOps1 (F := Ideal)) W (Proc.devRef .tc main_v5)
      = (truncf .bf16 (W (Proc.devRef .tc main_arg0) : FVec Ideal S2048x768 .f32) bitsLt_bf16_f32 : FVec Ideal S2048x768 .bf16) := by
    after_results
  rw [e]; rfl

theorem host1_v6 (i : S4x768x192.Idx) :
    (StableHlo.after (hostOps1 (F := Ideal)) W (Proc.devRef .tc main_v6) : S4x768x192.Idx → EReal) i
      = (W (Proc.devRef .tc main_arg3) : S4x768x192.Idx → EReal) i := by
  have e : StableHlo.after (hostOps1 (F := Ideal)) W (Proc.devRef .tc main_v6)
      = (truncf .bf16 (W (Proc.devRef .tc main_arg3) : FVec Ideal S4x768x192 .f32) bitsLt_bf16_f32 : FVec Ideal S4x768x192 .bf16) := by
    after_results
  rw [e]; rfl

/-- The biases as a row per scale: `v8[t, 0, s] = arg4[t, s]`. -/
theorem host2_v8 (t : Fin 4) (s : Fin 192) :
    (StableHlo.after (hostOps2 (F := Ideal)) W (Proc.devRef .tc main_v8) : S4x1x192.Idx → EReal) (ix3 t 0 s)
      = (W (Proc.devRef .tc main_arg4) : S4x192.Idx → EReal) (ix2 t s) := by
  have e : StableHlo.after (hostOps2 (F := Ideal)) W (Proc.devRef .tc main_v8)
      = shapeCast S4x1x192 (W (Proc.devRef .tc main_arg4)) shapeCasts_S4x192_S4x1x192 := by
    after_results
    rfl
  rw [e]
  exact shapeCast_ab_a1b_apply _ _ t 0 s

/-- The four results side by side: `v12[r, 192 t + s] = v10[t, r, s]`. -/
theorem host4_v12 (r : Fin 2048) (j : Fin 768) (t : Fin 4) (s : Fin 192) (hj : j.val = t.val * 192 + s.val) :
    (StableHlo.after (hostOps4 (F := Ideal)) W (Proc.devRef .tc main_v12) : S2048x768.Idx → EReal) (ix2 r j)
      = (W (Proc.devRef .tc main_v10) : S4x2048x192.Idx → EReal) (ix3 t r s) := by
  have e : StableHlo.after (hostOps4 (F := Ideal)) W (Proc.devRef .tc main_v12)
      = shapeCast S2048x768 (transpose S2048x4x192 [1, 0, 2] (W (Proc.devRef .tc main_v10)) transposes_S4x2048x192_S2048x4x192_1_0_2)
          shapeCasts_S2048x4x192_S2048x768 := by
    after_results
    rfl
  rw [e]
  refine (shapeCast_abc_aBC_apply (a := 2048) (b := 4) (c := 192) _ _ r t s j hj).trans ?_
  exact transpose_ix3_102_apply _ _ r t s

theorem host4_v13 (i : S768x768.Idx) :
    (StableHlo.after (hostOps4 (F := Ideal)) W (Proc.devRef .tc main_v13) : S768x768.Idx → EReal) i
      = (W (Proc.devRef .tc main_arg5) : S768x768.Idx → EReal) i := by
  have e : StableHlo.after (hostOps4 (F := Ideal)) W (Proc.devRef .tc main_v13)
      = (truncf .bf16 (W (Proc.devRef .tc main_arg5) : FVec Ideal S768x768 .f32) bitsLt_bf16_f32 : FVec Ideal S768x768 .bf16) := by
    after_results
  rw [e]; rfl

/-- The fusion bias as a row: `v14[0, j] = arg6[j]`. -/
theorem host4_v14 (j : Fin 768) :
    (StableHlo.after (hostOps4 (F := Ideal)) W (Proc.devRef .tc main_v14) : S1x768.Idx → EReal) (ix2 0 j)
      = (W (Proc.devRef .tc main_arg6) : S768.Idx → EReal) (ix1 j) := by
  have e : StableHlo.after (hostOps4 (F := Ideal)) W (Proc.devRef .tc main_v14)
      = shapeCast S1x768 (W (Proc.devRef .tc main_arg6)) shapeCasts_S768_S1x768 := by
    after_results
    rfl
  rw [e]
  exact shapeCast_a_1a_apply _ _ 0 j

end Host

/-! ## The argument arrays -/

/-- The seven argument arrays of core `c` as launched. -/
def kargs (m : (ℓ : Loc nD τ sig) → Buf (Elt Ideal) ℓ) (c : Dev nD) : Cert.Spec.Args :=
  ⟨m ((c.tc : Thread nD τ).loc main_arg0), m ((c.tc : Thread nD τ).loc main_arg1), m ((c.tc : Thread nD τ).loc main_arg2),
   m ((c.tc : Thread nD τ).loc main_arg3), m ((c.tc : Thread nD τ).loc main_arg4), m ((c.tc : Thread nD τ).loc main_arg5),
   m ((c.tc : Thread nD τ).loc main_arg6)⟩

section Chain

variable (m : (ℓ : Loc nD τ sig) → Buf (Elt Ideal) ℓ) (ρ : Dev nD → PrngReg) (c : Dev nD)

/-! ## A buffer nothing has written yet holds its launch contents -/

theorem W2_launch (r : Ref sig .tc) (h0 : r ∉ hostW0) (a0 : ∀ w, Pipeline.arrRef spec0 w ≠ r) :
    W2 m ρ c (Proc.devRef .tc r) = m ((c : Thread nD τ).loc r) :=
  (W2_of_ne m ρ c r a0).trans (W1_eq_launch m ρ c r h0)

theorem W4_launch (r : Ref sig .tc) (h0 : r ∉ hostW0) (h1 : r ∉ hostW1)
    (a0 : ∀ w, Pipeline.arrRef spec0 w ≠ r) (a1 : ∀ w, Pipeline.arrRef spec1 w ≠ r) :
    W4 m ρ c (Proc.devRef .tc r) = m ((c : Thread nD τ).loc r) :=
  (W4_of_ne m ρ c r a1).trans ((W3_of m ρ c r h1).trans (W2_launch m ρ c r h0 a0))

theorem W7_launch (r : Ref sig .tc) (h0 : r ∉ hostW0) (h1 : r ∉ hostW1) (h2 : r ∉ hostW2)
    (a0 : ∀ w, Pipeline.arrRef spec0 w ≠ r) (a1 : ∀ w, Pipeline.arrRef spec1 w ≠ r)
    (a2 : ∀ w, Pipeline.arrRef spec2 w ≠ r) (a3 : ∀ w, Pipeline.arrRef spec3 w ≠ r) :
    W7 m ρ c (Proc.devRef .tc r) = m ((c : Thread nD τ).loc r) :=
  (W7_of_ne m ρ c r a3).trans ((W6_of_ne m ρ c r a2).trans ((W5_of m ρ c r h2).trans (W4_launch m ρ c r h0 h1 a0 a1)))

/-! ## The first launch: the filter, normalised and sparsified -/

/-- The basis is untouched by the first host stretch. -/
theorem arg1_at1 : (V1 m ρ c main_arg1 : S2048x2048.Idx → EReal) = (kargs m c).evc :=
  W1_eq_launch m ρ c main_arg1 (by decide)

theorem bd_v3 (k n : Fin 2048) :
    (V1 m ρ c main_v3 : S2048x2048.Idx → EReal) (ix2 k n) = (kargs m c).evc (ix2 n k) :=
  host0_v3 (W0 m ρ c) k n

theorem bd_v2 (t : Fin 4) (k : Fin 2048) :
    (V1 m ρ c main_v2 : S4x2048x1.Idx → EReal) (ix3 t k 0) = (kargs m c).sg (ix3 0 k t) :=
  host0_v2 (W0 m ρ c) t k

theorem bd_v4 (t : Fin 4) (p n : Fin 2048) :
    (W2 m ρ c (Proc.devRef .tc main_v4) : S4x2048x2048.Idx → EReal) (ix3 t p n) = Cert.Spec.fm (kargs m c) t p n := by
  have e : (W2 m ρ c (Proc.devRef .tc main_v4) : S4x2048x2048.Idx → EReal)
      = Cert.Spec.G0 (V1 m ρ c main_arg1) (V1 m ρ c main_v3) (V1 m ρ c main_v2) :=
    (W2_arr m ρ c 3).trans (final0 (V1 m ρ) c)
  rw [e, arg1_at1 m ρ c]
  exact Cert.Spec.G0_eq (kargs m c) _ _ (bd_v3 m ρ c) (bd_v2 m ρ c) t p n

/-- The filter array is written once, by the first launch: the next two host stretches do not name it and the
    second launch has no window on it. -/
theorem v4_at5 : (V5 m ρ c main_v4 : S4x2048x2048.Idx → EReal) = W2 m ρ c (Proc.devRef .tc main_v4) :=
  (W5_of m ρ c main_v4 (by decide)).trans ((W4_of_ne m ρ c main_v4 (by decide)).trans (W3_of m ρ c main_v4 (by decide)))

/-- The third launch reads the filter array through an input window, which leaves the array as entered. -/
theorem v4_at6 : (V6 m ρ c main_v4 : S4x2048x2048.Idx → EReal) = V5 m ρ c main_v4 :=
  (W6_arr m ρ c 0).trans (((dat2 (V5 m ρ) c).arrAt_in 0 rfl _).trans (A_eq2 (V5 m ρ) c 0))

/-! ## The second launch: features times weights -/

theorem bd_v5 (r : Fin 2048) (d : Fin 768) :
    (V3 m ρ c main_v5 : S2048x768.Idx → EReal) (ix2 r d) = (kargs m c).x (ix2 r d) :=
  (host1_v5 (W2 m ρ c) (ix2 r d)).trans
    (congrFun (show (W2 m ρ c (Proc.devRef .tc main_arg0) : S2048x768.Idx → EReal) = (kargs m c).x from
      W2_launch m ρ c main_arg0 (by decide) (by decide)) (ix2 r d))

theorem bd_v6 (t : Fin 4) (d : Fin 768) (s : Fin 192) :
    (V3 m ρ c main_v6 : S4x768x192.Idx → EReal) (ix3 t d s) = (kargs m c).wg (ix3 t d s) :=
  (host1_v6 (W2 m ρ c) (ix3 t d s)).trans
    (congrFun (show (W2 m ρ c (Proc.devRef .tc main_arg3) : S4x768x192.Idx → EReal) = (kargs m c).wg from
      W2_launch m ρ c main_arg3 (by decide) (by decide)) (ix3 t d s))

theorem bd_v7 (t : Fin 4) (r : Fin 2048) (s : Fin 192) :
    (W4 m ρ c (Proc.devRef .tc main_v7) : S4x2048x192.Idx → EReal) (ix3 t r s) = Cert.Spec.xw (kargs m c) t r s := by
  have e : (W4 m ρ c (Proc.devRef .tc main_v7) : S4x2048x192.Idx → EReal)
      = Cert.Spec.G1 (V3 m ρ c main_v5) (V3 m ρ c main_v6) :=
    (W4_arr m ρ c 2).trans (final1 (V3 m ρ) c)
  rw [e]
  exact Cert.Spec.G1_eq (kargs m c) _ _ (bd_v5 m ρ c) (bd_v6 m ρ c) t r s

theorem v7_at5 : (V5 m ρ c main_v7 : S4x2048x192.Idx → EReal) = W4 m ρ c (Proc.devRef .tc main_v7) :=
  W5_of m ρ c main_v7 (by decide)

/-! ## The third launch: one propagation, bias, rectifier -/

theorem bd_v8 (t : Fin 4) (s : Fin 192) :
    (V5 m ρ c main_v8 : S4x1x192.Idx → EReal) (ix3 t 0 s) = (kargs m c).bg (ix2 t s) :=
  (host2_v8 (W4 m ρ c) t s).trans
    (congrFun (show (W4 m ρ c (Proc.devRef .tc main_arg4) : S4x192.Idx → EReal) = (kargs m c).bg from
      W4_launch m ρ c main_arg4 (by decide) (by decide) (by decide) (by decide)) (ix2 t s))

theorem bd_v9 (t : Fin 4) (n : Fin 2048) (s : Fin 192) :
    (W6 m ρ c (Proc.devRef .tc main_v9) : S4x2048x192.Idx → EReal) (ix3 t n s) = Cert.Spec.h1 (kargs m c) t n s := by
  have e : (W6 m ρ c (Proc.devRef .tc main_v9) : S4x2048x192.Idx → EReal)
      = Cert.Spec.G2 (V5 m ρ c main_v4) (V5 m ρ c main_v7) (V5 m ρ c main_v8) :=
    (W6_arr m ρ c 3).trans (final2 (V5 m ρ) c)
  rw [e]
  exact Cert.Spec.G2_eq (kargs m c) _ _ _
    (fun t p n => (congrFun (v4_at5 m ρ c) (ix3 t p n)).trans (bd_v4 m ρ c t p n))
    (fun t r s => (congrFun (v7_at5 m ρ c) (ix3 t r s)).trans (bd_v7 m ρ c t r s))
    (bd_v8 m ρ c) t n s

/-! ## The fourth launch: the second propagation -/

theorem bd_v10 (t : Fin 4) (n : Fin 2048) (s : Fin 192) :
    (W7 m ρ c (Proc.devRef .tc main_v10) : S4x2048x192.Idx → EReal) (ix3 t n s) = Cert.Spec.h2 (kargs m c) t n s := by
  have e : (W7 m ρ c (Proc.devRef .tc main_v10) : S4x2048x192.Idx → EReal)
      = Cert.Spec.G3 (V6 m ρ c main_v4) (V6 m ρ c main_v9) :=
    (W7_arr m ρ c 2).trans (final3 (V6 m ρ) c)
  rw [e]
  exact Cert.Spec.G3_eq (kargs m c) _ _
    (fun t p n => (congrFun ((v4_at6 m ρ c).trans (v4_at5 m ρ c)) (ix3 t p n)).trans (bd_v4 m ρ c t p n))
    (bd_v9 m ρ c) t n s

/-! ## The last launch: the fusion layer -/

theorem bd_v12 (r : Fin 2048) (j : Fin 768) :
    (V8 m ρ c main_v12 : S2048x768.Idx → EReal) (ix2 r j) = Cert.Spec.comb (kargs m c) r j :=
  (host4_v12 (W7 m ρ c) r j ⟨j.val / 192, by have := j.isLt; omega⟩ ⟨j.val % 192, Nat.mod_lt _ (by decide)⟩
    (by show j.val = j.val / 192 * 192 + j.val % 192; omega)).trans
    (bd_v10 m ρ c ⟨j.val / 192, by have := j.isLt; omega⟩ r ⟨j.val % 192, Nat.mod_lt _ (by decide)⟩)

theorem bd_v13 (d j : Fin 768) :
    (V8 m ρ c main_v13 : S768x768.Idx → EReal) (ix2 d j) = (kargs m c).fw (ix2 d j) :=
  (host4_v13 (W7 m ρ c) (ix2 d j)).trans
    (congrFun (show (W7 m ρ c (Proc.devRef .tc main_arg5) : S768x768.Idx → EReal) = (kargs m c).fw from
      W7_launch m ρ c main_arg5 (by decide) (by decide) (by decide) (by decide) (by decide) (by decide) (by decide)) (ix2 d j))

theorem bd_v14 (j : Fin 768) :
    (V8 m ρ c main_v14 : S1x768.Idx → EReal) (ix2 0 j) = (kargs m c).fb (ix1 j) :=
  (host4_v14 (W7 m ρ c) j).trans
    (congrFun (show (W7 m ρ c (Proc.devRef .tc main_arg6) : S768.Idx → EReal) = (kargs m c).fb from
      W7_launch m ρ c main_arg6 (by decide) (by decide) (by decide) (by decide) (by decide) (by decide) (by decide)) (ix1 j))

/-- The result array at the last boundary is the specification's result of the launch arguments. -/
theorem W9_out : W9 (F := Ideal) m ρ c (Proc.devRef .tc main_v15) = Cert.Spec.outArr (kargs m c) :=
  ((W9_arr m ρ c 3).trans (final4 (V8 m ρ) c)).trans
    (Cert.Spec.G4_eq (kargs m c) _ _ _ (bd_v12 m ρ c) (bd_v13 m ρ c) (bd_v14 m ρ c))

end Chain

/-- THE VALUE RUN: every weakly fair execution of @main terminates, nothing faulting, and in every final state the
    result array holds the specification's result of the launch arguments and the seven arguments are as launched. -/
theorem value_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v15) = Cert.Spec.outArr (kargs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v15 (by decide))).trans (W9_out m ρ c),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c)⟩)
    (run_all m ρ)

end Cert.KernelIdeal.HandV

end
-- ==== Proof.Ref.T0.lean ====
/-
  The reference program's first scale, read against the specification.

  For scale `t` the program takes row `t` of the transposed signals, forms `s_t[k] · V[n, k]`, multiplies `V` by it (the
  spectral filter), squares and sums each column, takes the root, floors it, divides, and keeps the quotients whose
  absolute value exceeds the threshold (else the zero word); it then forms `x · W_t`, propagates it through the transposed
  kept filter, adds the bias, rectifies, and propagates once more. Each stage below is read at an index built from its
  coordinates: a layout operation moves the index, a pointwise operation reads its operands at the same index, a matrix
  product is the sum over the contracted coordinate, and the column sum starts from the zero word, which is the real zero.
  Here `t = 0`.
-/
import proofs.«159438_j36850819399877_1_alg».proof.Proof.Gen.ReferenceIdeal.Read
import proofs.«159438_j36850819399877_1_alg».proof.Proof.Spec

noncomputable section

open scoped BigOperators

namespace Cert.ReferenceIdeal.HandV

open Cert.ReferenceIdeal Cert.ReferenceIdeal.Read Cert.Spec
open Idealize.ShloMosaic Idealize.ShloMosaic.ValueIdx

/-! ## The signals -/

/-- The signals, transposed: row `t` of the 4 × 2048 array is column `t` of the argument. -/
theorem sig_row (sg : (⟨3, ![1, 2048, 4]⟩ : Shape).Idx → EReal) (t : Fin 4) (k : Fin 2048) :
    val_main_v1 (F := Ideal) sg (ix2 t k) = sg (ix3 0 k t) := by
  rw [val_main_v1_apply, val_main_v0_apply]
  refine congrArg sg (funext fun b => Fin.ext ?_)
  match b with
  | ⟨0, _⟩ => rfl
  | ⟨1, _⟩ => show (k.val * 4 + t.val) / 4 % 2048 = k.val; omega
  | ⟨2, _⟩ => show (k.val * 4 + t.val) % 4 = t.val; omega

/-! ## Scale 0 -/

/-- The first signal, spread along the rows of a square array. -/
theorem sig0 (sg : (⟨3, ![1, 2048, 4]⟩ : Shape).Idx → EReal) (k n : Fin 2048) :
    val_main_v6 (F := Ideal) sg (ix2 k n) = sg (ix3 0 k 0) := by
  rw [val_main_v6_apply, val_main_v4_apply, val_main_v3_apply, val_main_v2_apply, ← sig_row sg 0 k]
  refine congrArg (val_main_v1 (F := Ideal) sg) (funext fun b => Fin.ext ?_)
  match b with
  | ⟨0, _⟩ => rfl
  | ⟨1, _⟩ => show k.val % 2048 = k.val; omega

/-- The scaled transpose: entry `(k, n)` is `s_0[k] · V[n, k]`. -/
theorem sv0 (a : Args) (k n : Fin 2048) :
    val_main_v7 (F := Ideal) a.evc a.sg (ix2 k n) = a.sg (ix3 0 k 0) * a.evc (ix2 n k) := by
  rw [val_main_v7_apply, sig0, val_main_v5_apply]
  refine congrArg (fun j => a.sg (ix3 0 k 0) * a.evc j) (funext fun b => Fin.ext ?_)
  match b with
  | ⟨0, _⟩ => rfl
  | ⟨1, _⟩ => rfl

/-- The spectral filter at scale 0. -/
theorem filt0 (a : Args) (m n : Fin 2048) :
    val_main_v8 (F := Ideal) a.evc a.sg (ix2 m n) = filt a 0 m n := by
  rw [val_main_v8_apply]
  unfold filt
  refine Finset.sum_congr rfl fun k _ => ?_
  have el : lidx_main_v8 (ix2 m n) k = ix2 m k := funext fun b => Fin.ext (by match b with | ⟨0, _⟩ => rfl | ⟨1, _⟩ => rfl)
  have er : ridx_main_v8 (ix2 m n) k = ix2 k n := funext fun b => Fin.ext (by match b with | ⟨0, _⟩ => rfl | ⟨1, _⟩ => rfl)
  rw [el, er, sv0]

/-- The squared length of column `n` of the filter at scale 0; the sum starts from the zero word. -/
theorem colsq0 (a : Args) (n : Fin 2048) :
    val_main_v10 (F := Ideal) a.evc a.sg (ix1 n) = colsq a 0 n := by
  rw [val_main_v10_apply]
  unfold colsq
  have hz : ∀ i, (val_main_cst (F := Ideal)) i = 0 := fun _ => zero_eq
  rw [hz, zero_add]
  refine Finset.sum_congr rfl fun k _ => ?_
  have e : idx_main_v10 (ix1 n) k = ix2 k n := funext fun b => Fin.ext (by match b with | ⟨0, _⟩ => rfl | ⟨1, _⟩ => rfl)
  rw [e, val_main_v9_apply, filt0]
  rfl

/-- The normalised entry at scale 0: the filter's entry over the floored length of its column. -/
theorem norm0 (a : Args) (m n : Fin 2048) :
    val_main_v16 (F := Ideal) a.evc a.sg (ix2 m n) = normed (filt a 0 m n) (colsq a 0 n) := by
  have e : idx_main_v11 (idx_main_v15 (ix2 m n)) = ix1 n := funext fun b => Fin.ext (by match b with | ⟨0, _⟩ => rfl)
  rw [val_main_v16_apply, filt0, val_main_v15_apply, val_main_v14_apply, val_main_v12_apply, val_main_v11_apply, e, colsq0,
    val_main_v13_apply, val_main_cst_0_apply]
  rfl

/-- The sparsified normalised filter at scale 0. -/
theorem fm0 (a : Args) (m n : Fin 2048) :
    val_main_v20 (F := Ideal) a.evc a.sg (ix2 m n) = fm a 0 m n := by
  rw [val_main_v20_apply, val_main_v19_apply, val_main_v17_apply, norm0, val_main_v18_apply, val_main_cst_1_apply,
    val_main_call0_v1_apply, val_main_call0_v0_apply, val_main_cst_2_apply]
  rfl

/-- The first weight matrix: entry `(d, s)` of the 768 × 192 slice is `W_0[d, s]`. -/
theorem w0 (wg : (⟨3, ![4, 768, 192]⟩ : Shape).Idx → EReal) (d : Fin 768) (s : Fin 192) :
    val_main_v23 (F := Ideal) wg (ix2 d s) = wg (ix3 0 d s) := by
  rw [val_main_v23_apply, val_main_v22_apply]
  refine congrArg wg (funext fun b => Fin.ext ?_)
  match b with
  | ⟨0, _⟩ => rfl
  | ⟨1, _⟩ => show (d.val * 192 + s.val) / 192 % 768 = d.val; omega
  | ⟨2, _⟩ => show (d.val * 192 + s.val) % 192 = s.val; omega

/-- The features through the first weight matrix. -/
theorem xw0 (a : Args) (r : Fin 2048) (s : Fin 192) :
    val_main_v24 (F := Ideal) a.x a.wg (ix2 r s) = xw a 0 r s := by
  rw [val_main_v24_apply]
  unfold xw
  refine Finset.sum_congr rfl fun k _ => ?_
  have el : lidx_main_v24 (ix2 r s) k = ix2 r k := funext fun b => Fin.ext (by match b with | ⟨0, _⟩ => rfl | ⟨1, _⟩ => rfl)
  have er : ridx_main_v24 (ix2 r s) k = ix2 k s := funext fun b => Fin.ext (by match b with | ⟨0, _⟩ => rfl | ⟨1, _⟩ => rfl)
  rw [el, er, w0]

/-- The first bias, spread along the rows. -/
theorem b0 (bg : (⟨2, ![4, 192]⟩ : Shape).Idx → EReal) (n : Fin 2048) (s : Fin 192) :
    val_main_v29 (F := Ideal) bg (ix2 n s) = bg (ix2 0 s) := by
  rw [val_main_v29_apply, val_main_v28_apply, val_main_v27_apply, val_main_v26_apply]
  refine congrArg bg (funext fun b => Fin.ext ?_)
  match b with
  | ⟨0, _⟩ => rfl
  | ⟨1, _⟩ => show s.val % 192 = s.val; omega

/-- One propagation through the transposed filter at scale 0, before bias and rectifier. -/
theorem prop0 (a : Args) (n : Fin 2048) (s : Fin 192) :
    val_main_v25 (F := Ideal) a.x a.evc a.sg a.wg (ix2 n s) = ∑ m : Fin 2048, fm a 0 m n * xw a 0 m s := by
  rw [val_main_v25_apply]
  refine Finset.sum_congr rfl fun k _ => ?_
  have el : idx_main_v21 (lidx_main_v25 (ix2 n s) k) = ix2 k n := funext fun b => Fin.ext (by match b with | ⟨0, _⟩ => rfl | ⟨1, _⟩ => rfl)
  have er : ridx_main_v25 (ix2 n s) k = ix2 k s := funext fun b => Fin.ext (by match b with | ⟨0, _⟩ => rfl | ⟨1, _⟩ => rfl)
  rw [val_main_v21_apply, el, er, fm0, xw0]

/-- The first layer at scale 0: propagation, bias, rectifier (the rectifier's zero is the zero word). -/
theorem h1_0 (a : Args) (n : Fin 2048) (s : Fin 192) :
    val_main_v31 (F := Ideal) a.x a.evc a.sg a.wg a.bg (ix2 n s) = h1 a 0 n s := by
  rw [val_main_v31_apply, val_main_v30_apply, prop0, b0, val_main_call1_v0_apply, val_main_call1_cst_apply]
  rfl

/-- The second propagation through the transposed filter at scale 0. -/
theorem h2_0 (a : Args) (n : Fin 2048) (s : Fin 192) :
    val_main_v33 (F := Ideal) a.x a.evc a.sg a.wg a.bg (ix2 n s) = h2 a 0 n s := by
  rw [val_main_v33_apply]
  unfold h2
  refine Finset.sum_congr rfl fun k _ => ?_
  have el : idx_main_v32 (lidx_main_v33 (ix2 n s) k) = ix2 k n := funext fun b => Fin.ext (by match b with | ⟨0, _⟩ => rfl | ⟨1, _⟩ => rfl)
  have er : ridx_main_v33 (ix2 n s) k = ix2 k s := funext fun b => Fin.ext (by match b with | ⟨0, _⟩ => rfl | ⟨1, _⟩ => rfl)
  rw [val_main_v32_apply, el, er, fm0, h1_0]

end Cert.ReferenceIdeal.HandV

end
-- ==== Proof.Ref.T1.lean ====
import proofs.«159438_j36850819399877_1_alg».proof.Proof.Gen.ReferenceIdeal.Read
import proofs.«159438_j36850819399877_1_alg».proof.Proof.Spec
import proofs.«159438_j36850819399877_1_alg».proof.Proof.Ref.T0

noncomputable section

open scoped BigOperators

namespace Cert.ReferenceIdeal.HandV

open Cert.ReferenceIdeal Cert.ReferenceIdeal.Read Cert.Spec
open Idealize.ShloMosaic Idealize.ShloMosaic.ValueIdx

/-! ## Scale 1 -/

/-- The second signal, spread along the rows of a square array. -/
theorem sig1 (sg : (⟨3, ![1, 2048, 4]⟩ : Shape).Idx → EReal) (k n : Fin 2048) :
    val_main_v38 (F := Ideal) sg (ix2 k n) = sg (ix3 0 k 1) := by
  rw [val_main_v38_apply, val_main_v36_apply, val_main_v35_apply, val_main_v34_apply, ← sig_row sg 1 k]
  refine congrArg (val_main_v1 (F := Ideal) sg) (funext fun b => Fin.ext ?_)
  match b with
  | ⟨0, _⟩ => rfl
  | ⟨1, _⟩ => show k.val % 2048 = k.val; omega

/-- The scaled transpose: entry `(k, n)` is `s_1[k] · V[n, k]`. -/
theorem sv1 (a : Args) (k n : Fin 2048) :
    val_main_v39 (F := Ideal) a.evc a.sg (ix2 k n) = a.sg (ix3 0 k 1) * a.evc (ix2 n k) := by
  rw [val_main_v39_apply, sig1, val_main_v37_apply]
  refine congrArg (fun j => a.sg (ix3 0 k 1) * a.evc j) (funext fun b => Fin.ext ?_)
  match b with
  | ⟨0, _⟩ => rfl
  | ⟨1, _⟩ => rfl

/-- The spectral filter at scale 1. -/
theorem filt1 (a : Args) (m n : Fin 2048) :
    val_main_v40 (F := Ideal) a.evc a.sg (ix2 m n) = filt a 1 m n := by
  rw [val_main_v40_apply]
  unfold filt
  refine Finset.sum_congr rfl fun k _ => ?_
  have el : lidx_main_v40 (ix2 m n) k = ix2 m k := funext fun b => Fin.ext (by match b with | ⟨0, _⟩ => rfl | ⟨1, _⟩ => rfl)
  have er : ridx_main_v40 (ix2 m n) k = ix2 k n := funext fun b => Fin.ext (by match b with | ⟨0, _⟩ => rfl | ⟨1, _⟩ => rfl)
  rw [el, er, sv1]

/-- The squared length of column `n` of the filter at scale 1; the sum starts from the zero word. -/
theorem colsq1 (a : Args) (n : Fin 2048) :
    val_main_v42 (F := Ideal) a.evc a.sg (ix1 n) = colsq a 1 n := by
  rw [val_main_v42_apply]
  unfold colsq
  have hz : ∀ i, (val_main_cst_3 (F := Ideal)) i = 0 := fun _ => zero_eq
  rw [hz, zero_add]
  refine Finset.sum_congr rfl fun k _ => ?_
  have e : idx_main_v42 (ix1 n) k = ix2 k n := funext fun b => Fin.ext (by match b with | ⟨0, _⟩ => rfl | ⟨1, _⟩ => rfl)
  rw [e, val_main_v41_apply, filt1]
  rfl

/-- The normalised entry at scale 1: the filter's entry over the floored length of its column. -/
theorem norm1 (a : Args) (m n : Fin 2048) :
    val_main_v48 (F := Ideal) a.evc a.sg (ix2 m n) = normed (filt a 1 m n) (colsq a 1 n) := by
  have e : idx_main_v43 (idx_main_v47 (ix2 m n)) = ix1 n := funext fun b => Fin.ext (by match b with | ⟨0, _⟩ => rfl)
  rw [val_main_v48_apply, filt1, val_main_v47_apply, val_main_v46_apply, val_main_v44_apply, val_main_v43_apply, e, colsq1,
    val_main_v45_apply, val_main_cst_4_apply]
  rfl

/-- The sparsified normalised filter at scale 1. -/
theorem fm1 (a : Args) (m n : Fin 2048) :
    val_main_v52 (F := Ideal) a.evc a.sg (ix2 m n) = fm a 1 m n := by
  rw [val_main_v52_apply, val_main_v51_apply, val_main_v49_apply, norm1, val_main_v50_apply, val_main_cst_5_apply,
    val_main_call2_v1_apply, val_main_call2_v0_apply, val_main_cst_6_apply]
  rfl

/-- The second weight matrix: entry `(d, s)` of the 768 × 192 slice is `W_1[d, s]`. -/
theorem w1 (wg : (⟨3, ![4, 768, 192]⟩ : Shape).Idx → EReal) (d : Fin 768) (s : Fin 192) :
    val_main_v55 (F := Ideal) wg (ix2 d s) = wg (ix3 1 d s) := by
  rw [val_main_v55_apply, val_main_v54_apply]
  refine congrArg wg (funext fun b => Fin.ext ?_)
  match b with
  | ⟨0, _⟩ => rfl
  | ⟨1, _⟩ => show (d.val * 192 + s.val) / 192 % 768 = d.val; omega
  | ⟨2, _⟩ => show (d.val * 192 + s.val) % 192 = s.val; omega

/-- The features through the second weight matrix. -/
theorem xw1 (a : Args) (r : Fin 2048) (s : Fin 192) :
    val_main_v56 (F := Ideal) a.x a.wg (ix2 r s) = xw a 1 r s := by
  rw [val_main_v56_apply]
  unfold xw
  refine Finset.sum_congr rfl fun k _ => ?_
  have el : lidx_main_v56 (ix2 r s) k = ix2 r k := funext fun b => Fin.ext (by match b with | ⟨0, _⟩ => rfl | ⟨1, _⟩ => rfl)
  have er : ridx_main_v56 (ix2 r s) k = ix2 k s := funext fun b => Fin.ext (by match b with | ⟨0, _⟩ => rfl | ⟨1, _⟩ => rfl)
  rw [el, er, w1]

/-- The second bias, spread along the rows. -/
theorem b1 (bg : (⟨2, ![4, 192]⟩ : Shape).Idx → EReal) (n : Fin 2048) (s : Fin 192) :
    val_main_v61 (F := Ideal) bg (ix2 n s) = bg (ix2 1 s) := by
  rw [val_main_v61_apply, val_main_v60_apply, val_main_v59_apply, val_main_v58_apply]
  refine congrArg bg (funext fun b => Fin.ext ?_)
  match b with
  | ⟨0, _⟩ => rfl
  | ⟨1, _⟩ => show s.val % 192 = s.val; omega

/-- One propagation through the transposed filter at scale 1, before bias and rectifier. -/
theorem prop1 (a : Args) (n : Fin 2048) (s : Fin 192) :
    val_main_v57 (F := Ideal) a.x a.evc a.sg a.wg (ix2 n s) = ∑ m : Fin 2048, fm a 1 m n * xw a 1 m s := by
  rw [val_main_v57_apply]
  refine Finset.sum_congr rfl fun k _ => ?_
  have el : idx_main_v53 (lidx_main_v57 (ix2 n s) k) = ix2 k n := funext fun b => Fin.ext (by match b with | ⟨0, _⟩ => rfl | ⟨1, _⟩ => rfl)
  have er : ridx_main_v57 (ix2 n s) k = ix2 k s := funext fun b => Fin.ext (by match b with | ⟨0, _⟩ => rfl | ⟨1, _⟩ => rfl)
  rw [val_main_v53_apply, el, er, fm1, xw1]

/-- The first layer at scale 1: propagation, bias, rectifier (the rectifier's zero is the zero word). -/
theorem h1_1 (a : Args) (n : Fin 2048) (s : Fin 192) :
    val_main_v63 (F := Ideal) a.x a.evc a.sg a.wg a.bg (ix2 n s) = h1 a 1 n s := by
  rw [val_main_v63_apply, val_main_v62_apply, prop1, b1, val_main_call3_v0_apply, val_main_call3_cst_apply]
  rfl

/-- The second propagation through the transposed filter at scale 1. -/
theorem h2_1 (a : Args) (n : Fin 2048) (s : Fin 192) :
    val_main_v65 (F := Ideal) a.x a.evc a.sg a.wg a.bg (ix2 n s) = h2 a 1 n s := by
  rw [val_main_v65_apply]
  unfold h2
  refine Finset.sum_congr rfl fun k _ => ?_
  have el : idx_main_v64 (lidx_main_v65 (ix2 n s) k) = ix2 k n := funext fun b => Fin.ext (by match b with | ⟨0, _⟩ => rfl | ⟨1, _⟩ => rfl)
  have er : ridx_main_v65 (ix2 n s) k = ix2 k s := funext fun b => Fin.ext (by match b with | ⟨0, _⟩ => rfl | ⟨1, _⟩ => rfl)
  rw [val_main_v64_apply, el, er, fm1, h1_1]

end Cert.ReferenceIdeal.HandV

end
-- ==== Proof.Ref.T2.lean ====
/-
  The reference's scale t = 2 read against the specification: each stage of the reference program for this scale,
  read at an index, is the specification's quantity of the same name.
    filt_2[m, n]  = Σ_k V[m, k] · (s_2[k] · V[n, k])
    colsq_2[n]    = Σ_m filt_2[m, n]²
    fm_2[m, n]    = keep (filt_2[m, n]) (colsq_2[n])
    xw_2[r, s]    = Σ_d x[r, d] · W_2[d, s]
    h1_2[n, s]    = max (Σ_m fm_2[m, n] · xw_2[m, s] + b_2[s]) 0
    h2_2[n, s]    = Σ_m fm_2[m, n] · h1_2[m, s]
-/
import proofs.«159438_j36850819399877_1_alg».proof.Proof.Gen.ReferenceIdeal.Read
import proofs.«159438_j36850819399877_1_alg».proof.Proof.Spec

noncomputable section

open scoped BigOperators

namespace Cert.ReferenceIdeal.HandV

open Cert.ReferenceIdeal Cert.ReferenceIdeal.Read Cert.Spec
open Idealize.ShloMosaic Idealize.ShloMosaic.ValueIdx

/-! ## Scale t = 2 -/

/-- The signal s_2 broadcast along the columns: entry (k, n) is s_2[k]. The row-major reshape of the 1 × 2048 × 4
    array to 2048 × 4 keeps the flat position, so position (k, 2) comes from (0, k, 2). -/
theorem sig2 (a : Args) (k n : Fin 2048) :
    val_main_v70 (F := Ideal) a.sg (ix2 k n) = a.sg (ix3 0 k 2) := by
  rw [val_main_v70_apply, val_main_v68_apply, val_main_v67_apply, val_main_v66_apply, val_main_v1_apply,
    val_main_v0_apply]
  refine congrArg a.sg (funext fun d => Fin.ext ?_)
  have hk := k.isLt
  match d with
  | ⟨0, _⟩ => rfl
  | ⟨1, _⟩ => show ((k.val % 2048) * 4 + (2 + 0)) / 4 % 2048 = k.val; omega
  | ⟨2, _⟩ => show ((k.val % 2048) * 4 + (2 + 0)) % 4 = 2; omega

/-- The spectral filter of scale 2: V · diag(s_2) · Vᵀ at (m, n). -/
theorem filt2 (a : Args) (m n : Fin 2048) :
    val_main_v72 (F := Ideal) a.evc a.sg (ix2 m n) = filt a 2 m n := by
  rw [val_main_v72_apply]
  unfold filt
  refine Finset.sum_congr rfl fun k _ => ?_
  have e1 : lidx_main_v72 (ix2 m n) k = ix2 m k := funext fun d => Fin.ext (by match d with | ⟨0, _⟩ => rfl | ⟨1, _⟩ => rfl)
  have e2 : ridx_main_v72 (ix2 m n) k = ix2 k n := funext fun d => Fin.ext (by match d with | ⟨0, _⟩ => rfl | ⟨1, _⟩ => rfl)
  have e3 : idx_main_v69 (ix2 k n) = ix2 n k := funext fun d => Fin.ext (by match d with | ⟨0, _⟩ => rfl | ⟨1, _⟩ => rfl)
  rw [e1, e2, val_main_v71_apply, sig2, val_main_v69_apply, e3]
  rfl

/-- The squared length of column n of the scale-2 filter; the sum starts from the zero word. -/
theorem colsq2 (a : Args) (n : Fin 2048) :
    val_main_v74 (F := Ideal) a.evc a.sg (ix1 n) = colsq a 2 n := by
  rw [val_main_v74_apply]
  unfold colsq
  have hz : val_main_cst_7 (F := Ideal) (Shape.Idx.first Gen.h_S_) = zero := rfl
  rw [hz, zero_eq, zero_add]
  refine Finset.sum_congr rfl fun k _ => ?_
  have e1 : idx_main_v74 (ix1 n) k = ix2 k n := funext fun d => Fin.ext (by match d with | ⟨0, _⟩ => rfl | ⟨1, _⟩ => rfl)
  rw [e1, val_main_v73_apply, filt2]
  rfl

/-- The scale-2 filter's entry divided by its column's length (floored). -/
theorem normed2 (a : Args) (m n : Fin 2048) :
    val_main_v80 (F := Ideal) a.evc a.sg (ix2 m n) = normed (filt a 2 m n) (colsq a 2 n) := by
  have e1 : idx_main_v75 (idx_main_v79 (ix2 m n)) = ix1 n := funext fun d => Fin.ext (by match d with | ⟨0, _⟩ => rfl)
  rw [val_main_v80_apply, filt2, val_main_v79_apply, val_main_v78_apply, val_main_v76_apply, val_main_v75_apply, e1, colsq2,
    val_main_v77_apply, val_main_cst_8_apply]
  rfl

/-- The normalised scale-2 filter with its small entries dropped. -/
theorem fm2 (a : Args) (m n : Fin 2048) :
    val_main_v84 (F := Ideal) a.evc a.sg (ix2 m n) = fm a 2 m n := by
  rw [val_main_v84_apply, val_main_v83_apply, val_main_v81_apply, normed2, val_main_v82_apply, val_main_cst_9_apply,
    val_main_call4_v1_apply, val_main_call4_v0_apply, val_main_cst_10_apply]
  rfl

/-- The scale-2 weight matrix W_2 as a 768 × 192 array: the slice [2:3] of the 4 × 768 × 192 array, its unit axis dropped. -/
theorem w2 (a : Args) (d : Fin 768) (s : Fin 192) :
    val_main_v87 (F := Ideal) a.wg (ix2 d s) = a.wg (ix3 2 d s) := by
  rw [val_main_v87_apply, val_main_v86_apply]
  refine congrArg a.wg (funext fun c => Fin.ext ?_)
  have hd := d.isLt
  have hs := s.isLt
  match c with
  | ⟨0, _⟩ => rfl
  | ⟨1, _⟩ => show (d.val * 192 + s.val) / 192 % 768 = d.val; omega
  | ⟨2, _⟩ => show (d.val * 192 + s.val) % 192 = s.val; omega

/-- The features times the scale-2 weights. -/
theorem xw2 (a : Args) (r : Fin 2048) (s : Fin 192) :
    val_main_v88 (F := Ideal) a.x a.wg (ix2 r s) = xw a 2 r s := by
  rw [val_main_v88_apply]
  unfold xw
  refine Finset.sum_congr rfl fun k _ => ?_
  have e1 : lidx_main_v88 (ix2 r s) k = ix2 r k := funext fun d => Fin.ext (by match d with | ⟨0, _⟩ => rfl | ⟨1, _⟩ => rfl)
  have e2 : ridx_main_v88 (ix2 r s) k = ix2 k s := funext fun d => Fin.ext (by match d with | ⟨0, _⟩ => rfl | ⟨1, _⟩ => rfl)
  rw [e1, e2, w2]

/-- The scale-2 bias broadcast along the rows: entry (n, s) is b_2[s]. -/
theorem bias2 (a : Args) (n : Fin 2048) (s : Fin 192) :
    val_main_v93 (F := Ideal) a.bg (ix2 n s) = a.bg (ix2 2 s) := by
  rw [val_main_v93_apply, val_main_v92_apply, val_main_v91_apply, val_main_v90_apply]
  refine congrArg a.bg (funext fun c => Fin.ext ?_)
  have hs := s.isLt
  match c with
  | ⟨0, _⟩ => rfl
  | ⟨1, _⟩ => show s.val % 192 = s.val; omega

/-- One propagation through fm_2ᵀ, the bias, the rectifier. -/
theorem h1_2 (a : Args) (n : Fin 2048) (s : Fin 192) :
    val_main_v95 (F := Ideal) a.x a.evc a.sg a.wg a.bg (ix2 n s) = h1 a 2 n s := by
  rw [val_main_v95_apply, val_main_v94_apply, val_main_v89_apply, bias2, val_main_call5_v0_apply, val_main_call5_cst_apply]
  unfold h1
  have hsum : (∑ k : Fin 2048, val_main_v85 (F := Ideal) a.evc a.sg (lidx_main_v89 (ix2 n s) k)
        * val_main_v88 (F := Ideal) a.x a.wg (ridx_main_v89 (ix2 n s) k)) = ∑ m : Fin 2048, fm a 2 m n * xw a 2 m s := by
    refine Finset.sum_congr rfl fun k _ => ?_
    have e1 : idx_main_v85 (lidx_main_v89 (ix2 n s) k) = ix2 k n := funext fun d => Fin.ext (by match d with | ⟨0, _⟩ => rfl | ⟨1, _⟩ => rfl)
    have e2 : ridx_main_v89 (ix2 n s) k = ix2 k s := funext fun d => Fin.ext (by match d with | ⟨0, _⟩ => rfl | ⟨1, _⟩ => rfl)
    rw [val_main_v85_apply, e1, fm2, e2, xw2]
  rw [hsum]
  rfl

/-- The second propagation through fm_2ᵀ. -/
theorem h2_2 (a : Args) (n : Fin 2048) (s : Fin 192) :
    val_main_v97 (F := Ideal) a.x a.evc a.sg a.wg a.bg (ix2 n s) = h2 a 2 n s := by
  rw [val_main_v97_apply]
  unfold h2
  refine Finset.sum_congr rfl fun k _ => ?_
  have e1 : idx_main_v96 (lidx_main_v97 (ix2 n s) k) = ix2 k n := funext fun d => Fin.ext (by match d with | ⟨0, _⟩ => rfl | ⟨1, _⟩ => rfl)
  have e2 : ridx_main_v97 (ix2 n s) k = ix2 k s := funext fun d => Fin.ext (by match d with | ⟨0, _⟩ => rfl | ⟨1, _⟩ => rfl)
  rw [val_main_v96_apply, e1, fm2, e2, h1_2]

end Cert.ReferenceIdeal.HandV

end
-- ==== Proof.Ref.T3.lean ====
/-
  The reference's scale t = 3 read against the specification: each stage of the reference program for this scale,
  read at an index, is the specification's quantity of the same name.
    filt_3[m, n]  = Σ_k V[m, k] · (s_3[k] · V[n, k])
    colsq_3[n]    = Σ_m filt_3[m, n]²
    fm_3[m, n]    = keep (filt_3[m, n]) (colsq_3[n])
    xw_3[r, s]    = Σ_d x[r, d] · W_3[d, s]
    h1_3[n, s]    = max (Σ_m fm_3[m, n] · xw_3[m, s] + b_3[s]) 0
    h2_3[n, s]    = Σ_m fm_3[m, n] · h1_3[m, s]
-/
import proofs.«159438_j36850819399877_1_alg».proof.Proof.Gen.ReferenceIdeal.Read
import proofs.«159438_j36850819399877_1_alg».proof.Proof.Spec

noncomputable section

open scoped BigOperators

namespace Cert.ReferenceIdeal.HandV

open Cert.ReferenceIdeal Cert.ReferenceIdeal.Read Cert.Spec
open Idealize.ShloMosaic Idealize.ShloMosaic.ValueIdx

/-! ## Scale t = 3 -/

/-- The signal s_3 broadcast along the columns: entry (k, n) is s_3[k]. The row-major reshape of the 1 × 2048 × 4
    array to 2048 × 4 keeps the flat position, so position (k, 3) comes from (0, k, 3). -/
theorem sig3 (a : Args) (k n : Fin 2048) :
    val_main_v102 (F := Ideal) a.sg (ix2 k n) = a.sg (ix3 0 k 3) := by
  rw [val_main_v102_apply, val_main_v100_apply, val_main_v99_apply, val_main_v98_apply, val_main_v1_apply,
    val_main_v0_apply]
  refine congrArg a.sg (funext fun d => Fin.ext ?_)
  have hk := k.isLt
  match d with
  | ⟨0, _⟩ => rfl
  | ⟨1, _⟩ => show ((k.val % 2048) * 4 + (3 + 0)) / 4 % 2048 = k.val; omega
  | ⟨2, _⟩ => show ((k.val % 2048) * 4 + (3 + 0)) % 4 = 3; omega

/-- The spectral filter of scale 3: V · diag(s_3) · Vᵀ at (m, n). -/
theorem filt3 (a : Args) (m n : Fin 2048) :
    val_main_v104 (F := Ideal) a.evc a.sg (ix2 m n) = filt a 3 m n := by
  rw [val_main_v104_apply]
  unfold filt
  refine Finset.sum_congr rfl fun k _ => ?_
  have e1 : lidx_main_v104 (ix2 m n) k = ix2 m k := funext fun d => Fin.ext (by match d with | ⟨0, _⟩ => rfl | ⟨1, _⟩ => rfl)
  have e2 : ridx_main_v104 (ix2 m n) k = ix2 k n := funext fun d => Fin.ext (by match d with | ⟨0, _⟩ => rfl | ⟨1, _⟩ => rfl)
  have e3 : idx_main_v101 (ix2 k n) = ix2 n k := funext fun d => Fin.ext (by match d with | ⟨0, _⟩ => rfl | ⟨1, _⟩ => rfl)
  rw [e1, e2, val_main_v103_apply, sig3, val_main_v101_apply, e3]
  rfl

/-- The squared length of column n of the scale-3 filter; the sum starts from the zero word. -/
theorem colsq3 (a : Args) (n : Fin 2048) :
    val_main_v106 (F := Ideal) a.evc a.sg (ix1 n) = colsq a 3 n := by
  rw [val_main_v106_apply]
  unfold colsq
  have hz : val_main_cst_11 (F := Ideal) (Shape.Idx.first Gen.h_S_) = zero := rfl
  rw [hz, zero_eq, zero_add]
  refine Finset.sum_congr rfl fun k _ => ?_
  have e1 : idx_main_v106 (ix1 n) k = ix2 k n := funext fun d => Fin.ext (by match d with | ⟨0, _⟩ => rfl | ⟨1, _⟩ => rfl)
  rw [e1, val_main_v105_apply, filt3]
  rfl

/-- The scale-3 filter's entry divided by its column's length (floored). -/
theorem normed3 (a : Args) (m n : Fin 2048) :
    val_main_v112 (F := Ideal) a.evc a.sg (ix2 m n) = normed (filt a 3 m n) (colsq a 3 n) := by
  have e1 : idx_main_v107 (idx_main_v111 (ix2 m n)) = ix1 n := funext fun d => Fin.ext (by match d with | ⟨0, _⟩ => rfl)
  rw [val_main_v112_apply, filt3, val_main_v111_apply, val_main_v110_apply, val_main_v108_apply, val_main_v107_apply, e1, colsq3,
    val_main_v109_apply, val_main_cst_12_apply]
  rfl

/-- The normalised scale-3 filter with its small entries dropped. -/
theorem fm3 (a : Args) (m n : Fin 2048) :
    val_main_v116 (F := Ideal) a.evc a.sg (ix2 m n) = fm a 3 m n := by
  rw [val_main_v116_apply, val_main_v115_apply, val_main_v113_apply, normed3, val_main_v114_apply, val_main_cst_13_apply,
    val_main_call6_v1_apply, val_main_call6_v0_apply, val_main_cst_14_apply]
  rfl

/-- The scale-3 weight matrix W_3 as a 768 × 192 array: the slice [3:4] of the 4 × 768 × 192 array, its unit axis dropped. -/
theorem w3 (a : Args) (d : Fin 768) (s : Fin 192) :
    val_main_v119 (F := Ideal) a.wg (ix2 d s) = a.wg (ix3 3 d s) := by
  rw [val_main_v119_apply, val_main_v118_apply]
  refine congrArg a.wg (funext fun c => Fin.ext ?_)
  have hd := d.isLt
  have hs := s.isLt
  match c with
  | ⟨0, _⟩ => rfl
  | ⟨1, _⟩ => show (d.val * 192 + s.val) / 192 % 768 = d.val; omega
  | ⟨2, _⟩ => show (d.val * 192 + s.val) % 192 = s.val; omega

/-- The features times the scale-3 weights. -/
theorem xw3 (a : Args) (r : Fin 2048) (s : Fin 192) :
    val_main_v120 (F := Ideal) a.x a.wg (ix2 r s) = xw a 3 r s := by
  rw [val_main_v120_apply]
  unfold xw
  refine Finset.sum_congr rfl fun k _ => ?_
  have e1 : lidx_main_v120 (ix2 r s) k = ix2 r k := funext fun d => Fin.ext (by match d with | ⟨0, _⟩ => rfl | ⟨1, _⟩ => rfl)
  have e2 : ridx_main_v120 (ix2 r s) k = ix2 k s := funext fun d => Fin.ext (by match d with | ⟨0, _⟩ => rfl | ⟨1, _⟩ => rfl)
  rw [e1, e2, w3]

/-- The scale-3 bias broadcast along the rows: entry (n, s) is b_3[s]. -/
theorem bias3 (a : Args) (n : Fin 2048) (s : Fin 192) :
    val_main_v125 (F := Ideal) a.bg (ix2 n s) = a.bg (ix2 3 s) := by
  rw [val_main_v125_apply, val_main_v124_apply, val_main_v123_apply, val_main_v122_apply]
  refine congrArg a.bg (funext fun c => Fin.ext ?_)
  have hs := s.isLt
  match c with
  | ⟨0, _⟩ => rfl
  | ⟨1, _⟩ => show s.val % 192 = s.val; omega

/-- One propagation through fm_3ᵀ, the bias, the rectifier. -/
theorem h1_3 (a : Args) (n : Fin 2048) (s : Fin 192) :
    val_main_v127 (F := Ideal) a.x a.evc a.sg a.wg a.bg (ix2 n s) = h1 a 3 n s := by
  rw [val_main_v127_apply, val_main_v126_apply, val_main_v121_apply, bias3, val_main_call7_v0_apply, val_main_call7_cst_apply]
  unfold h1
  have hsum : (∑ k : Fin 2048, val_main_v117 (F := Ideal) a.evc a.sg (lidx_main_v121 (ix2 n s) k)
        * val_main_v120 (F := Ideal) a.x a.wg (ridx_main_v121 (ix2 n s) k)) = ∑ m : Fin 2048, fm a 3 m n * xw a 3 m s := by
    refine Finset.sum_congr rfl fun k _ => ?_
    have e1 : idx_main_v117 (lidx_main_v121 (ix2 n s) k) = ix2 k n := funext fun d => Fin.ext (by match d with | ⟨0, _⟩ => rfl | ⟨1, _⟩ => rfl)
    have e2 : ridx_main_v121 (ix2 n s) k = ix2 k s := funext fun d => Fin.ext (by match d with | ⟨0, _⟩ => rfl | ⟨1, _⟩ => rfl)
    rw [val_main_v117_apply, e1, fm3, e2, xw3]
  rw [hsum]
  rfl

/-- The second propagation through fm_3ᵀ. -/
theorem h2_3 (a : Args) (n : Fin 2048) (s : Fin 192) :
    val_main_v129 (F := Ideal) a.x a.evc a.sg a.wg a.bg (ix2 n s) = h2 a 3 n s := by
  rw [val_main_v129_apply]
  unfold h2
  refine Finset.sum_congr rfl fun k _ => ?_
  have e1 : idx_main_v128 (lidx_main_v129 (ix2 n s) k) = ix2 k n := funext fun d => Fin.ext (by match d with | ⟨0, _⟩ => rfl | ⟨1, _⟩ => rfl)
  have e2 : ridx_main_v129 (ix2 n s) k = ix2 k s := funext fun d => Fin.ext (by match d with | ⟨0, _⟩ => rfl | ⟨1, _⟩ => rfl)
  rw [val_main_v128_apply, e1, fm3, e2, h1_3]

end Cert.ReferenceIdeal.HandV

end
-- ==== Proof.Ref.Final.lean ====
/-
  The reference's last operations read against the specification: the four per-scale results laid side by side, then
  the fusion layer's matrix product, bias and rectifier.
    comb[r, 192 t + s] = h2_t[r, s]
    out[r, j]          = max (Σ_d comb[r, d] · U[d, j] + u[j]) 0
-/
import proofs.«159438_j36850819399877_1_alg».proof.Proof.Gen.ReferenceIdeal.Read
import proofs.«159438_j36850819399877_1_alg».proof.Proof.Spec

noncomputable section

open scoped BigOperators

namespace Cert.ReferenceIdeal.HandV

open Cert.ReferenceIdeal Cert.ReferenceIdeal.Read Cert.Spec
open Idealize.ShloMosaic Idealize.ShloMosaic.ValueIdx

/-- The four per-scale results as one family over the scale. -/
def pieces (a : Args) (t : Fin 4) : S2048x192.Idx → EReal :=
  match t with
  | 0 => val_main_v33 (F := Ideal) a.x a.evc a.sg a.wg a.bg
  | 1 => val_main_v65 (F := Ideal) a.x a.evc a.sg a.wg a.bg
  | 2 => val_main_v97 (F := Ideal) a.x a.evc a.sg a.wg a.bg
  | 3 => val_main_v129 (F := Ideal) a.x a.evc a.sg a.wg a.bg

/-- The four results joined along the columns: all four pieces have 192 columns, so column `j` of the joined array is
    column `j % 192` of piece `j / 192`, the other coordinate unchanged. -/
theorem comb_of (a : Args)
    (e0 : ∀ (n : Fin 2048) (s : Fin 192), val_main_v33 (F := Ideal) a.x a.evc a.sg a.wg a.bg (ix2 n s) = h2 a 0 n s)
    (e1 : ∀ (n : Fin 2048) (s : Fin 192), val_main_v65 (F := Ideal) a.x a.evc a.sg a.wg a.bg (ix2 n s) = h2 a 1 n s)
    (e2 : ∀ (n : Fin 2048) (s : Fin 192), val_main_v97 (F := Ideal) a.x a.evc a.sg a.wg a.bg (ix2 n s) = h2 a 2 n s)
    (e3 : ∀ (n : Fin 2048) (s : Fin 192), val_main_v129 (F := Ideal) a.x a.evc a.sg a.wg a.bg (ix2 n s) = h2 a 3 n s)
    (r : Fin 2048) (j : Fin 768) :
    val_main_v130 (F := Ideal) a.x a.evc a.sg a.wg a.bg (ix2 r j) = comb a r j := by
  have hp : ∀ (t : Fin 4) (n : Fin 2048) (s : Fin 192), pieces a t (ix2 n s) = h2 a t n s := by
    intro t n s
    match t with
    | 0 => exact e0 n s
    | 1 => exact e1 n s
    | 2 => exact e2 n s
    | 3 => exact e3 n s
  unfold val_main_v130 comb
  rw [← hp]
  exact concatenate_ofFn_apply (α := EReal) (t := S2048x768) (s₁ := S2048x192) 1 (pieces a) _ rfl 192 rfl
    (ix2 r j) ⟨j.val / 192, by have := j.isLt; omega⟩ rfl (ix2 r ⟨j.val % 192, Nat.mod_lt _ (by decide)⟩) rfl
    (fun b hb => match b with
      | ⟨0, _⟩ => rfl
      | ⟨1, _⟩ => absurd rfl hb)

/-- One element of the reference's result: the fusion layer's product over the joined features, plus the bias, through
    the rectifier. The product's index functions and the two broadcasts' read coordinates directly; the rectifier's
    other operand is the zero word. -/
theorem out_pt (a : Args)
    (hc : ∀ (r : Fin 2048) (d : Fin 768), val_main_v130 (F := Ideal) a.x a.evc a.sg a.wg a.bg (ix2 r d) = comb a r d)
    (r : Fin 2048) (j : Fin 768) :
    val_main_v135 (F := Ideal) a.x a.evc a.sg a.wg a.bg a.fw a.fb (ix2 r j) = out a r j := by
  rw [val_main_v135_apply, val_main_v134_apply, val_main_v131_apply, val_main_v133_apply, val_main_v132_apply,
    val_main_call8_v0_apply, val_main_call8_cst_apply]
  have hl : ∀ k : Fin 768, lidx_main_v131 (ix2 r j) k = ix2 r k := fun k => funext fun d =>
    match d with
    | ⟨0, _⟩ => rfl
    | ⟨1, _⟩ => rfl
  have hr : ∀ k : Fin 768, ridx_main_v131 (ix2 r j) k = ix2 k j := fun k => funext fun d =>
    match d with
    | ⟨0, _⟩ => rfl
    | ⟨1, _⟩ => rfl
  have hb : idx_main_v132 (idx_main_v133 (ix2 r j)) = ix1 j := funext fun d =>
    match d with
    | ⟨0, _⟩ => rfl
  rw [hb]
  simp only [hl, hr, hc]
  rfl

/-- The reference's result is the specification's, given the four per-scale results. -/
theorem ref_out_of (a : Args)
    (e0 : ∀ (n : Fin 2048) (s : Fin 192), val_main_v33 (F := Ideal) a.x a.evc a.sg a.wg a.bg (ix2 n s) = h2 a 0 n s)
    (e1 : ∀ (n : Fin 2048) (s : Fin 192), val_main_v65 (F := Ideal) a.x a.evc a.sg a.wg a.bg (ix2 n s) = h2 a 1 n s)
    (e2 : ∀ (n : Fin 2048) (s : Fin 192), val_main_v97 (F := Ideal) a.x a.evc a.sg a.wg a.bg (ix2 n s) = h2 a 2 n s)
    (e3 : ∀ (n : Fin 2048) (s : Fin 192), val_main_v129 (F := Ideal) a.x a.evc a.sg a.wg a.bg (ix2 n s) = h2 a 3 n s) :
    val_main_v135 (F := Ideal) a.x a.evc a.sg a.wg a.bg a.fw a.fb = outArr a := by
  funext i
  rw [eq_ix2 i]
  exact out_pt a (comb_of a e0 e1 e2 e3) (i 0) (i 1)

end Cert.ReferenceIdeal.HandV

end
-- ==== Proof.Ref.Out.lean ====
/-
  The reference's result is the specification's: the four per-scale results, each the specification's second
  propagation h2_t, laid side by side and sent through the fusion layer.
-/
import proofs.«159438_j36850819399877_1_alg».proof.Proof.Ref.T0
import proofs.«159438_j36850819399877_1_alg».proof.Proof.Ref.T1
import proofs.«159438_j36850819399877_1_alg».proof.Proof.Ref.T2
import proofs.«159438_j36850819399877_1_alg».proof.Proof.Ref.T3
import proofs.«159438_j36850819399877_1_alg».proof.Proof.Ref.Final

noncomputable section

namespace Cert.ReferenceIdeal.HandV

open Cert.ReferenceIdeal Cert.ReferenceIdeal.Read Cert.Spec
open Idealize.ShloMosaic Idealize.ShloMosaic.ValueIdx

/-- The reference program's result array is `outArr`. -/
theorem ref_out (a : Args) :
    val_main_v135 (F := Ideal) a.x a.evc a.sg a.wg a.bg a.fw a.fb = outArr a :=
  ref_out_of a (fun n s => h2_0 a n s) (fun n s => h2_1 a n s) (fun n s => h2_2 a n s) (fun n s => h2_3 a n s)

end Cert.ReferenceIdeal.HandV

end
-- ==== Proof.lean ====
/-
  The certificate's claim: a wavelet graph convolution computed by five tiled kernel launches equals its plain reference.

  Both programs compute, from a basis V, four spectral signals s_t, node features x, four dense layers (W_t, b_t) and a fusion
  layer (U, u): the filter V · diag(s_t) · Vᵀ, its columns normalised to unit length (under a floor) with small entries
  dropped, two propagations through the transposed filter around a dense layer with bias and rectifier, the four results
  side by side, and a last dense layer with rectifier (Proof/Spec.lean states this once, over the extended reals).
  The kernel program tiles the work: the filter's product is accumulated over four blocks of the summed axis, the other
  products are taken block of rows by block of rows, and it narrows intermediate arrays to a shorter float format, which
  at the ideal instance is the identity. Over the extended reals a sum may be regrouped and reordered freely and a product's
  factors exchanged; no other law is needed, so the precondition is never opened.

  frames: each kernel program runs to the end with its arguments unchanged — the five launches' runs chained through the
  host operations between them (Proof/KI/Run.lean at the ideal instance, Proof/K/Run.lean at the word instance: one text,
  generic in the float instance); the reference's frame is its run with the result dropped.
  preserves: the idealisation rewrote nothing.
  algebraic: the kernel's result array is the specification's (Proof/KI/Value.lean), and so is the reference's (Proof/Ref/Out.lean).
-/
import proofs.«159438_j36850819399877_1_alg».proof.Defs
import proofs.«159438_j36850819399877_1_alg».proof.Proof.Gen.Kernel
import proofs.«159438_j36850819399877_1_alg».proof.Proof.Gen.KernelIdeal
import proofs.«159438_j36850819399877_1_alg».proof.Proof.Gen.ReferenceIdeal
import proofs.«159438_j36850819399877_1_alg».proof.Proof.Gen.ReferenceIdeal.Run
import proofs.«159438_j36850819399877_1_alg».proof.Proof.Gen.ReferenceIdeal.Read
import proofs.«159438_j36850819399877_1_alg».proof.Proof.Gen.Pre_finite_inputs
import proofs.«159438_j36850819399877_1_alg».proof.Proof.K.Run
import proofs.«159438_j36850819399877_1_alg».proof.Proof.KI.Value
import proofs.«159438_j36850819399877_1_alg».proof.Proof.Ref.Out

noncomputable section

namespace Cert.Proof

open Idealize.ShloMosaic Idealize.SL.Sem

/-- The word-level kernel program runs to the end and leaves its arguments as launched. -/
theorem frame_k : Cert.frame_Kernel := fun m ρ _ => Cert.Kernel.Hand.frame (F := Bits) m ρ

/-- So does the idealized kernel program. -/
theorem frame_ki : Cert.frame_KernelIdeal := fun m ρ _ => Cert.KernelIdeal.Hand.frame (F := Ideal) m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the specification's result array of the (agreeing) arguments. -/
theorem algebraic : Cert.algebraic_KernelIdeal_ReferenceIdeal := by
  intro m ρ m' ρ' _ hagree
  refine ⟨fun c => Cert.Spec.outArr (Cert.KernelIdeal.HandV.kargs m c), Cert.KernelIdeal.HandV.value_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v135_eq, (hagree c).1, (hagree c).2.1, (hagree c).2.2.1, (hagree c).2.2.2.1,
    (hagree c).2.2.2.2.1, (hagree c).2.2.2.2.2.1, (hagree c).2.2.2.2.2.2]
  exact Cert.ReferenceIdeal.HandV.ref_out (Cert.KernelIdeal.HandV.kargs m c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
